-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  IdealRules.truncf_extf.Statement Cert.KernelIdeal.S1x128x640x16 .f32 .bf16
  ∧ IdealRules.truncf_extf.Statement Cert.KernelIdeal.S1x128x640x16 .f32 .bf16
  ∧ IdealRules.truncf_extf.Statement Cert.KernelIdeal.S1x128x640x16 .f32 .bf16
  ∧ IdealRules.truncf_extf.Statement Cert.KernelIdeal.S1x128x640x16 .f32 .bf16
  ∧ IdealRules.truncf_extf.Statement Cert.KernelIdeal.S1x128x640x16 .f32 .bf16
  ∧ IdealRules.truncf_extf.Statement Cert.KernelIdeal.S1x128x640x16 .f32 .bf16
  ∧ IdealRules.truncf_extf.Statement Cert.KernelIdeal.S1x128x640x16 .f32 .bf16
  ∧ IdealRules.truncf_extf.Statement Cert.KernelIdeal.S1x128x640x16 .f32 .bf16
  ∧ IdealRules.truncf_extf.Statement Cert.KernelIdeal.S1x128x640x16 .f32 .bf16
  ∧ IdealRules.truncf_extf.Statement Cert.KernelIdeal.S1x128x640x16 .f32 .bf16
  ∧ IdealRules.truncf_extf.Statement Cert.KernelIdeal.S1x128x640x16 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v32)) (v1 : (c : Dev Cert.KernelIdeal.nD) → Buf (Elt Ideal) ((c.tc : Thread Cert.KernelIdeal.nD Cert.KernelIdeal.τ).loc Cert.KernelIdeal.main_v70)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v32) = v0 c
          ∧ r.2.mem ((c.tc : Thread Cert.KernelIdeal.nD Cert.KernelIdeal.τ).loc Cert.KernelIdeal.main_v70) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v72) = v0 c
          ∧ r.2.mem ((c.tc : Thread Cert.ReferenceIdeal.nD Cert.ReferenceIdeal.τ).loc Cert.ReferenceIdeal.main_v110) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x8x640x640 : Shape := ⟨4, ![8, 8, 640, 640]⟩
abbrev S8x640x640 : Shape := ⟨3, ![8, 640, 640]⟩
abbrev S_ : Shape := ⟨0, ![]⟩

class Facts : Prop where
  bcast_S_S8x8x640x640 : S_.BroadcastsInDim S8x8x640x640 (![] : Fin 0 → Fin S8x8x640x640.rank)
  reducesTo_S8x8x640x640_S_d0_1_2_3 : S8x8x640x640.ReducesTo [0, 1, 2, 3] S_
  h_S_ : 0 < S_.numel
  bcast_S_S8x640x640 : S_.BroadcastsInDim S8x640x640 (![] : Fin 0 → Fin S8x640x640.rank)
  reducesTo_S8x640x640_S_d0_1_2 : S8x640x640.ReducesTo [0, 1, 2] S_

variable [Facts]

def fn_part1 {F : FTy → Type} [FloatOps F] (main_v10 : IVec S_ 1) (main_v15 : IVec S8x640x640 1) (main_c_5 : IVec S_ 1) : IVec S_ 1 :=
  let main_v16 : IVec S_ 1 := (fun x v => Host.reduce IntOp.andi x v reducesTo_S8x640x640_S_d0_1_2 h_S_) main_v15 main_c_5
  let main_v17 : IVec S_ 1 := andi main_v10 main_v16
  main_v17

def fn {F : FTy → Type} [FloatOps F] (main_arg0 : FVec F S8x8x640x640 .f32) (main_arg1 : IVec S8x640x640 32) (main_arg2 : IVec S8x640x640 32) (main_arg3 : IVec S8x640x640 32) (main_arg4 : IVec S8x640x640 32) : IVec S_ 1 :=
  let main_v0 : FVec F S8x8x640x640 .f32 := Host.absf main_arg0
  let main_cst : FVec F S_ .f32 := constant S_ .f32 0x7F800000#32
  let main_v1 : FVec F S8x8x640x640 .f32 := broadcastInDim S8x8x640x640 ![] bcast_S_S8x8x640x640 main_cst
  let main_v2 : IVec S8x8x640x640 1 := cmpf .olt main_v0 main_v1
  let main_c : IVec S_ 1 := constantI S_ 1 1#1
  let main_v3 : IVec S_ 1 := (fun x v => Host.reduce IntOp.andi x v reducesTo_S8x8x640x640_S_d0_1_2_3 h_S_) main_v2 main_c
  let main_c_0 : IVec S_ 32 := constantI S_ 32 0#32
  let main_v4 : IVec S8x640x640 32 := broadcastInDim S8x640x640 ![] bcast_S_S8x640x640 main_c_0
  let main_v5 : IVec S8x640x640 1 := cmpi .sge main_arg1 main_v4
  let main_c_1 : IVec S_ 32 := constantI S_ 32 16#32
  let main_v6 : IVec S8x640x640 32 := broadcastInDim S8x640x640 ![] bcast_S_S8x640x640 main_c_1
  let main_v7 : IVec S8x640x640 1 := cmpi .slt main_arg1 main_v6
  let main_v8 : IVec S8x640x640 1 := andi main_v5 main_v7
  let main_c_2 : IVec S_ 1 := constantI S_ 1 1#1
  let main_v9 : IVec S_ 1 := (fun x v => Host.reduce IntOp.andi x v reducesTo_S8x640x640_S_d0_1_2 h_S_) main_v8 main_c_2
  let main_v10 : IVec S_ 1 := andi main_v3 main_v9
  let main_c_3 : IVec S_ 32 := constantI S_ 32 0#32
  let main_v11 : IVec S8x640x640 32 := broadcastInDim S8x640x640 ![] bcast_S_S8x640x640 main_c_3
  let main_v12 : IVec S8x640x640 1 := cmpi .sge main_arg2 main_v11
  let main_c_4 : IVec S_ 32 := constantI S_ 32 16#32
  let main_v13 : IVec S8x640x640 32 := broadcastInDim S8x640x640 ![] bcast_S_S8x640x640 main_c_4
  let main_v14 : IVec S8x640x640 1 := cmpi .slt main_arg2 main_v13
  let main_v15 : IVec S8x640x640 1 := andi main_v12 main_v14
  let main_c_5 : IVec S_ 1 := constantI S_ 1 1#1
  fn_part1 (F := F) main_v10 main_v15 main_c_5
-- ==== Kernel.lean ====
abbrev S8x8x640x640 : Shape := ⟨4, ![8, 8, 640, 640]⟩
abbrev S8x640x640 : Shape := ⟨3, ![8, 640, 640]⟩
abbrev S8x5x16 : Shape := ⟨3, ![8, 5, 16]⟩
abbrev S1x4x128x640 : Shape := ⟨4, ![1, 4, 128, 640]⟩
abbrev S1x128x640 : Shape := ⟨3, ![1, 128, 640]⟩
abbrev S1x5x16 : Shape := ⟨3, ![1, 5, 16]⟩
abbrev S1x1x1x16 : Shape := ⟨4, ![1, 1, 1, 16]⟩
abbrev S1x128x640x1 : Shape := ⟨4, ![1, 128, 640, 1]⟩
abbrev S1x128x640x16 : Shape := ⟨4, ![1, 128, 640, 16]⟩
abbrev S1x16 : Shape := ⟨2, ![1, 16]⟩
abbrev S1x1x128x640 : Shape := ⟨4, ![1, 1, 128, 640]⟩
abbrev S1x1x16 : Shape := ⟨3, ![1, 1, 16]⟩
abbrev S1x4x16 : Shape := ⟨3, ![1, 4, 16]⟩
abbrev S8x4x16 : Shape := ⟨3, ![8, 4, 16]⟩
abbrev S8x1x16 : Shape := ⟨3, ![8, 1, 16]⟩
abbrev S8x16 : Shape := ⟨2, ![8, 16]⟩
abbrev S_ : Shape := ⟨0, ![]⟩
abbrev S8x2x16 : Shape := ⟨3, ![8, 2, 16]⟩
abbrev S1x2x16 : Shape := ⟨3, ![1, 2, 16]⟩
abbrev S8x16x4 : Shape := ⟨3, ![8, 16, 4]⟩
abbrev S16 : Shape := ⟨1, ![16]⟩
abbrev S8 : Shape := ⟨1, ![8]⟩
abbrev S8x16x1x4 : Shape := ⟨4, ![8, 16, 1, 4]⟩
abbrev S8x1x16x4 : Shape := ⟨4, ![8, 1, 16, 4]⟩
abbrev S8x16x16x4 : Shape := ⟨4, ![8, 16, 16, 4]⟩
abbrev S8x16x16 : Shape := ⟨3, ![8, 16, 16]⟩
abbrev S16x16 : Shape := ⟨2, ![16, 16]⟩
abbrev S8x16x1 : Shape := ⟨3, ![8, 16, 1]⟩
abbrev S1x16x16 : Shape := ⟨3, ![1, 16, 16]⟩

abbrev nBuf : Space → Nat
  | .hbm => 103
  | .vmem => 14
  | .smem => 0
  | _ => 0

abbrev bufTy : (tb : Table) → Fin (tcTables nBuf tb) → BufTy
  | .hbm, ⟨0, _⟩ => ⟨S8x8x640x640, .f32⟩
  | .hbm, ⟨1, _⟩ => ⟨S8x640x640, .i32⟩
  | .hbm, ⟨2, _⟩ => ⟨S8x640x640, .i32⟩
  | .hbm, ⟨3, _⟩ => ⟨S8x640x640, .i32⟩
  | .hbm, ⟨4, _⟩ => ⟨S8x640x640, .i32⟩
  | .hbm, ⟨5, _⟩ => ⟨S8x5x16, .f32⟩
  | .hbm, ⟨6, _⟩ => ⟨S8x4x16, .f32⟩
  | .hbm, ⟨7, _⟩ => ⟨S8x1x16, .f32⟩
  | .hbm, ⟨8, _⟩ => ⟨S8x16, .f32⟩
  | .hbm, ⟨9, _⟩ => ⟨S_, .f32⟩
  | .hbm, ⟨10, _⟩ => ⟨S8x16, .f32⟩
  | .hbm, ⟨11, _⟩ => ⟨S8x16, .f32⟩
  | .hbm, ⟨12, _⟩ => ⟨S8x1x16, .f32⟩
  | .hbm, ⟨13, _⟩ => ⟨S8x4x16, .f32⟩
  | .hbm, ⟨14, _⟩ => ⟨S8x4x16, .f32⟩
  | .hbm, ⟨15, _⟩ => ⟨S8x2x16, .f32⟩
  | .hbm, ⟨16, _⟩ => ⟨S8x1x16, .f32⟩
  | .hbm, ⟨17, _⟩ => ⟨S8x16, .f32⟩
  | .hbm, ⟨18, _⟩ => ⟨S8x1x16, .f32⟩
  | .hbm, ⟨19, _⟩ => ⟨S8x16, .f32⟩
  | .hbm, ⟨20, _⟩ => ⟨S8x16x4, .f32⟩
  | .hbm, ⟨21, _⟩ => ⟨S_, .f32⟩
  | .hbm, ⟨22, _⟩ => ⟨S8x16, .f32⟩
  | .hbm, ⟨23, _⟩ => ⟨S8x16, .i1⟩
  | .hbm, ⟨24, _⟩ => ⟨S16, .i32⟩
  | .hbm, ⟨25, _⟩ => ⟨S1x16, .i32⟩
  | .hbm, ⟨26, _⟩ => ⟨S_, .i32⟩
  | .hbm, ⟨27, _⟩ => ⟨S1x16, .i32⟩
  | .hbm, ⟨28, _⟩ => ⟨S1x16, .i1⟩
  | .hbm, ⟨29, _⟩ => ⟨S8x16, .i1⟩
  | .hbm, ⟨30, _⟩ => ⟨S8x16, .i1⟩
  | .hbm, ⟨31, _⟩ => ⟨S8x16, .f32⟩
  | .hbm, ⟨32, _⟩ => ⟨S_, .f32⟩
  | .hbm, ⟨33, _⟩ => ⟨S8x16, .f32⟩
  | .hbm, ⟨34, _⟩ => ⟨S8x16, .f32⟩
  | .hbm, ⟨35, _⟩ => ⟨S8x16, .f32⟩
  | .hbm, ⟨36, _⟩ => ⟨S_, .f32⟩
  | .hbm, ⟨37, _⟩ => ⟨S8, .f32⟩
  | .hbm, ⟨38, _⟩ => ⟨S8x16, .f32⟩
  | .hbm, ⟨39, _⟩ => ⟨S_, .f32⟩
  | .hbm, ⟨40, _⟩ => ⟨S8, .f32⟩
  | .hbm, ⟨41, _⟩ => ⟨S_, .f32⟩
  | .hbm, ⟨42, _⟩ => ⟨S8, .f32⟩
  | .hbm, ⟨43, _⟩ => ⟨S8, .f32⟩
  | .hbm, ⟨44, _⟩ => ⟨S8, .f32⟩
  | .hbm, ⟨45, _⟩ => ⟨S8x16x1x4, .f32⟩
  | .hbm, ⟨46, _⟩ => ⟨S8x1x16x4, .f32⟩
  | .hbm, ⟨47, _⟩ => ⟨S8x16x16x4, .f32⟩
  | .hbm, ⟨48, _⟩ => ⟨S8x16x16x4, .f32⟩
  | .hbm, ⟨49, _⟩ => ⟨S8x16x16x4, .f32⟩
  | .hbm, ⟨50, _⟩ => ⟨S8x16x16x4, .f32⟩
  | .hbm, ⟨51, _⟩ => ⟨S_, .f32⟩
  | .hbm, ⟨52, _⟩ => ⟨S8x16x16, .f32⟩
  | .hbm, ⟨53, _⟩ => ⟨S_, .f32⟩
  | .hbm, ⟨54, _⟩ => ⟨S8x16x16, .f32⟩
  | .hbm, ⟨55, _⟩ => ⟨S8x16x16, .f32⟩
  | .hbm, ⟨56, _⟩ => ⟨S8x16x16, .f32⟩
  | .hbm, ⟨57, _⟩ => ⟨S_, .f32⟩
  | .hbm, ⟨58, _⟩ => ⟨S8x16x16, .f32⟩
  | .hbm, ⟨59, _⟩ => ⟨S8x16x16, .f32⟩
  | .hbm, ⟨60, _⟩ => ⟨S_, .f32⟩
  | .hbm, ⟨61, _⟩ => ⟨S8x16x16, .f32⟩
  | .hbm, ⟨62, _⟩ => ⟨S8x16x16, .f32⟩
  | .hbm, ⟨63, _⟩ => ⟨S8x16x16, .f32⟩
  | .hbm, ⟨64, _⟩ => ⟨S8x16x16, .f32⟩
  | .hbm, ⟨65, _⟩ => ⟨S_, .i1⟩
  | .hbm, ⟨66, _⟩ => ⟨S16x16, .i1⟩
  | .hbm, ⟨67, _⟩ => ⟨S16x16, .i32⟩
  | .hbm, ⟨68, _⟩ => ⟨S_, .i32⟩
  | .hbm, ⟨69, _⟩ => ⟨S16x16, .i32⟩
  | .hbm, ⟨70, _⟩ => ⟨S16x16, .i32⟩
  | .hbm, ⟨71, _⟩ => ⟨S16x16, .i32⟩
  | .hbm, ⟨72, _⟩ => ⟨S16x16, .i1⟩
  | .hbm, ⟨73, _⟩ => ⟨S_, .i1⟩
  | .hbm, ⟨74, _⟩ => ⟨S16x16, .i1⟩
  | .hbm, ⟨75, _⟩ => ⟨S16x16, .i1⟩
  | .hbm, ⟨76, _⟩ => ⟨S8x16x1, .i1⟩
  | .hbm, ⟨77, _⟩ => ⟨S8x1x16, .i1⟩
  | .hbm, ⟨78, _⟩ => ⟨S8x16x16, .i1⟩
  | .hbm, ⟨79, _⟩ => ⟨S8x16x16, .i1⟩
  | .hbm, ⟨80, _⟩ => ⟨S8x16x16, .i1⟩
  | .hbm, ⟨81, _⟩ => ⟨S1x16x16, .i1⟩
  | .hbm, ⟨82, _⟩ => ⟨S8x16x16, .i1⟩
  | .hbm, ⟨83, _⟩ => ⟨S8x16x16, .i1⟩
  | .hbm, ⟨84, _⟩ => ⟨S8x16x16, .f32⟩
  | .hbm, ⟨85, _⟩ => ⟨S8x16x16, .f32⟩
  | .hbm, ⟨86, _⟩ => ⟨S_, .f32⟩
  | .hbm, ⟨87, _⟩ => ⟨S8, .f32⟩
  | .hbm, ⟨88, _⟩ => ⟨S_, .f32⟩
  | .hbm, ⟨89, _⟩ => ⟨S8, .f32⟩
  | .hbm, ⟨90, _⟩ => ⟨S8, .f32⟩
  | .hbm, ⟨91, _⟩ => ⟨S8, .f32⟩
  | .hbm, ⟨92, _⟩ => ⟨S_, .f32⟩
  | .hbm, ⟨93, _⟩ => ⟨S8, .f32⟩
  | .hbm, ⟨94, _⟩ => ⟨S8, .i1⟩
  | .hbm, ⟨95, _⟩ => ⟨S_, .f32⟩
  | .hbm, ⟨96, _⟩ => ⟨S8, .f32⟩
  | .hbm, ⟨97, _⟩ => ⟨S8, .f32⟩
  | .hbm, ⟨98, _⟩ => ⟨S8, .f32⟩
  | .hbm, ⟨99, _⟩ => ⟨S_, .f32⟩
  | .hbm, ⟨100, _⟩ => ⟨S_, .f32⟩
  | .hbm, ⟨101, _⟩ => ⟨S8, .f32⟩
  | .hbm, ⟨102, _⟩ => ⟨S8, .f32⟩
  | .local _ .vmem, ⟨0, _⟩ => ⟨S1x4x128x640, .f32⟩
  | .local _ .vmem, ⟨1, _⟩ => ⟨S1x4x128x640, .f32⟩
  | .local _ .vmem, ⟨2, _⟩ => ⟨S1x128x640, .i32⟩
  | .local _ .vmem, ⟨3, _⟩ => ⟨S1x128x640, .i32⟩
  | .local _ .vmem, ⟨4, _⟩ => ⟨S1x5x16, .f32⟩
  | .local _ .vmem, ⟨5, _⟩ => ⟨S1x5x16, .f32⟩
  | .local _ .vmem, ⟨6, _⟩ => ⟨S1x4x128x640, .f32⟩
  | .local _ .vmem, ⟨7, _⟩ => ⟨S1x4x128x640, .f32⟩
  | .local _ .vmem, ⟨8, _⟩ => ⟨S1x128x640, .i32⟩
  | .local _ .vmem, ⟨9, _⟩ => ⟨S1x128x640, .i32⟩
  | .local _ .vmem, ⟨10, _⟩ => ⟨S1x4x16, .f32⟩
  | .local _ .vmem, ⟨11, _⟩ => ⟨S1x4x16, .f32⟩
  | .local _ .vmem, ⟨12, _⟩ => ⟨S1x2x16, .f32⟩
  | .local _ .vmem, ⟨13, _⟩ => ⟨S1x2x16, .f32⟩
  | _, _ => ⟨S8x8x640x640, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_0 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_c : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst_1 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst_2 : Ref sig .tc := ⟨.hbm, 36, rfl⟩
abbrev main_v27 : Ref sig .tc := ⟨.hbm, 37, rfl⟩
abbrev main_v28 : Ref sig .tc := ⟨.hbm, 38, rfl⟩
abbrev main_cst_3 : Ref sig .tc := ⟨.hbm, 39, rfl⟩
abbrev main_v29 : Ref sig .tc := ⟨.hbm, 40, rfl⟩
abbrev main_cst_4 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_cst_5 : Ref sig .tc := ⟨.hbm, 51, rfl⟩
abbrev main_v39 : Ref sig .tc := ⟨.hbm, 52, rfl⟩
abbrev main_cst_6 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_cst_7 : Ref sig .tc := ⟨.hbm, 57, rfl⟩
abbrev main_v43 : Ref sig .tc := ⟨.hbm, 58, rfl⟩
abbrev main_v44 : Ref sig .tc := ⟨.hbm, 59, rfl⟩
abbrev main_cst_8 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_c_9 : Ref sig .tc := ⟨.hbm, 65, rfl⟩
abbrev main_v49 : Ref sig .tc := ⟨.hbm, 66, rfl⟩
abbrev main_call0_v0 : Ref sig .tc := ⟨.hbm, 67, rfl⟩
abbrev main_call0_c : Ref sig .tc := ⟨.hbm, 68, rfl⟩
abbrev main_call0_v1 : Ref sig .tc := ⟨.hbm, 69, rfl⟩
abbrev main_call0_v2 : Ref sig .tc := ⟨.hbm, 70, rfl⟩
abbrev main_call0_v3 : Ref sig .tc := ⟨.hbm, 71, rfl⟩
abbrev main_call0_v4 : Ref sig .tc := ⟨.hbm, 72, rfl⟩
abbrev main_call0_c_0 : Ref sig .tc := ⟨.hbm, 73, rfl⟩
abbrev main_call0_v5 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_cst_10 : Ref sig .tc := ⟨.hbm, 86, rfl⟩
abbrev main_v61 : Ref sig .tc := ⟨.hbm, 87, rfl⟩
abbrev main_cst_11 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_cst_12 : Ref sig .tc := ⟨.hbm, 92, rfl⟩
abbrev main_v65 : Ref sig .tc := ⟨.hbm, 93, rfl⟩
abbrev main_v66 : Ref sig .tc := ⟨.hbm, 94, rfl⟩
abbrev main_cst_13 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_cst_14 : Ref sig .tc := ⟨.hbm, 99, rfl⟩
abbrev main_call1_v0 : Ref sig .tc := ⟨.hbm, 100, rfl⟩
abbrev main_call1_v1 : Ref sig .tc := ⟨.hbm, 101, rfl⟩
abbrev main_v70 : Ref sig .tc := ⟨.hbm, 102, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13

abbrev nD : Nat := 1
abbrev τ : Topo := Topo.v7x

variable {F : FTy → Type} [FloatOps F]

abbrev grid0 : Pipeline.Grid := ⟨2, ![8, 5], ![false, false]⟩

def cc0_transform_0 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![arg0.toNat, c1_i32.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x4x128x640 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x640 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x5x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev grid1 : Pipeline.Grid := ⟨2, ![8, 5], ![false, false]⟩

def cc1_transform_0 (i : grid1.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![arg0.toNat, c1_i32.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x4x128x640 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x128x640 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x4x16 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x2x16 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

class Facts₀ : Prop where
  inb_S1x5x16_S1x5x16_0_0_0 : ∀ a, (![0, 0, 0] : Fin 3 → Nat) a + S1x5x16.size a ≤ S1x5x16.size a
  h_S1x5x16 : 0 < S1x5x16.numel
  inb_S1x4x128x640_S1x4x128x640_0_0_0_0 : ∀ a, (![0, 0, 0, 0] : Fin 4 → Nat) a + S1x4x128x640.size a ≤ S1x4x128x640.size a
  h_S1x4x128x640 : 0 < S1x4x128x640.numel
  inb_S1x128x640_S1x128x640_0_0_0 : ∀ a, (![0, 0, 0] : Fin 3 → Nat) a + S1x128x640.size a ≤ S1x128x640.size a
  h_S1x128x640 : 0 < S1x128x640.numel
  iota_S1x1x1x16_d3_w32 : S1x1x1x16.Iotas .tc 32 [3]
  shapeCasts_S1x128x640_S1x128x640x1 : S1x128x640.ShapeCasts S1x128x640x1
  broadcasts_S1x128x640x1_S1x128x640x16 : S1x128x640x1.Broadcasts S1x128x640x16
  broadcasts_S1x1x1x16_S1x128x640x16 : S1x1x1x16.Broadcasts S1x128x640x16
  natLt_1_32 : 1 < 32
  bitsLt_bf16_f32 : FTy.bits .bf16 < FTy.bits .f32
  reduces_S1x128x640x16_S1x16 : S1x128x640x16.Reduces [1, 2] S1x16
  slices_S1x4x128x640_o0_0_0_0_S1x1x128x640 : S1x4x128x640.Slices ![0, 0, 0, 0] S1x1x128x640
  shapeCasts_S1x1x128x640_S1x128x640 : S1x1x128x640.ShapeCasts S1x128x640
  shapeCasts_S1x16_S1x1x16 : S1x16.ShapeCasts S1x1x16
  slices_S1x4x128x640_o0_1_0_0_S1x1x128x640 : S1x4x128x640.Slices ![0, 1, 0, 0] S1x1x128x640
  slices_S1x4x128x640_o0_2_0_0_S1x1x128x640 : S1x4x128x640.Slices ![0, 2, 0, 0] S1x1x128x640
  slices_S1x4x128x640_o0_3_0_0_S1x1x128x640 : S1x4x128x640.Slices ![0, 3, 0, 0] S1x1x128x640
  concatenates_S1x1x16_S1x1x16_S1x1x16_S1x1x16_S1x4x16_d1 : Shape.Concatenates [S1x1x16, S1x1x16, S1x1x16, S1x1x16] S1x4x16 1
  concatenates_S1x4x16_S1x1x16_S1x5x16_d1 : Shape.Concatenates [S1x4x16, S1x1x16] S1x5x16 1
  shapeCasts_S1x5x16_S1x5x16 : S1x5x16.ShapeCasts S1x5x16
  slices_S8x5x16_S8x4x16_0_0_0 : S8x5x16.Slices ![0, 0, 0] S8x4x16
  slices_S8x5x16_S8x1x16_0_4_0 : S8x5x16.Slices ![0, 4, 0] S8x1x16
  shapeCasts_S8x1x16_S8x16 : S8x1x16.ShapeCasts S8x16
  bcast_S_S8x16 : S_.BroadcastsInDim S8x16 (![] : Fin 0 → Fin S8x16.rank)
  bcast_S8x16_S8x1x16_0_2 : S8x16.BroadcastsInDim S8x1x16 (![0, 2] : Fin 2 → Fin S8x1x16.rank)
  bcast_S8x1x16_S8x4x16_0_1_2 : S8x1x16.BroadcastsInDim S8x4x16 (![0, 1, 2] : Fin 3 → Fin S8x4x16.rank)
  inb_S1x2x16_S1x2x16_0_0_0 : ∀ a, (![0, 0, 0] : Fin 3 → Nat) a + S1x2x16.size a ≤ S1x2x16.size a
  h_S1x2x16 : 0 < S1x2x16.numel
  inb_S1x4x16_S1x4x16_0_0_0 : ∀ a, (![0, 0, 0] : Fin 3 → Nat) a + S1x4x16.size a ≤ S1x4x16.size a
  h_S1x4x16 : 0 < S1x4x16.numel
  shapeCasts_S1x4x16_S1x4x16 : S1x4x16.ShapeCasts S1x4x16
  slices_S1x4x16_o0_0_0_S1x1x16 : S1x4x16.Slices ![0, 0, 0] S1x1x16
  shapeCasts_S1x1x16_S1x16 : S1x1x16.ShapeCasts S1x16
  shapeCasts_S1x16_S1x1x1x16 : S1x16.ShapeCasts S1x1x1x16
  reduces_S1x128x640x16_S1x128x640 : S1x128x640x16.Reduces [3] S1x128x640
  shapeCasts_S1x128x640_S1x1x128x640 : S1x128x640.ShapeCasts S1x1x128x640
  slices_S1x4x16_o0_1_0_S1x1x16 : S1x4x16.Slices ![0, 1, 0] S1x1x16
  slices_S1x4x16_o0_2_0_S1x1x16 : S1x4x16.Slices ![0, 2, 0] S1x1x16
  slices_S1x4x16_o0_3_0_S1x1x16 : S1x4x16.Slices ![0, 3, 0] S1x1x16
  concatenates_S1x1x128x640_S1x1x128x640_S1x1x128x640_S1x1x128x640_S1x4x128x640_d1 : Shape.Concatenates [S1x1x128x640, S1x1x128x640, S1x1x128x640, S1x1x128x640] S1x4x128x640 1
  reduces_S1x4x128x640_S1x128x640 : S1x4x128x640.Reduces [1] S1x128x640
  concatenates_S1x1x16_S1x1x16_S1x2x16_d1 : Shape.Concatenates [S1x1x16, S1x1x16] S1x2x16 1
  shapeCasts_S1x2x16_S1x2x16 : S1x2x16.ShapeCasts S1x2x16
  slices_S8x2x16_S8x1x16_0_0_0 : S8x2x16.Slices ![0, 0, 0] S8x1x16
  slices_S8x2x16_S8x1x16_0_1_0 : S8x2x16.Slices ![0, 1, 0] S8x1x16
  transposes_S8x4x16_S8x16x4_0_2_1 : S8x4x16.Transposes [0, 2, 1] S8x16x4
  bcast_S16_S1x16_1 : S16.BroadcastsInDim S1x16 (![1] : Fin 1 → Fin S1x16.rank)
  bcast_S_S1x16 : S_.BroadcastsInDim S1x16 (![] : Fin 0 → Fin S1x16.rank)
  bcast_S1x16_S8x16_0_1 : S1x16.BroadcastsInDim S8x16 (![0, 1] : Fin 2 → Fin S8x16.rank)
  reducesTo_S8x16_S8_d1 : S8x16.ReducesTo [1] S8
  h_S_ : 0 < S_.numel
  bcast_S_S8 : S_.BroadcastsInDim S8 (![] : Fin 0 → Fin S8.rank)
  bcast_S8x16x4_S8x16x1x4_0_1_3 : S8x16x4.BroadcastsInDim S8x16x1x4 (![0, 1, 3] : Fin 3 → Fin S8x16x1x4.rank)
  bcast_S8x16x4_S8x1x16x4_0_2_3 : S8x16x4.BroadcastsInDim S8x1x16x4 (![0, 2, 3] : Fin 3 → Fin S8x1x16x4.rank)
  bcast_S8x16x1x4_S8x16x16x4_0_1_2_3 : S8x16x1x4.BroadcastsInDim S8x16x16x4 (![0, 1, 2, 3] : Fin 4 → Fin S8x16x16x4.rank)
  bcast_S8x1x16x4_S8x16x16x4_0_1_2_3 : S8x1x16x4.BroadcastsInDim S8x16x16x4 (![0, 1, 2, 3] : Fin 4 → Fin S8x16x16x4.rank)
  reducesTo_S8x16x16x4_S8x16x16_d3 : S8x16x16x4.ReducesTo [3] S8x16x16
  bcast_S_S8x16x16 : S_.BroadcastsInDim S8x16x16 (![] : Fin 0 → Fin S8x16x16.rank)
  bcast_S_S16x16 : S_.BroadcastsInDim S16x16 (![] : Fin 0 → Fin S16x16.rank)
  bcast_S8x16_S8x16x1_0_1 : S8x16.BroadcastsInDim S8x16x1 (![0, 1] : Fin 2 → Fin S8x16x1.rank)
  bcast_S8x16x1_S8x16x16_0_1_2 : S8x16x1.BroadcastsInDim S8x16x16 (![0, 1, 2] : Fin 3 → Fin S8x16x16.rank)
  bcast_S8x1x16_S8x16x16_0_1_2 : S8x1x16.BroadcastsInDim S8x16x16 (![0, 1, 2] : Fin 3 → Fin S8x16x16.rank)
  bcast_S16x16_S1x16x16_1_2 : S16x16.BroadcastsInDim S1x16x16 (![1, 2] : Fin 2 → Fin S1x16x16.rank)
  bcast_S1x16x16_S8x16x16_0_1_2 : S1x16x16.BroadcastsInDim S8x16x16 (![0, 1, 2] : Fin 3 → Fin S8x16x16.rank)
  reducesTo_S8x16x16_S8_d1_2 : S8x16x16.ReducesTo [1, 2] S8
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x4x128x640.size a ≤ S8x8x640x640.size a
  hwx0_0 : ∀ i : grid0.Coords, EltTy.bits .f32 = 32 ∨ (Rect.block (s := S8x8x640x640) S1x4x128x640.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x128x640.size a ≤ S8x640x640.size a
  hwx0_1 : ∀ i : grid0.Coords, EltTy.bits .i32 = 32 ∨ (Rect.block (s := S8x640x640) S1x128x640.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x5x16.size a ≤ S8x5x16.size a
  hwx0_2 : ∀ i : grid0.Coords, EltTy.bits .f32 = 32 ∨ (Rect.block (s := S8x5x16) S1x5x16.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x4x128x640.size a ≤ S8x8x640x640.size a
  hwx1_0 : ∀ i : grid1.Coords, EltTy.bits .f32 = 32 ∨ (Rect.block (s := S8x8x640x640) S1x4x128x640.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x128x640.size a ≤ S8x640x640.size a
  hwx1_1 : ∀ i : grid1.Coords, EltTy.bits .i32 = 32 ∨ (Rect.block (s := S8x640x640) S1x128x640.size (cc1_transform_1 i) (hinb1_1 i)).WholeWords (EltTy.packing .i32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x4x16.size a ≤ S8x4x16.size a
  hwx1_2 : ∀ i : grid1.Coords, EltTy.bits .f32 = 32 ∨ (Rect.block (s := S8x4x16) S1x4x16.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x2x16.size a ≤ S8x2x16.size a
  hwx1_3 : ∀ i : grid1.Coords, EltTy.bits .f32 = 32 ∨ (Rect.block (s := S8x2x16) S1x2x16.size (cc1_transform_3 i) (hinb1_3 i)).WholeWords (EltTy.packing .f32)

variable [Facts₀]

abbrev win0_0 : Pipeline.Window sig grid0 :=
  Pipeline.Window.ofSpec (Memref.whole main_arg0) S1x4x128x640.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S1x128x640.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x5x16.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg0) S1x4x128x640.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S1x128x640.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v8) S1x4x16.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v9) S1x2x16.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S8x8x640x640 : Shape := ⟨4, ![8, 8, 640, 640]⟩
abbrev S8x640x640 : Shape := ⟨3, ![8, 640, 640]⟩
abbrev S8x4x640x640 : Shape := ⟨4, ![8, 4, 640, 640]⟩
abbrev S8x4x409600 : Shape := ⟨3, ![8, 4, 409600]⟩
abbrev S8x409600x4 : Shape := ⟨3, ![8, 409600, 4]⟩
abbrev S8x409600 : Shape := ⟨2, ![8, 409600]⟩
abbrev S8 : Shape := ⟨1, ![8]⟩
abbrev S8x1 : Shape := ⟨2, ![8, 1]⟩
abbrev S_ : Shape := ⟨0, ![]⟩
abbrev S3276800 : Shape := ⟨1, ![3276800]⟩
abbrev S3276800x4 : Shape := ⟨2, ![3276800, 4]⟩
abbrev S128x4 : Shape := ⟨2, ![128, 4]⟩
abbrev S3276800x1 : Shape := ⟨2, ![3276800, 1]⟩
abbrev S8x16x4 : Shape := ⟨3, ![8, 16, 4]⟩
abbrev S128 : Shape := ⟨1, ![128]⟩
abbrev S8x16 : Shape := ⟨2, ![8, 16]⟩
abbrev S8x16x1 : Shape := ⟨3, ![8, 16, 1]⟩
abbrev S16 : Shape := ⟨1, ![16]⟩
abbrev S1x16 : Shape := ⟨2, ![1, 16]⟩
abbrev S8x409600x1 : Shape := ⟨3, ![8, 409600, 1]⟩
abbrev S1 : Shape := ⟨1, ![1]⟩
abbrev S1x1x1 : Shape := ⟨3, ![1, 1, 1]⟩
abbrev S8x16x1x4 : Shape := ⟨4, ![8, 16, 1, 4]⟩
abbrev S8x1x16x4 : Shape := ⟨4, ![8, 1, 16, 4]⟩
abbrev S8x16x16x4 : Shape := ⟨4, ![8, 16, 16, 4]⟩
abbrev S8x16x16 : Shape := ⟨3, ![8, 16, 16]⟩
abbrev S16x16 : Shape := ⟨2, ![16, 16]⟩
abbrev S8x1x16 : Shape := ⟨3, ![8, 1, 16]⟩
abbrev S1x16x16 : Shape := ⟨3, ![1, 16, 16]⟩

abbrev nBuf : Space → Nat
  | .hbm => 174
  | .vmem => 0
  | .smem => 0
  | _ => 0

abbrev hbmTy0_0 (i : Nat) : BufTy := match i % 128 with
  | 0 => ⟨S8x8x640x640, .f32⟩
  | 1 => ⟨S8x640x640, .i32⟩
  | 2 => ⟨S8x640x640, .i32⟩
  | 3 => ⟨S8x640x640, .i32⟩
  | 4 => ⟨S8x640x640, .i32⟩
  | 5 => ⟨S8x4x640x640, .f32⟩
  | 6 => ⟨S8x4x409600, .f32⟩
  | 7 => ⟨S8x409600x4, .f32⟩
  | 8 => ⟨S8x409600, .i32⟩
  | 9 => ⟨S8x409600, .i32⟩
  | 10 => ⟨S8, .i32⟩
  | 11 => ⟨S8x1, .i32⟩
  | 12 => ⟨S_, .i32⟩
  | 13 => ⟨S8x1, .i32⟩
  | 14 => ⟨S8x1, .i32⟩
  | 15 => ⟨S8x409600, .i32⟩
  | 16 => ⟨S8x409600, .i32⟩
  | 17 => ⟨S3276800, .i32⟩
  | 18 => ⟨S8x409600, .i32⟩
  | 19 => ⟨S8x409600, .i32⟩
  | 20 => ⟨S3276800, .i32⟩
  | 21 => ⟨S3276800x4, .f32⟩
  | 22 => ⟨S_, .f32⟩
  | 23 => ⟨S3276800, .f32⟩
  | 24 => ⟨S_, .f32⟩
  | 25 => ⟨S128x4, .f32⟩
  | 26 => ⟨S3276800x1, .i32⟩
  | 27 => ⟨S128x4, .f32⟩
  | 28 => ⟨S8x16x4, .f32⟩
  | 29 => ⟨S_, .f32⟩
  | 30 => ⟨S128, .f32⟩
  | 31 => ⟨S3276800x1, .i32⟩
  | 32 => ⟨S128, .f32⟩
  | 33 => ⟨S8x16, .f32⟩
  | 34 => ⟨S_, .f32⟩
  | 35 => ⟨S8x16, .f32⟩
  | 36 => ⟨S8x16, .f32⟩
  | 37 => ⟨S8x16x1, .f32⟩
  | 38 => ⟨S8x16x4, .f32⟩
  | 39 => ⟨S8x16x4, .f32⟩
  | 40 => ⟨S_, .f32⟩
  | 41 => ⟨S8x16, .f32⟩
  | 42 => ⟨S8x16, .i1⟩
  | 43 => ⟨S16, .i32⟩
  | 44 => ⟨S1x16, .i32⟩
  | 45 => ⟨S_, .i32⟩
  | 46 => ⟨S1x16, .i32⟩
  | 47 => ⟨S1x16, .i1⟩
  | 48 => ⟨S8x16, .i1⟩
  | 49 => ⟨S8x16, .i1⟩
  | 50 => ⟨S8x409600x1, .i32⟩
  | 51 => ⟨S_, .i32⟩
  | 52 => ⟨S8x409600x1, .i32⟩
  | 53 => ⟨S8x409600x1, .i1⟩
  | 54 => ⟨S_, .i32⟩
  | 55 => ⟨S8x409600x1, .i32⟩
  | 56 => ⟨S8x409600x1, .i32⟩
  | 57 => ⟨S8x409600x1, .i32⟩
  | 58 => ⟨S1, .i32⟩
  | 59 => ⟨S_, .i32⟩
  | 60 => ⟨S8x409600x1, .i32⟩
  | 61 => ⟨S8x409600x1, .i1⟩
  | 62 => ⟨S1x1x1, .i32⟩
  | 63 => ⟨S8x409600x1, .i32⟩
  | 64 => ⟨S8x409600x1, .i1⟩
  | 65 => ⟨S8x409600x1, .i1⟩
  | 66 => ⟨S_, .i1⟩
  | 67 => ⟨S8x409600, .i1⟩
  | 68 => ⟨S8x409600x4, .f32⟩
  | 69 => ⟨S8x409600x4, .i1⟩
  | 70 => ⟨S_, .f32⟩
  | 71 => ⟨S8x409600x4, .f32⟩
  | 72 => ⟨S8x409600x4, .f32⟩
  | 73 => ⟨S8x409600x4, .f32⟩
  | 74 => ⟨S8x409600x4, .f32⟩
  | 75 => ⟨S_, .f32⟩
  | 76 => ⟨S8x409600, .f32⟩
  | 77 => ⟨S_, .f32⟩
  | 78 => ⟨S8x409600, .f32⟩
  | 79 => ⟨S8x409600, .f32⟩
  | 80 => ⟨S8x409600, .f32⟩
  | 81 => ⟨S_, .f32⟩
  | 82 => ⟨S8x409600, .f32⟩
  | 83 => ⟨S8x409600, .f32⟩
  | 84 => ⟨S_, .f32⟩
  | 85 => ⟨S8x409600, .f32⟩
  | 86 => ⟨S8x409600, .f32⟩
  | 87 => ⟨S8x409600, .f32⟩
  | 88 => ⟨S8x409600, .f32⟩
  | 89 => ⟨S3276800, .f32⟩
  | 90 => ⟨S_, .f32⟩
  | 91 => ⟨S128, .f32⟩
  | 92 => ⟨S3276800x1, .i32⟩
  | 93 => ⟨S128, .f32⟩
  | 94 => ⟨S8x16, .f32⟩
  | 95 => ⟨S_, .f32⟩
  | 96 => ⟨S128, .f32⟩
  | 97 => ⟨S3276800x1, .i32⟩
  | 98 => ⟨S128, .f32⟩
  | 99 => ⟨S8x16, .f32⟩
  | 100 => ⟨S_, .f32⟩
  | 101 => ⟨S8x16, .f32⟩
  | 102 => ⟨S8x16, .f32⟩
  | 103 => ⟨S8x16, .f32⟩
  | 104 => ⟨S8x16, .i32⟩
  | 105 => ⟨S_, .i32⟩
  | 106 => ⟨S8, .i32⟩
  | 107 => ⟨S8, .f32⟩
  | 108 => ⟨S8x16, .f32⟩
  | 109 => ⟨S8x16, .f32⟩
  | 110 => ⟨S_, .f32⟩
  | 111 => ⟨S8, .f32⟩
  | 112 => ⟨S_, .f32⟩
  | 113 => ⟨S8, .f32⟩
  | 114 => ⟨S8, .f32⟩
  | 115 => ⟨S8, .f32⟩
  | 116 => ⟨S8x16x1x4, .f32⟩
  | 117 => ⟨S8x1x16x4, .f32⟩
  | 118 => ⟨S8x16x16x4, .f32⟩
  | 119 => ⟨S8x16x16x4, .f32⟩
  | 120 => ⟨S8x16x16x4, .f32⟩
  | 121 => ⟨S8x16x16x4, .f32⟩
  | 122 => ⟨S_, .f32⟩
  | 123 => ⟨S8x16x16, .f32⟩
  | 124 => ⟨S_, .f32⟩
  | 125 => ⟨S8x16x16, .f32⟩
  | 126 => ⟨S8x16x16, .f32⟩
  | 127 => ⟨S8x16x16, .f32⟩
  | _ => ⟨S8x8x640x640, .f32⟩

abbrev hbmTy0_1 (i : Nat) : BufTy := match i % 128 with
  | 0 => ⟨S_, .f32⟩
  | 1 => ⟨S8x16x16, .f32⟩
  | 2 => ⟨S8x16x16, .f32⟩
  | 3 => ⟨S_, .f32⟩
  | 4 => ⟨S8x16x16, .f32⟩
  | 5 => ⟨S8x16x16, .f32⟩
  | 6 => ⟨S8x16x16, .f32⟩
  | 7 => ⟨S8x16x16, .f32⟩
  | 8 => ⟨S_, .i1⟩
  | 9 => ⟨S16x16, .i1⟩
  | 10 => ⟨S16x16, .i32⟩
  | 11 => ⟨S_, .i32⟩
  | 12 => ⟨S16x16, .i32⟩
  | 13 => ⟨S16x16, .i32⟩
  | 14 => ⟨S16x16, .i32⟩
  | 15 => ⟨S16x16, .i1⟩
  | 16 => ⟨S_, .i1⟩
  | 17 => ⟨S16x16, .i1⟩
  | 18 => ⟨S16x16, .i1⟩
  | 19 => ⟨S8x16x1, .i1⟩
  | 20 => ⟨S8x1x16, .i1⟩
  | 21 => ⟨S8x16x16, .i1⟩
  | 22 => ⟨S8x16x16, .i1⟩
  | 23 => ⟨S8x16x16, .i1⟩
  | 24 => ⟨S1x16x16, .i1⟩
  | 25 => ⟨S8x16x16, .i1⟩
  | 26 => ⟨S8x16x16, .i1⟩
  | 27 => ⟨S8x16x16, .f32⟩
  | 28 => ⟨S8x16x16, .f32⟩
  | 29 => ⟨S_, .f32⟩
  | 30 => ⟨S8, .f32⟩
  | 31 => ⟨S_, .f32⟩
  | 32 => ⟨S8, .f32⟩
  | 33 => ⟨S8, .f32⟩
  | 34 => ⟨S8, .f32⟩
  | 35 => ⟨S_, .f32⟩
  | 36 => ⟨S8, .f32⟩
  | 37 => ⟨S8, .i1⟩
  | 38 => ⟨S_, .f32⟩
  | 39 => ⟨S8, .f32⟩
  | 40 => ⟨S8, .f32⟩
  | 41 => ⟨S8, .f32⟩
  | 42 => ⟨S_, .f32⟩
  | 43 => ⟨S_, .f32⟩
  | 44 => ⟨S8, .f32⟩
  | 45 => ⟨S8, .f32⟩
  | _ => ⟨S8x8x640x640, .f32⟩

abbrev hbmTy (i : Nat) : BufTy := match i / 128 with
  | 0 => hbmTy0_0 i
  | 1 => hbmTy0_1 i
  | _ => ⟨S8x8x640x640, .f32⟩

abbrev bufTy : (tb : Table) → Fin (tcTables nBuf tb) → BufTy
  | .hbm, ⟨i, _⟩ => hbmTy i
  | _, _ => ⟨S8x8x640x640, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_c : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst : Ref sig .tc := ⟨.hbm, 22, rfl⟩
abbrev main_v16 : Ref sig .tc := ⟨.hbm, 23, rfl⟩
abbrev main_cst_0 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_1 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_2 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_cst_3 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_c_4 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_call0_c : Ref sig .tc := ⟨.hbm, 51, rfl⟩
abbrev main_call0_v0 : Ref sig .tc := ⟨.hbm, 52, rfl⟩
abbrev main_call0_v1 : Ref sig .tc := ⟨.hbm, 53, rfl⟩
abbrev main_call0_c_0 : Ref sig .tc := ⟨.hbm, 54, rfl⟩
abbrev main_call0_v2 : Ref sig .tc := ⟨.hbm, 55, rfl⟩
abbrev main_call0_v3 : Ref sig .tc := ⟨.hbm, 56, rfl⟩
abbrev main_call0_v4 : Ref sig .tc := ⟨.hbm, 57, rfl⟩
abbrev main_call0_c_1 : Ref sig .tc := ⟨.hbm, 58, rfl⟩
abbrev main_call0_c_2 : Ref sig .tc := ⟨.hbm, 59, rfl⟩
abbrev main_call0_v5 : Ref sig .tc := ⟨.hbm, 60, rfl⟩
abbrev main_call0_v6 : Ref sig .tc := ⟨.hbm, 61, rfl⟩
abbrev main_call0_v7 : Ref sig .tc := ⟨.hbm, 62, rfl⟩
abbrev main_call0_v8 : Ref sig .tc := ⟨.hbm, 63, rfl⟩
abbrev main_call0_v9 : Ref sig .tc := ⟨.hbm, 64, rfl⟩
abbrev main_call0_v10 : Ref sig .tc := ⟨.hbm, 65, rfl⟩
abbrev main_call0_c_3 : Ref sig .tc := ⟨.hbm, 66, rfl⟩
abbrev main_call0_v11 : Ref sig .tc := ⟨.hbm, 67, rfl⟩
abbrev main_call0_v12 : Ref sig .tc := ⟨.hbm, 68, rfl⟩
abbrev main_call0_v13 : Ref sig .tc := ⟨.hbm, 69, rfl⟩
abbrev main_call0_cst : Ref sig .tc := ⟨.hbm, 70, rfl⟩
abbrev main_call0_v14 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_cst_5 : Ref sig .tc := ⟨.hbm, 75, rfl⟩
abbrev main_v42 : Ref sig .tc := ⟨.hbm, 76, rfl⟩
abbrev main_cst_6 : Ref sig .tc := ⟨.hbm, 77, rfl⟩
abbrev main_v43 : Ref sig .tc := ⟨.hbm, 78, rfl⟩
abbrev main_v44 : Ref sig .tc := ⟨.hbm, 79, rfl⟩
abbrev main_v45 : Ref sig .tc := ⟨.hbm, 80, rfl⟩
abbrev main_cst_7 : Ref sig .tc := ⟨.hbm, 81, rfl⟩
abbrev main_v46 : Ref sig .tc := ⟨.hbm, 82, rfl⟩
abbrev main_v47 : Ref sig .tc := ⟨.hbm, 83, rfl⟩
abbrev main_cst_8 : Ref sig .tc := ⟨.hbm, 84, rfl⟩
abbrev main_v48 : Ref sig .tc := ⟨.hbm, 85, rfl⟩
abbrev main_v49 : Ref sig .tc := ⟨.hbm, 86, rfl⟩
abbrev main_v50 : Ref sig .tc := ⟨.hbm, 87, rfl⟩
abbrev main_v51 : Ref sig .tc := ⟨.hbm, 88, rfl⟩
abbrev main_v52 : Ref sig .tc := ⟨.hbm, 89, rfl⟩
abbrev main_cst_9 : Ref sig .tc := ⟨.hbm, 90, rfl⟩
abbrev main_v53 : Ref sig .tc := ⟨.hbm, 91, rfl⟩
abbrev main_v54 : Ref sig .tc := ⟨.hbm, 92, rfl⟩
abbrev main_v55 : Ref sig .tc := ⟨.hbm, 93, rfl⟩
abbrev main_v56 : Ref sig .tc := ⟨.hbm, 94, rfl⟩
abbrev main_cst_10 : Ref sig .tc := ⟨.hbm, 95, rfl⟩
abbrev main_v57 : Ref sig .tc := ⟨.hbm, 96, rfl⟩
abbrev main_v58 : Ref sig .tc := ⟨.hbm, 97, rfl⟩
abbrev main_v59 : Ref sig .tc := ⟨.hbm, 98, rfl⟩
abbrev main_v60 : Ref sig .tc := ⟨.hbm, 99, rfl⟩
abbrev main_cst_11 : Ref sig .tc := ⟨.hbm, 100, rfl⟩
abbrev main_v61 : Ref sig .tc := ⟨.hbm, 101, rfl⟩
abbrev main_v62 : Ref sig .tc := ⟨.hbm, 102, rfl⟩
abbrev main_v63 : Ref sig .tc := ⟨.hbm, 103, rfl⟩
abbrev main_v64 : Ref sig .tc := ⟨.hbm, 104, rfl⟩
abbrev main_c_12 : Ref sig .tc := ⟨.hbm, 105, rfl⟩
abbrev main_v65 : Ref sig .tc := ⟨.hbm, 106, rfl⟩
abbrev main_v66 : Ref sig .tc := ⟨.hbm, 107, rfl⟩
abbrev main_v67 : Ref sig .tc := ⟨.hbm, 108, rfl⟩
abbrev main_v68 : Ref sig .tc := ⟨.hbm, 109, rfl⟩
abbrev main_cst_13 : Ref sig .tc := ⟨.hbm, 110, rfl⟩
abbrev main_v69 : Ref sig .tc := ⟨.hbm, 111, rfl⟩
abbrev main_cst_14 : Ref sig .tc := ⟨.hbm, 112, rfl⟩
abbrev main_v70 : Ref sig .tc := ⟨.hbm, 113, rfl⟩
abbrev main_v71 : Ref sig .tc := ⟨.hbm, 114, rfl⟩
abbrev main_v72 : Ref sig .tc := ⟨.hbm, 115, rfl⟩
abbrev main_v73 : Ref sig .tc := ⟨.hbm, 116, rfl⟩
abbrev main_v74 : Ref sig .tc := ⟨.hbm, 117, rfl⟩
abbrev main_v75 : Ref sig .tc := ⟨.hbm, 118, rfl⟩
abbrev main_v76 : Ref sig .tc := ⟨.hbm, 119, rfl⟩
abbrev main_v77 : Ref sig .tc := ⟨.hbm, 120, rfl⟩
abbrev main_v78 : Ref sig .tc := ⟨.hbm, 121, rfl⟩
abbrev main_cst_15 : Ref sig .tc := ⟨.hbm, 122, rfl⟩
abbrev main_v79 : Ref sig .tc := ⟨.hbm, 123, rfl⟩
abbrev main_cst_16 : Ref sig .tc := ⟨.hbm, 124, rfl⟩
abbrev main_v80 : Ref sig .tc := ⟨.hbm, 125, rfl⟩
abbrev main_v81 : Ref sig .tc := ⟨.hbm, 126, rfl⟩
abbrev main_v82 : Ref sig .tc := ⟨.hbm, 127, rfl⟩
abbrev main_cst_17 : Ref sig .tc := ⟨.hbm, 128, rfl⟩
abbrev main_v83 : Ref sig .tc := ⟨.hbm, 129, rfl⟩
abbrev main_v84 : Ref sig .tc := ⟨.hbm, 130, rfl⟩
abbrev main_cst_18 : Ref sig .tc := ⟨.hbm, 131, rfl⟩
abbrev main_v85 : Ref sig .tc := ⟨.hbm, 132, rfl⟩
abbrev main_v86 : Ref sig .tc := ⟨.hbm, 133, rfl⟩
abbrev main_v87 : Ref sig .tc := ⟨.hbm, 134, rfl⟩
abbrev main_v88 : Ref sig .tc := ⟨.hbm, 135, rfl⟩
abbrev main_c_19 : Ref sig .tc := ⟨.hbm, 136, rfl⟩
abbrev main_v89 : Ref sig .tc := ⟨.hbm, 137, rfl⟩
abbrev main_call1_v0 : Ref sig .tc := ⟨.hbm, 138, rfl⟩
abbrev main_call1_c : Ref sig .tc := ⟨.hbm, 139, rfl⟩
abbrev main_call1_v1 : Ref sig .tc := ⟨.hbm, 140, rfl⟩
abbrev main_call1_v2 : Ref sig .tc := ⟨.hbm, 141, rfl⟩
abbrev main_call1_v3 : Ref sig .tc := ⟨.hbm, 142, rfl⟩
abbrev main_call1_v4 : Ref sig .tc := ⟨.hbm, 143, rfl⟩
abbrev main_call1_c_0 : Ref sig .tc := ⟨.hbm, 144, rfl⟩
abbrev main_call1_v5 : Ref sig .tc := ⟨.hbm, 145, rfl⟩
abbrev main_v90 : Ref sig .tc := ⟨.hbm, 146, rfl⟩
abbrev main_v91 : Ref sig .tc := ⟨.hbm, 147, rfl⟩
abbrev main_v92 : Ref sig .tc := ⟨.hbm, 148, rfl⟩
abbrev main_v93 : Ref sig .tc := ⟨.hbm, 149, rfl⟩
abbrev main_v94 : Ref sig .tc := ⟨.hbm, 150, rfl⟩
abbrev main_v95 : Ref sig .tc := ⟨.hbm, 151, rfl⟩
abbrev main_v96 : Ref sig .tc := ⟨.hbm, 152, rfl⟩
abbrev main_v97 : Ref sig .tc := ⟨.hbm, 153, rfl⟩
abbrev main_v98 : Ref sig .tc := ⟨.hbm, 154, rfl⟩
abbrev main_v99 : Ref sig .tc := ⟨.hbm, 155, rfl⟩
abbrev main_v100 : Ref sig .tc := ⟨.hbm, 156, rfl⟩
abbrev main_cst_20 : Ref sig .tc := ⟨.hbm, 157, rfl⟩
abbrev main_v101 : Ref sig .tc := ⟨.hbm, 158, rfl⟩
abbrev main_cst_21 : Ref sig .tc := ⟨.hbm, 159, rfl⟩
abbrev main_v102 : Ref sig .tc := ⟨.hbm, 160, rfl⟩
abbrev main_v103 : Ref sig .tc := ⟨.hbm, 161, rfl⟩
abbrev main_v104 : Ref sig .tc := ⟨.hbm, 162, rfl⟩
abbrev main_cst_22 : Ref sig .tc := ⟨.hbm, 163, rfl⟩
abbrev main_v105 : Ref sig .tc := ⟨.hbm, 164, rfl⟩
abbrev main_v106 : Ref sig .tc := ⟨.hbm, 165, rfl⟩
abbrev main_cst_23 : Ref sig .tc := ⟨.hbm, 166, rfl⟩
abbrev main_v107 : Ref sig .tc := ⟨.hbm, 167, rfl⟩
abbrev main_v108 : Ref sig .tc := ⟨.hbm, 168, rfl⟩
abbrev main_v109 : Ref sig .tc := ⟨.hbm, 169, rfl⟩
abbrev main_cst_24 : Ref sig .tc := ⟨.hbm, 170, rfl⟩
abbrev main_call2_v0 : Ref sig .tc := ⟨.hbm, 171, rfl⟩
abbrev main_call2_v1 : Ref sig .tc := ⟨.hbm, 172, rfl⟩
abbrev main_v110 : Ref sig .tc := ⟨.hbm, 173, rfl⟩

abbrev nD : Nat := 1
abbrev τ : Topo := Topo.v7x

variable {F : FTy → Type} [FloatOps F]

class Facts₀ : Prop where
  slices_S8x8x640x640_S8x4x640x640_0_4_0_0 : S8x8x640x640.Slices ![0, 4, 0, 0] S8x4x640x640
  shapeCasts_S8x4x640x640_S8x4x409600 : S8x4x640x640.ShapeCasts S8x4x409600
  transposes_S8x4x409600_S8x409600x4_0_2_1 : S8x4x409600.Transposes [0, 2, 1] S8x409600x4
  shapeCasts_S8x640x640_S8x409600 : S8x640x640.ShapeCasts S8x409600
  bcast_S8_S8x1_0 : S8.BroadcastsInDim S8x1 (![0] : Fin 1 → Fin S8x1.rank)
  bcast_S_S8x1 : S_.BroadcastsInDim S8x1 (![] : Fin 0 → Fin S8x1.rank)
  bcast_S8x1_S8x409600_0_1 : S8x1.BroadcastsInDim S8x409600 (![0, 1] : Fin 2 → Fin S8x409600.rank)
  shapeCasts_S8x409600_S3276800 : S8x409600.ShapeCasts S3276800
  shapeCasts_S8x409600x4_S3276800x4 : S8x409600x4.ShapeCasts S3276800x4
  bcast_S_S3276800 : S_.BroadcastsInDim S3276800 (![] : Fin 0 → Fin S3276800.rank)
  bcast_S_S128x4 : S_.BroadcastsInDim S128x4 (![] : Fin 0 → Fin S128x4.rank)
  bcast_S3276800_S3276800x1_0 : S3276800.BroadcastsInDim S3276800x1 (![0] : Fin 1 → Fin S3276800x1.rank)
  shapeCasts_S128x4_S8x16x4 : S128x4.ShapeCasts S8x16x4
  bcast_S_S128 : S_.BroadcastsInDim S128 (![] : Fin 0 → Fin S128.rank)
  shapeCasts_S128_S8x16 : S128.ShapeCasts S8x16
  bcast_S_S8x16 : S_.BroadcastsInDim S8x16 (![] : Fin 0 → Fin S8x16.rank)
  bcast_S8x16_S8x16x1_0_1 : S8x16.BroadcastsInDim S8x16x1 (![0, 1] : Fin 2 → Fin S8x16x1.rank)
  bcast_S8x16x1_S8x16x4_0_1_2 : S8x16x1.BroadcastsInDim S8x16x4 (![0, 1, 2] : Fin 3 → Fin S8x16x4.rank)
  bcast_S16_S1x16_1 : S16.BroadcastsInDim S1x16 (![1] : Fin 1 → Fin S1x16.rank)
  bcast_S_S1x16 : S_.BroadcastsInDim S1x16 (![] : Fin 0 → Fin S1x16.rank)
  bcast_S1x16_S8x16_0_1 : S1x16.BroadcastsInDim S8x16 (![0, 1] : Fin 2 → Fin S8x16.rank)
  bcast_S8x409600_S8x409600x1_0_1 : S8x409600.BroadcastsInDim S8x409600x1 (![0, 1] : Fin 2 → Fin S8x409600x1.rank)
  bcast_S_S8x409600x1 : S_.BroadcastsInDim S8x409600x1 (![] : Fin 0 → Fin S8x409600x1.rank)
  bcast_S1_S1x1x1_2 : S1.BroadcastsInDim S1x1x1 (![2] : Fin 1 → Fin S1x1x1.rank)
  bcast_S1x1x1_S8x409600x1_0_1_2 : S1x1x1.BroadcastsInDim S8x409600x1 (![0, 1, 2] : Fin 3 → Fin S8x409600x1.rank)
  reducesTo_S8x409600x1_S8x409600_d2 : S8x409600x1.ReducesTo [2] S8x409600
  h_S_ : 0 < S_.numel
  bcast_S8x409600_S8x409600x4_0_1 : S8x409600.BroadcastsInDim S8x409600x4 (![0, 1] : Fin 2 → Fin S8x409600x4.rank)
  bcast_S_S8x409600x4 : S_.BroadcastsInDim S8x409600x4 (![] : Fin 0 → Fin S8x409600x4.rank)
  reducesTo_S8x409600x4_S8x409600_d2 : S8x409600x4.ReducesTo [2] S8x409600
  bcast_S_S8x409600 : S_.BroadcastsInDim S8x409600 (![] : Fin 0 → Fin S8x409600.rank)
  natLt_1_32 : 1 < 32
  reducesTo_S8x16_S8_d1 : S8x16.ReducesTo [1] S8
  bcast_S_S8 : S_.BroadcastsInDim S8 (![] : Fin 0 → Fin S8.rank)
  bcast_S8x16x4_S8x16x1x4_0_1_3 : S8x16x4.BroadcastsInDim S8x16x1x4 (![0, 1, 3] : Fin 3 → Fin S8x16x1x4.rank)
  bcast_S8x16x4_S8x1x16x4_0_2_3 : S8x16x4.BroadcastsInDim S8x1x16x4 (![0, 2, 3] : Fin 3 → Fin S8x1x16x4.rank)
  bcast_S8x16x1x4_S8x16x16x4_0_1_2_3 : S8x16x1x4.BroadcastsInDim S8x16x16x4 (![0, 1, 2, 3] : Fin 4 → Fin S8x16x16x4.rank)
  bcast_S8x1x16x4_S8x16x16x4_0_1_2_3 : S8x1x16x4.BroadcastsInDim S8x16x16x4 (![0, 1, 2, 3] : Fin 4 → Fin S8x16x16x4.rank)
  reducesTo_S8x16x16x4_S8x16x16_d3 : S8x16x16x4.ReducesTo [3] S8x16x16
  bcast_S_S8x16x16 : S_.BroadcastsInDim S8x16x16 (![] : Fin 0 → Fin S8x16x16.rank)
  bcast_S_S16x16 : S_.BroadcastsInDim S16x16 (![] : Fin 0 → Fin S16x16.rank)
  bcast_S8x16_S8x1x16_0_2 : S8x16.BroadcastsInDim S8x1x16 (![0, 2] : Fin 2 → Fin S8x1x16.rank)
  bcast_S8x16x1_S8x16x16_0_1_2 : S8x16x1.BroadcastsInDim S8x16x16 (![0, 1, 2] : Fin 3 → Fin S8x16x16.rank)
  bcast_S8x1x16_S8x16x16_0_1_2 : S8x1x16.BroadcastsInDim S8x16x16 (![0, 1, 2] : Fin 3 → Fin S8x16x16.rank)
  bcast_S16x16_S1x16x16_1_2 : S16x16.BroadcastsInDim S1x16x16 (![1, 2] : Fin 2 → Fin S1x16x16.rank)
  bcast_S1x16x16_S8x16x16_0_1_2 : S1x16x16.BroadcastsInDim S8x16x16 (![0, 1, 2] : Fin 3 → Fin S8x16x16.rank)
  reducesTo_S8x16x16_S8_d1_2 : S8x16x16.ReducesTo [1, 2] S8
  scatter_S128x4_S3276800x1_S3276800x4_1_0_0_1_wf : ScatterDims.WF S128x4 S3276800x1 S3276800x4 [1] [0] [0] 1
  scatter_S128_S3276800x1_S3276800_n_0_0_1_wf : ScatterDims.WF S128 S3276800x1 S3276800 [] [0] [0] 1
  gather_S8x16x4_S8x409600x1_S8x409600x4_2_1_0_0_1_2_114_wf : GatherDims.WF S8x16x4 S8x409600x1 S8x409600x4 [2] [1] [0] [1] [0] 2 ![1, 1, 4]

variable [Facts₀]

def scatter_S128x4_S3276800x1_S3276800x4_1_0_0_1 : ScatterDims S128x4 S3276800x1 S3276800x4 where
  updateWindowDims := [1]
  insertedWindowDims := [0]
  scatterDimsToOperandDims := [0]
  indexVectorDim := 1
  wf := scatter_S128x4_S3276800x1_S3276800x4_1_0_0_1_wf
def scatter_S128_S3276800x1_S3276800_n_0_0_1 : ScatterDims S128 S3276800x1 S3276800 where
  updateWindowDims := []
  insertedWindowDims := [0]
  scatterDimsToOperandDims := [0]
  indexVectorDim := 1
  wf := scatter_S128_S3276800x1_S3276800_n_0_0_1_wf
def gather_S8x16x4_S8x409600x1_S8x409600x4_2_1_0_0_1_2_114 : GatherDims S8x16x4 S8x409600x1 S8x409600x4 where
  offsetDims := [2]
  collapsedSliceDims := [1]
  operandBatchingDims := [0]
  startIndicesBatchingDims := [0]
  startIndexMap := [1]
  indexVectorDim := 2
  sliceSizes := ![1, 1, 4]
  wf := gather_S8x16x4_S8x409600x1_S8x409600x4_2_1_0_0_1_2_114_wf

class Facts : Prop extends Facts₀ where

variable [Facts]
-- ==== Proof.RefRunH1.lean ====
/- The reference's 169 host operations cut into 14 consecutive stretches; for each cut the table `At j X X0` of what the buffers read after it hold
   in contents `X` reached from launch contents `X0` — each argument what `X0` holds, every other buffer its stage (`val_…` of `X0`'s arguments) —;
   and for each stretch the step `At j X X0 → At (j+1) (after stretch_j X) X0`: a buffer the stretch does not write keeps its contents, a buffer it writes
   holds the stretch's operations applied to the earlier stages, which is its stage unfolded. -/
import proofs.«410730_j59820304499339_4_alg».proof.Proof.RefRead
import Idealize.ShloMosaic.Lib.StableHlo.Run

set_option maxHeartbeats 1000000

noncomputable section

namespace Cert.ReferenceIdeal.RunH

open Cert.ReferenceIdeal Cert.ReferenceIdeal.Gen Cert.ReferenceIdeal.ValueP Cert.ReferenceIdeal.ReadP
open Idealize.ShloMosaic Idealize.ShloMosaic.TcCoe Idealize.SL.Sem Idealize.ShloMosaic.StableHlo

variable {F : FTy → Type} [FloatOps F]

/-! ## The operations, cut into consecutive stretches -/

/-- Operations 0 … 16 of @main. -/
abbrev stretch0 : List (HloOp τ sig (Elt F)) :=
  [ unary main_arg0 main_v0 ((extractStridedSlice S8x4x640x640 ![0, 4, 0, 0] · slices_S8x8x640x640_S8x4x640x640_0_4_0_0) : (⟨S8x8x640x640, .f32⟩ : BufTy).Contents (Elt F) → (⟨S8x4x640x640, .f32⟩ : BufTy).Contents (Elt F)),
    reshape main_v0 main_v1 rfl shapeCasts_S8x4x640x640_S8x4x409600,
    unary main_v1 main_v2 ((transpose S8x409600x4 [0, 2, 1] · transposes_S8x4x409600_S8x409600x4_0_2_1) : (⟨S8x4x409600, .f32⟩ : BufTy).Contents (Elt F) → (⟨S8x409600x4, .f32⟩ : BufTy).Contents (Elt F)),
    reshape main_arg2 main_v3 rfl shapeCasts_S8x640x640_S8x409600,
    reshape main_arg1 main_v4 rfl shapeCasts_S8x640x640_S8x409600,
    nullary main_v5 (iotaInDim S8 32 0),
    unary main_v5 main_v6 (broadcastInDim S8x1 ![0] bcast_S8_S8x1_0 : (⟨S8, .i32⟩ : BufTy).Contents (Elt F) → (⟨S8x1, .i32⟩ : BufTy).Contents (Elt F)),
    nullary main_c (constantI S_ 32 16#32),
    unary main_c main_v7 (broadcastInDim S8x1 ![] bcast_S_S8x1 : (⟨S_, .i32⟩ : BufTy).Contents (Elt F) → (⟨S8x1, .i32⟩ : BufTy).Contents (Elt F)),
    binary main_v6 main_v7 main_v8 (muli : (⟨S8x1, .i32⟩ : BufTy).Contents (Elt F) → (⟨S8x1, .i32⟩ : BufTy).Contents (Elt F) → (⟨S8x1, .i32⟩ : BufTy).Contents (Elt F)),
    unary main_v8 main_v9 (broadcastInDim S8x409600 ![0, 1] bcast_S8x1_S8x409600_0_1 : (⟨S8x1, .i32⟩ : BufTy).Contents (Elt F) → (⟨S8x409600, .i32⟩ : BufTy).Contents (Elt F)),
    binary main_v3 main_v9 main_v10 (addi : (⟨S8x409600, .i32⟩ : BufTy).Contents (Elt F) → (⟨S8x409600, .i32⟩ : BufTy).Contents (Elt F) → (⟨S8x409600, .i32⟩ : BufTy).Contents (Elt F)),
    reshape main_v10 main_v11 rfl shapeCasts_S8x409600_S3276800,
    unary main_v8 main_v12 (broadcastInDim S8x409600 ![0, 1] bcast_S8x1_S8x409600_0_1 : (⟨S8x1, .i32⟩ : BufTy).Contents (Elt F) → (⟨S8x409600, .i32⟩ : BufTy).Contents (Elt F)),
    binary main_v4 main_v12 main_v13 (addi : (⟨S8x409600, .i32⟩ : BufTy).Contents (Elt F) → (⟨S8x409600, .i32⟩ : BufTy).Contents (Elt F) → (⟨S8x409600, .i32⟩ : BufTy).Contents (Elt F)),
    reshape main_v13 main_v14 rfl shapeCasts_S8x409600_S3276800,
    reshape main_v2 main_v15 rfl shapeCasts_S8x409600x4_S3276800x4 ]

/-- Operations 17 … 34 of @main. -/
abbrev stretch1 : List (HloOp τ sig (Elt F)) :=
  [ nullary main_cst (constant S_ .f32 0x3F800000#32),
    unary main_cst main_v16 (broadcastInDim S3276800 ![] bcast_S_S3276800 : (⟨S_, .f32⟩ : BufTy).Contents (Elt F) → (⟨S3276800, .f32⟩ : BufTy).Contents (Elt F)),
    nullary main_cst_0 (constant S_ .f32 0x00000000#32),
    unary main_cst_0 main_v17 (broadcastInDim S128x4 ![] bcast_S_S128x4 : (⟨S_, .f32⟩ : BufTy).Contents (Elt F) → (⟨S128x4, .f32⟩ : BufTy).Contents (Elt F)),
    unary main_v11 main_v18 (broadcastInDim S3276800x1 ![0] bcast_S3276800_S3276800x1_0 : (⟨S3276800, .i32⟩ : BufTy).Contents (Elt F) → (⟨S3276800x1, .i32⟩ : BufTy).Contents (Elt F)),
    ternary main_v17 main_v18 main_v15 main_v19 ((fun x i u => Host.scatterAdd scatter_S128x4_S3276800x1_S3276800x4_1_0_0_1 x i u) : (⟨S128x4, .f32⟩ : BufTy).Contents (Elt F) → (⟨S3276800x1, .i32⟩ : BufTy).Contents (Elt F) → (⟨S3276800x4, .f32⟩ : BufTy).Contents (Elt F) → (⟨S128x4, .f32⟩ : BufTy).Contents (Elt F)),
    reshape main_v19 main_v20 rfl shapeCasts_S128x4_S8x16x4,
    nullary main_cst_1 (constant S_ .f32 0x00000000#32),
    unary main_cst_1 main_v21 (broadcastInDim S128 ![] bcast_S_S128 : (⟨S_, .f32⟩ : BufTy).Contents (Elt F) → (⟨S128, .f32⟩ : BufTy).Contents (Elt F)),
    unary main_v11 main_v22 (broadcastInDim S3276800x1 ![0] bcast_S3276800_S3276800x1_0 : (⟨S3276800, .i32⟩ : BufTy).Contents (Elt F) → (⟨S3276800x1, .i32⟩ : BufTy).Contents (Elt F)),
    ternary main_v21 main_v22 main_v16 main_v23 ((fun x i u => Host.scatterAdd scatter_S128_S3276800x1_S3276800_n_0_0_1 x i u) : (⟨S128, .f32⟩ : BufTy).Contents (Elt F) → (⟨S3276800x1, .i32⟩ : BufTy).Contents (Elt F) → (⟨S3276800, .f32⟩ : BufTy).Contents (Elt F) → (⟨S128, .f32⟩ : BufTy).Contents (Elt F)),
    reshape main_v23 main_v24 rfl shapeCasts_S128_S8x16,
    nullary main_cst_2 (constant S_ .f32 0x3F800000#32),
    unary main_cst_2 main_v25 (broadcastInDim S8x16 ![] bcast_S_S8x16 : (⟨S_, .f32⟩ : BufTy).Contents (Elt F) → (⟨S8x16, .f32⟩ : BufTy).Contents (Elt F)),
    binary main_v24 main_v25 main_v26 (maximumf : (⟨S8x16, .f32⟩ : BufTy).Contents (Elt F) → (⟨S8x16, .f32⟩ : BufTy).Contents (Elt F) → (⟨S8x16, .f32⟩ : BufTy).Contents (Elt F)),
    unary main_v26 main_v27 (broadcastInDim S8x16x1 ![0, 1] bcast_S8x16_S8x16x1_0_1 : (⟨S8x16, .f32⟩ : BufTy).Contents (Elt F) → (⟨S8x16x1, .f32⟩ : BufTy).Contents (Elt F)),
    unary main_v27 main_v28 (broadcastInDim S8x16x4 ![0, 1, 2] bcast_S8x16x1_S8x16x4_0_1_2 : (⟨S8x16x1, .f32⟩ : BufTy).Contents (Elt F) → (⟨S8x16x4, .f32⟩ : BufTy).Contents (Elt F)),
    binary main_v20 main_v28 main_v29 (Host.divf : (⟨S8x16x4, .f32⟩ : BufTy).Contents (Elt F) → (⟨S8x16x4, .f32⟩ : BufTy).Contents (Elt F) → (⟨S8x16x4, .f32⟩ : BufTy).Contents (Elt F)) ]

/-- Operations 35 … 44 of @main. -/
abbrev stretch2 : List (HloOp τ sig (Elt F)) :=
  [ nullary main_cst_3 (constant S_ .f32 0x00000000#32),
    unary main_cst_3 main_v30 (broadcastInDim S8x16 ![] bcast_S_S8x16 : (⟨S_, .f32⟩ : BufTy).Contents (Elt F) → (⟨S8x16, .f32⟩ : BufTy).Contents (Elt F)),
    binary main_v24 main_v30 main_v31 (cmpf .ogt : (⟨S8x16, .f32⟩ : BufTy).Contents (Elt F) → (⟨S8x16, .f32⟩ : BufTy).Contents (Elt F) → (⟨S8x16, .i1⟩ : BufTy).Contents (Elt F)),
    nullary main_v32 (iotaInDim S16 32 0),
    unary main_v32 main_v33 (broadcastInDim S1x16 ![1] bcast_S16_S1x16_1 : (⟨S16, .i32⟩ : BufTy).Contents (Elt F) → (⟨S1x16, .i32⟩ : BufTy).Contents (Elt F)),
    nullary main_c_4 (constantI S_ 32 1#32),
    unary main_c_4 main_v34 (broadcastInDim S1x16 ![] bcast_S_S1x16 : (⟨S_, .i32⟩ : BufTy).Contents (Elt F) → (⟨S1x16, .i32⟩ : BufTy).Contents (Elt F)),
    binary main_v33 main_v34 main_v35 (cmpi .sge : (⟨S1x16, .i32⟩ : BufTy).Contents (Elt F) → (⟨S1x16, .i32⟩ : BufTy).Contents (Elt F) → (⟨S1x16, .i1⟩ : BufTy).Contents (Elt F)),
    unary main_v35 main_v36 (broadcastInDim S8x16 ![0, 1] bcast_S1x16_S8x16_0_1 : (⟨S1x16, .i1⟩ : BufTy).Contents (Elt F) → (⟨S8x16, .i1⟩ : BufTy).Contents (Elt F)),
    binary main_v31 main_v36 main_v37 (andi : (⟨S8x16, .i1⟩ : BufTy).Contents (Elt F) → (⟨S8x16, .i1⟩ : BufTy).Contents (Elt F) → (⟨S8x16, .i1⟩ : BufTy).Contents (Elt F)) ]

/-- Operations 45 … 52 of @main. -/
abbrev stretch3 : List (HloOp τ sig (Elt F)) :=
  [ unary main_v4 main_v38 (broadcastInDim S8x409600x1 ![0, 1] bcast_S8x409600_S8x409600x1_0_1 : (⟨S8x409600, .i32⟩ : BufTy).Contents (Elt F) → (⟨S8x409600x1, .i32⟩ : BufTy).Contents (Elt F)),
    TRef.nullary (TRef.of (T := ⟨S_, .i32⟩) main_call0_c) (constantI S_ 32 0#32),
    TRef.unary (TRef.of (T := ⟨S_, .i32⟩) main_call0_c) (TRef.of (T := ⟨S8x409600x1, .i32⟩) main_call0_v0) (broadcastInDim S8x409600x1 ![] bcast_S_S8x409600x1),
    TRef.binary (TRef.of (T := ⟨S8x409600x1, .i32⟩) main_v38) (TRef.of (T := ⟨S8x409600x1, .i32⟩) main_call0_v0) (TRef.of (T := ⟨S8x409600x1, .i1⟩) main_call0_v1) (cmpi .slt),
    TRef.nullary (TRef.of (T := ⟨S_, .i32⟩) main_call0_c_0) (constantI S_ 32 16#32),
    TRef.unary (TRef.of (T := ⟨S_, .i32⟩) main_call0_c_0) (TRef.of (T := ⟨S8x409600x1, .i32⟩) main_call0_v2) (broadcastInDim S8x409600x1 ![] bcast_S_S8x409600x1),
    TRef.binary (TRef.of (T := ⟨S8x409600x1, .i32⟩) main_v38) (TRef.of (T := ⟨S8x409600x1, .i32⟩) main_call0_v2) (TRef.of (T := ⟨S8x409600x1, .i32⟩) main_call0_v3) addi,
    TRef.ternary (TRef.of (T := ⟨S8x409600x1, .i1⟩) main_call0_v1) (TRef.of (T := ⟨S8x409600x1, .i32⟩) main_call0_v3) (TRef.of (T := ⟨S8x409600x1, .i32⟩) main_v38) (TRef.of (T := ⟨S8x409600x1, .i32⟩) main_call0_v4) select ]

/-- Operations 53 … 58 of @main. -/
abbrev stretch4 : List (HloOp τ sig (Elt F)) :=
  [ TRef.nullary (TRef.of (T := ⟨S1, .i32⟩) main_call0_c_1) (constantI S1 32 15#32),
    TRef.nullary (TRef.of (T := ⟨S_, .i32⟩) main_call0_c_2) (constantI S_ 32 0#32),
    TRef.unary (TRef.of (T := ⟨S_, .i32⟩) main_call0_c_2) (TRef.of (T := ⟨S8x409600x1, .i32⟩) main_call0_v5) (broadcastInDim S8x409600x1 ![] bcast_S_S8x409600x1),
    TRef.binary (TRef.of (T := ⟨S8x409600x1, .i32⟩) main_call0_v4) (TRef.of (T := ⟨S8x409600x1, .i32⟩) main_call0_v5) (TRef.of (T := ⟨S8x409600x1, .i1⟩) main_call0_v6) (cmpi .sge),
    TRef.unary (TRef.of (T := ⟨S1, .i32⟩) main_call0_c_1) (TRef.of (T := ⟨S1x1x1, .i32⟩) main_call0_v7) (broadcastInDim S1x1x1 ![2] bcast_S1_S1x1x1_2),
    TRef.unary (TRef.of (T := ⟨S1x1x1, .i32⟩) main_call0_v7) (TRef.of (T := ⟨S8x409600x1, .i32⟩) main_call0_v8) (broadcastInDim S8x409600x1 ![0, 1, 2] bcast_S1x1x1_S8x409600x1_0_1_2) ]

/-- Operations 59 … 62 of @main. -/
abbrev stretch5 : List (HloOp τ sig (Elt F)) :=
  [ TRef.binary (TRef.of (T := ⟨S8x409600x1, .i32⟩) main_call0_v4) (TRef.of (T := ⟨S8x409600x1, .i32⟩) main_call0_v8) (TRef.of (T := ⟨S8x409600x1, .i1⟩) main_call0_v9) (cmpi .sle),
    TRef.binary (TRef.of (T := ⟨S8x409600x1, .i1⟩) main_call0_v6) (TRef.of (T := ⟨S8x409600x1, .i1⟩) main_call0_v9) (TRef.of (T := ⟨S8x409600x1, .i1⟩) main_call0_v10) andi,
    TRef.nullary (TRef.of (T := ⟨S_, .i1⟩) main_call0_c_3) (constantI S_ 1 1#1),
    TRef.binary (TRef.of (T := ⟨S8x409600x1, .i1⟩) main_call0_v10) (TRef.of (T := ⟨S_, .i1⟩) main_call0_c_3) (TRef.of (T := ⟨S8x409600, .i1⟩) main_call0_v11) (fun x v => Host.reduce IntOp.andi x v reducesTo_S8x409600x1_S8x409600_d2 h_S_) ]

/-- Operations 63 … 67 of @main. -/
abbrev stretch6 : List (HloOp τ sig (Elt F)) :=
  [ TRef.binary (TRef.of (T := ⟨S8x16x4, .f32⟩) main_v29) (TRef.of (T := ⟨S8x409600x1, .i32⟩) main_call0_v4) (TRef.of (T := ⟨S8x409600x4, .f32⟩) main_call0_v12) (fun x i => Host.gather gather_S8x16x4_S8x409600x1_S8x409600x4_2_1_0_0_1_2_114 x i),
    TRef.unary (TRef.of (T := ⟨S8x409600, .i1⟩) main_call0_v11) (TRef.of (T := ⟨S8x409600x4, .i1⟩) main_call0_v13) (broadcastInDim S8x409600x4 ![0, 1] bcast_S8x409600_S8x409600x4_0_1),
    TRef.nullary (TRef.of (T := ⟨S_, .f32⟩) main_call0_cst) (constant S_ .f32 0x7FC00000#32),
    TRef.unary (TRef.of (T := ⟨S_, .f32⟩) main_call0_cst) (TRef.of (T := ⟨S8x409600x4, .f32⟩) main_call0_v14) (broadcastInDim S8x409600x4 ![] bcast_S_S8x409600x4),
    TRef.ternary (TRef.of (T := ⟨S8x409600x4, .i1⟩) main_call0_v13) (TRef.of (T := ⟨S8x409600x4, .f32⟩) main_call0_v12) (TRef.of (T := ⟨S8x409600x4, .f32⟩) main_call0_v14) (TRef.of (T := ⟨S8x409600x4, .f32⟩) main_v39) select ]

/-- Operations 68 … 83 of @main. -/
abbrev stretch7 : List (HloOp τ sig (Elt F)) :=
  [ binary main_v2 main_v39 main_v40 (subf : (⟨S8x409600x4, .f32⟩ : BufTy).Contents (Elt F) → (⟨S8x409600x4, .f32⟩ : BufTy).Contents (Elt F) → (⟨S8x409600x4, .f32⟩ : BufTy).Contents (Elt F)),
    binary main_v40 main_v40 main_v41 (mulf : (⟨S8x409600x4, .f32⟩ : BufTy).Contents (Elt F) → (⟨S8x409600x4, .f32⟩ : BufTy).Contents (Elt F) → (⟨S8x409600x4, .f32⟩ : BufTy).Contents (Elt F)),
    nullary main_cst_5 (constant S_ .f32 0x00000000#32),
    binary main_v41 main_cst_5 main_v42 ((fun x v => Host.reduceAdd x v reducesTo_S8x409600x4_S8x409600_d2 h_S_) : (⟨S8x409600x4, .f32⟩ : BufTy).Contents (Elt F) → (⟨S_, .f32⟩ : BufTy).Contents (Elt F) → (⟨S8x409600, .f32⟩ : BufTy).Contents (Elt F)),
    nullary main_cst_6 (constant S_ .f32 0x2B8CBCCC#32),
    unary main_cst_6 main_v43 (broadcastInDim S8x409600 ![] bcast_S_S8x409600 : (⟨S_, .f32⟩ : BufTy).Contents (Elt F) → (⟨S8x409600, .f32⟩ : BufTy).Contents (Elt F)),
    binary main_v42 main_v43 main_v44 (addf : (⟨S8x409600, .f32⟩ : BufTy).Contents (Elt F) → (⟨S8x409600, .f32⟩ : BufTy).Contents (Elt F) → (⟨S8x409600, .f32⟩ : BufTy).Contents (Elt F)),
    unary main_v44 main_v45 (Host.sqrt : (⟨S8x409600, .f32⟩ : BufTy).Contents (Elt F) → (⟨S8x409600, .f32⟩ : BufTy).Contents (Elt F)),
    nullary main_cst_7 (constant S_ .f32 0x3F000000#32),
    unary main_cst_7 main_v46 (broadcastInDim S8x409600 ![] bcast_S_S8x409600 : (⟨S_, .f32⟩ : BufTy).Contents (Elt F) → (⟨S8x409600, .f32⟩ : BufTy).Contents (Elt F)),
    binary main_v45 main_v46 main_v47 (subf : (⟨S8x409600, .f32⟩ : BufTy).Contents (Elt F) → (⟨S8x409600, .f32⟩ : BufTy).Contents (Elt F) → (⟨S8x409600, .f32⟩ : BufTy).Contents (Elt F)),
    nullary main_cst_8 (constant S_ .f32 0x00000000#32),
    unary main_cst_8 main_v48 (broadcastInDim S8x409600 ![] bcast_S_S8x409600 : (⟨S_, .f32⟩ : BufTy).Contents (Elt F) → (⟨S8x409600, .f32⟩ : BufTy).Contents (Elt F)),
    binary main_v47 main_v48 main_v49 (maximumf : (⟨S8x409600, .f32⟩ : BufTy).Contents (Elt F) → (⟨S8x409600, .f32⟩ : BufTy).Contents (Elt F) → (⟨S8x409600, .f32⟩ : BufTy).Contents (Elt F)),
    binary main_v49 main_v49 main_v50 (mulf : (⟨S8x409600, .f32⟩ : BufTy).Contents (Elt F) → (⟨S8x409600, .f32⟩ : BufTy).Contents (Elt F) → (⟨S8x409600, .f32⟩ : BufTy).Contents (Elt F)),
    unary main_v50 main_v51 (Host.log1p : (⟨S8x409600, .f32⟩ : BufTy).Contents (Elt F) → (⟨S8x409600, .f32⟩ : BufTy).Contents (Elt F)) ]

/-- Operations 84 … 98 of @main. -/
abbrev stretch8 : List (HloOp τ sig (Elt F)) :=
  [ reshape main_v51 main_v52 rfl shapeCasts_S8x409600_S3276800,
    nullary main_cst_9 (constant S_ .f32 0x00000000#32),
    unary main_cst_9 main_v53 (broadcastInDim S128 ![] bcast_S_S128 : (⟨S_, .f32⟩ : BufTy).Contents (Elt F) → (⟨S128, .f32⟩ : BufTy).Contents (Elt F)),
    unary main_v14 main_v54 (broadcastInDim S3276800x1 ![0] bcast_S3276800_S3276800x1_0 : (⟨S3276800, .i32⟩ : BufTy).Contents (Elt F) → (⟨S3276800x1, .i32⟩ : BufTy).Contents (Elt F)),
    ternary main_v53 main_v54 main_v52 main_v55 ((fun x i u => Host.scatterAdd scatter_S128_S3276800x1_S3276800_n_0_0_1 x i u) : (⟨S128, .f32⟩ : BufTy).Contents (Elt F) → (⟨S3276800x1, .i32⟩ : BufTy).Contents (Elt F) → (⟨S3276800, .f32⟩ : BufTy).Contents (Elt F) → (⟨S128, .f32⟩ : BufTy).Contents (Elt F)),
    reshape main_v55 main_v56 rfl shapeCasts_S128_S8x16,
    nullary main_cst_10 (constant S_ .f32 0x00000000#32),
    unary main_cst_10 main_v57 (broadcastInDim S128 ![] bcast_S_S128 : (⟨S_, .f32⟩ : BufTy).Contents (Elt F) → (⟨S128, .f32⟩ : BufTy).Contents (Elt F)),
    unary main_v14 main_v58 (broadcastInDim S3276800x1 ![0] bcast_S3276800_S3276800x1_0 : (⟨S3276800, .i32⟩ : BufTy).Contents (Elt F) → (⟨S3276800x1, .i32⟩ : BufTy).Contents (Elt F)),
    ternary main_v57 main_v58 main_v16 main_v59 ((fun x i u => Host.scatterAdd scatter_S128_S3276800x1_S3276800_n_0_0_1 x i u) : (⟨S128, .f32⟩ : BufTy).Contents (Elt F) → (⟨S3276800x1, .i32⟩ : BufTy).Contents (Elt F) → (⟨S3276800, .f32⟩ : BufTy).Contents (Elt F) → (⟨S128, .f32⟩ : BufTy).Contents (Elt F)),
    reshape main_v59 main_v60 rfl shapeCasts_S128_S8x16,
    nullary main_cst_11 (constant S_ .f32 0x3F800000#32),
    unary main_cst_11 main_v61 (broadcastInDim S8x16 ![] bcast_S_S8x16 : (⟨S_, .f32⟩ : BufTy).Contents (Elt F) → (⟨S8x16, .f32⟩ : BufTy).Contents (Elt F)),
    binary main_v60 main_v61 main_v62 (maximumf : (⟨S8x16, .f32⟩ : BufTy).Contents (Elt F) → (⟨S8x16, .f32⟩ : BufTy).Contents (Elt F) → (⟨S8x16, .f32⟩ : BufTy).Contents (Elt F)),
    binary main_v56 main_v62 main_v63 (Host.divf : (⟨S8x16, .f32⟩ : BufTy).Contents (Elt F) → (⟨S8x16, .f32⟩ : BufTy).Contents (Elt F) → (⟨S8x16, .f32⟩ : BufTy).Contents (Elt F)) ]

/-- Operations 99 … 110 of @main. -/
abbrev stretch9 : List (HloOp τ sig (Elt F)) :=
  [ unary main_v37 main_v64 ((extui 32 · natLt_1_32) : (⟨S8x16, .i1⟩ : BufTy).Contents (Elt F) → (⟨S8x16, .i32⟩ : BufTy).Contents (Elt F)),
    nullary main_c_12 (constantI S_ 32 0#32),
    binary main_v64 main_c_12 main_v65 ((fun x v => Host.reduce IntOp.addi x v reducesTo_S8x16_S8_d1 h_S_) : (⟨S8x16, .i32⟩ : BufTy).Contents (Elt F) → (⟨S_, .i32⟩ : BufTy).Contents (Elt F) → (⟨S8, .i32⟩ : BufTy).Contents (Elt F)),
    unary main_v65 main_v66 (sitofp .f32 : (⟨S8, .i32⟩ : BufTy).Contents (Elt F) → (⟨S8, .f32⟩ : BufTy).Contents (Elt F)),
    unary main_v37 main_v67 (uitofp .f32 : (⟨S8x16, .i1⟩ : BufTy).Contents (Elt F) → (⟨S8x16, .f32⟩ : BufTy).Contents (Elt F)),
    binary main_v63 main_v67 main_v68 (mulf : (⟨S8x16, .f32⟩ : BufTy).Contents (Elt F) → (⟨S8x16, .f32⟩ : BufTy).Contents (Elt F) → (⟨S8x16, .f32⟩ : BufTy).Contents (Elt F)),
    nullary main_cst_13 (constant S_ .f32 0x00000000#32),
    binary main_v68 main_cst_13 main_v69 ((fun x v => Host.reduceAdd x v reducesTo_S8x16_S8_d1 h_S_) : (⟨S8x16, .f32⟩ : BufTy).Contents (Elt F) → (⟨S_, .f32⟩ : BufTy).Contents (Elt F) → (⟨S8, .f32⟩ : BufTy).Contents (Elt F)),
    nullary main_cst_14 (constant S_ .f32 0x3F800000#32),
    unary main_cst_14 main_v70 (broadcastInDim S8 ![] bcast_S_S8 : (⟨S_, .f32⟩ : BufTy).Contents (Elt F) → (⟨S8, .f32⟩ : BufTy).Contents (Elt F)),
    binary main_v66 main_v70 main_v71 (maximumf : (⟨S8, .f32⟩ : BufTy).Contents (Elt F) → (⟨S8, .f32⟩ : BufTy).Contents (Elt F) → (⟨S8, .f32⟩ : BufTy).Contents (Elt F)),
    binary main_v69 main_v71 main_v72 (Host.divf : (⟨S8, .f32⟩ : BufTy).Contents (Elt F) → (⟨S8, .f32⟩ : BufTy).Contents (Elt F) → (⟨S8, .f32⟩ : BufTy).Contents (Elt F)) ]

/-- Operations 111 … 130 of @main. -/
abbrev stretch10 : List (HloOp τ sig (Elt F)) :=
  [ unary main_v29 main_v73 (broadcastInDim S8x16x1x4 ![0, 1, 3] bcast_S8x16x4_S8x16x1x4_0_1_3 : (⟨S8x16x4, .f32⟩ : BufTy).Contents (Elt F) → (⟨S8x16x1x4, .f32⟩ : BufTy).Contents (Elt F)),
    unary main_v29 main_v74 (broadcastInDim S8x1x16x4 ![0, 2, 3] bcast_S8x16x4_S8x1x16x4_0_2_3 : (⟨S8x16x4, .f32⟩ : BufTy).Contents (Elt F) → (⟨S8x1x16x4, .f32⟩ : BufTy).Contents (Elt F)),
    unary main_v73 main_v75 (broadcastInDim S8x16x16x4 ![0, 1, 2, 3] bcast_S8x16x1x4_S8x16x16x4_0_1_2_3 : (⟨S8x16x1x4, .f32⟩ : BufTy).Contents (Elt F) → (⟨S8x16x16x4, .f32⟩ : BufTy).Contents (Elt F)),
    unary main_v74 main_v76 (broadcastInDim S8x16x16x4 ![0, 1, 2, 3] bcast_S8x1x16x4_S8x16x16x4_0_1_2_3 : (⟨S8x1x16x4, .f32⟩ : BufTy).Contents (Elt F) → (⟨S8x16x16x4, .f32⟩ : BufTy).Contents (Elt F)),
    binary main_v75 main_v76 main_v77 (subf : (⟨S8x16x16x4, .f32⟩ : BufTy).Contents (Elt F) → (⟨S8x16x16x4, .f32⟩ : BufTy).Contents (Elt F) → (⟨S8x16x16x4, .f32⟩ : BufTy).Contents (Elt F)),
    binary main_v77 main_v77 main_v78 (mulf : (⟨S8x16x16x4, .f32⟩ : BufTy).Contents (Elt F) → (⟨S8x16x16x4, .f32⟩ : BufTy).Contents (Elt F) → (⟨S8x16x16x4, .f32⟩ : BufTy).Contents (Elt F)),
    nullary main_cst_15 (constant S_ .f32 0x00000000#32),
    binary main_v78 main_cst_15 main_v79 ((fun x v => Host.reduceAdd x v reducesTo_S8x16x16x4_S8x16x16_d3 h_S_) : (⟨S8x16x16x4, .f32⟩ : BufTy).Contents (Elt F) → (⟨S_, .f32⟩ : BufTy).Contents (Elt F) → (⟨S8x16x16, .f32⟩ : BufTy).Contents (Elt F)),
    nullary main_cst_16 (constant S_ .f32 0x2B8CBCCC#32),
    unary main_cst_16 main_v80 (broadcastInDim S8x16x16 ![] bcast_S_S8x16x16 : (⟨S_, .f32⟩ : BufTy).Contents (Elt F) → (⟨S8x16x16, .f32⟩ : BufTy).Contents (Elt F)),
    binary main_v79 main_v80 main_v81 (addf : (⟨S8x16x16, .f32⟩ : BufTy).Contents (Elt F) → (⟨S8x16x16, .f32⟩ : BufTy).Contents (Elt F) → (⟨S8x16x16, .f32⟩ : BufTy).Contents (Elt F)),
    unary main_v81 main_v82 (Host.sqrt : (⟨S8x16x16, .f32⟩ : BufTy).Contents (Elt F) → (⟨S8x16x16, .f32⟩ : BufTy).Contents (Elt F)),
    nullary main_cst_17 (constant S_ .f32 0x40400000#32),
    unary main_cst_17 main_v83 (broadcastInDim S8x16x16 ![] bcast_S_S8x16x16 : (⟨S_, .f32⟩ : BufTy).Contents (Elt F) → (⟨S8x16x16, .f32⟩ : BufTy).Contents (Elt F)),
    binary main_v83 main_v82 main_v84 (subf : (⟨S8x16x16, .f32⟩ : BufTy).Contents (Elt F) → (⟨S8x16x16, .f32⟩ : BufTy).Contents (Elt F) → (⟨S8x16x16, .f32⟩ : BufTy).Contents (Elt F)),
    nullary main_cst_18 (constant S_ .f32 0x00000000#32),
    unary main_cst_18 main_v85 (broadcastInDim S8x16x16 ![] bcast_S_S8x16x16 : (⟨S_, .f32⟩ : BufTy).Contents (Elt F) → (⟨S8x16x16, .f32⟩ : BufTy).Contents (Elt F)),
    binary main_v84 main_v85 main_v86 (maximumf : (⟨S8x16x16, .f32⟩ : BufTy).Contents (Elt F) → (⟨S8x16x16, .f32⟩ : BufTy).Contents (Elt F) → (⟨S8x16x16, .f32⟩ : BufTy).Contents (Elt F)),
    binary main_v86 main_v86 main_v87 (mulf : (⟨S8x16x16, .f32⟩ : BufTy).Contents (Elt F) → (⟨S8x16x16, .f32⟩ : BufTy).Contents (Elt F) → (⟨S8x16x16, .f32⟩ : BufTy).Contents (Elt F)),
    unary main_v87 main_v88 (Host.log1p : (⟨S8x16x16, .f32⟩ : BufTy).Contents (Elt F) → (⟨S8x16x16, .f32⟩ : BufTy).Contents (Elt F)) ]

/-- Operations 131 … 141 of @main. -/
abbrev stretch11 : List (HloOp τ sig (Elt F)) :=
  [ nullary main_c_19 (constantI S_ 1 1#1),
    unary main_c_19 main_v89 (broadcastInDim S16x16 ![] bcast_S_S16x16 : (⟨S_, .i1⟩ : BufTy).Contents (Elt F) → (⟨S16x16, .i1⟩ : BufTy).Contents (Elt F)),
    TRef.nullary (TRef.of (T := ⟨S16x16, .i32⟩) main_call1_v0) (iotaInDim S16x16 32 0),
    TRef.nullary (TRef.of (T := ⟨S_, .i32⟩) main_call1_c) (constantI S_ 32 0#32),
    TRef.unary (TRef.of (T := ⟨S_, .i32⟩) main_call1_c) (TRef.of (T := ⟨S16x16, .i32⟩) main_call1_v1) (broadcastInDim S16x16 ![] bcast_S_S16x16),
    TRef.binary (TRef.of (T := ⟨S16x16, .i32⟩) main_call1_v0) (TRef.of (T := ⟨S16x16, .i32⟩) main_call1_v1) (TRef.of (T := ⟨S16x16, .i32⟩) main_call1_v2) addi,
    TRef.nullary (TRef.of (T := ⟨S16x16, .i32⟩) main_call1_v3) (iotaInDim S16x16 32 1),
    TRef.binary (TRef.of (T := ⟨S16x16, .i32⟩) main_call1_v2) (TRef.of (T := ⟨S16x16, .i32⟩) main_call1_v3) (TRef.of (T := ⟨S16x16, .i1⟩) main_call1_v4) (cmpi .sge),
    TRef.nullary (TRef.of (T := ⟨S_, .i1⟩) main_call1_c_0) (constantI S_ 1 0#1),
    TRef.unary (TRef.of (T := ⟨S_, .i1⟩) main_call1_c_0) (TRef.of (T := ⟨S16x16, .i1⟩) main_call1_v5) (broadcastInDim S16x16 ![] bcast_S_S16x16),
    TRef.ternary (TRef.of (T := ⟨S16x16, .i1⟩) main_call1_v4) (TRef.of (T := ⟨S16x16, .i1⟩) main_call1_v5) (TRef.of (T := ⟨S16x16, .i1⟩) main_v89) (TRef.of (T := ⟨S16x16, .i1⟩) main_v90) select ]

/-- Operations 142 … 150 of @main. -/
abbrev stretch12 : List (HloOp τ sig (Elt F)) :=
  [ unary main_v37 main_v91 (broadcastInDim S8x16x1 ![0, 1] bcast_S8x16_S8x16x1_0_1 : (⟨S8x16, .i1⟩ : BufTy).Contents (Elt F) → (⟨S8x16x1, .i1⟩ : BufTy).Contents (Elt F)),
    unary main_v37 main_v92 (broadcastInDim S8x1x16 ![0, 2] bcast_S8x16_S8x1x16_0_2 : (⟨S8x16, .i1⟩ : BufTy).Contents (Elt F) → (⟨S8x1x16, .i1⟩ : BufTy).Contents (Elt F)),
    unary main_v91 main_v93 (broadcastInDim S8x16x16 ![0, 1, 2] bcast_S8x16x1_S8x16x16_0_1_2 : (⟨S8x16x1, .i1⟩ : BufTy).Contents (Elt F) → (⟨S8x16x16, .i1⟩ : BufTy).Contents (Elt F)),
    unary main_v92 main_v94 (broadcastInDim S8x16x16 ![0, 1, 2] bcast_S8x1x16_S8x16x16_0_1_2 : (⟨S8x1x16, .i1⟩ : BufTy).Contents (Elt F) → (⟨S8x16x16, .i1⟩ : BufTy).Contents (Elt F)),
    binary main_v93 main_v94 main_v95 (andi : (⟨S8x16x16, .i1⟩ : BufTy).Contents (Elt F) → (⟨S8x16x16, .i1⟩ : BufTy).Contents (Elt F) → (⟨S8x16x16, .i1⟩ : BufTy).Contents (Elt F)),
    unary main_v90 main_v96 (broadcastInDim S1x16x16 ![1, 2] bcast_S16x16_S1x16x16_1_2 : (⟨S16x16, .i1⟩ : BufTy).Contents (Elt F) → (⟨S1x16x16, .i1⟩ : BufTy).Contents (Elt F)),
    unary main_v96 main_v97 (broadcastInDim S8x16x16 ![0, 1, 2] bcast_S1x16x16_S8x16x16_0_1_2 : (⟨S1x16x16, .i1⟩ : BufTy).Contents (Elt F) → (⟨S8x16x16, .i1⟩ : BufTy).Contents (Elt F)),
    binary main_v95 main_v97 main_v98 (andi : (⟨S8x16x16, .i1⟩ : BufTy).Contents (Elt F) → (⟨S8x16x16, .i1⟩ : BufTy).Contents (Elt F) → (⟨S8x16x16, .i1⟩ : BufTy).Contents (Elt F)),
    unary main_v98 main_v99 (uitofp .f32 : (⟨S8x16x16, .i1⟩ : BufTy).Contents (Elt F) → (⟨S8x16x16, .f32⟩ : BufTy).Contents (Elt F)) ]

/-- Operations 151 … 168 of @main. -/
abbrev stretch13 : List (HloOp τ sig (Elt F)) :=
  [ binary main_v88 main_v99 main_v100 (mulf : (⟨S8x16x16, .f32⟩ : BufTy).Contents (Elt F) → (⟨S8x16x16, .f32⟩ : BufTy).Contents (Elt F) → (⟨S8x16x16, .f32⟩ : BufTy).Contents (Elt F)),
    nullary main_cst_20 (constant S_ .f32 0x00000000#32),
    binary main_v100 main_cst_20 main_v101 ((fun x v => Host.reduceAdd x v reducesTo_S8x16x16_S8_d1_2 h_S_) : (⟨S8x16x16, .f32⟩ : BufTy).Contents (Elt F) → (⟨S_, .f32⟩ : BufTy).Contents (Elt F) → (⟨S8, .f32⟩ : BufTy).Contents (Elt F)),
    nullary main_cst_21 (constant S_ .f32 0x3F800000#32),
    unary main_cst_21 main_v102 (broadcastInDim S8 ![] bcast_S_S8 : (⟨S_, .f32⟩ : BufTy).Contents (Elt F) → (⟨S8, .f32⟩ : BufTy).Contents (Elt F)),
    binary main_v66 main_v102 main_v103 (subf : (⟨S8, .f32⟩ : BufTy).Contents (Elt F) → (⟨S8, .f32⟩ : BufTy).Contents (Elt F) → (⟨S8, .f32⟩ : BufTy).Contents (Elt F)),
    binary main_v66 main_v103 main_v104 (mulf : (⟨S8, .f32⟩ : BufTy).Contents (Elt F) → (⟨S8, .f32⟩ : BufTy).Contents (Elt F) → (⟨S8, .f32⟩ : BufTy).Contents (Elt F)),
    nullary main_cst_22 (constant S_ .f32 0x3F800000#32),
    unary main_cst_22 main_v105 (broadcastInDim S8 ![] bcast_S_S8 : (⟨S_, .f32⟩ : BufTy).Contents (Elt F) → (⟨S8, .f32⟩ : BufTy).Contents (Elt F)),
    binary main_v66 main_v105 main_v106 (cmpf .ogt : (⟨S8, .f32⟩ : BufTy).Contents (Elt F) → (⟨S8, .f32⟩ : BufTy).Contents (Elt F) → (⟨S8, .i1⟩ : BufTy).Contents (Elt F)),
    nullary main_cst_23 (constant S_ .f32 0x3F800000#32),
    unary main_cst_23 main_v107 (broadcastInDim S8 ![] bcast_S_S8 : (⟨S_, .f32⟩ : BufTy).Contents (Elt F) → (⟨S8, .f32⟩ : BufTy).Contents (Elt F)),
    binary main_v104 main_v107 main_v108 (maximumf : (⟨S8, .f32⟩ : BufTy).Contents (Elt F) → (⟨S8, .f32⟩ : BufTy).Contents (Elt F) → (⟨S8, .f32⟩ : BufTy).Contents (Elt F)),
    binary main_v101 main_v108 main_v109 (Host.divf : (⟨S8, .f32⟩ : BufTy).Contents (Elt F) → (⟨S8, .f32⟩ : BufTy).Contents (Elt F) → (⟨S8, .f32⟩ : BufTy).Contents (Elt F)),
    nullary main_cst_24 (constant S_ .f32 0x00000000#32),
    TRef.unary (TRef.of (T := ⟨S_, .f32⟩) main_cst_24) (TRef.of (T := ⟨S_, .f32⟩) main_call2_v0) id,
    TRef.unary (TRef.of (T := ⟨S_, .f32⟩) main_call2_v0) (TRef.of (T := ⟨S8, .f32⟩) main_call2_v1) (broadcastInDim S8 ![] bcast_S_S8),
    TRef.ternary (TRef.of (T := ⟨S8, .i1⟩) main_v106) (TRef.of (T := ⟨S8, .f32⟩) main_v109) (TRef.of (T := ⟨S8, .f32⟩) main_call2_v1) (TRef.of (T := ⟨S8, .f32⟩) main_v110) select ]

/-! ## What the buffers read later hold at each cut: the arguments as launched, every other buffer its stage -/

/-- The contents `X` at launch, from launch contents `X0`. -/
abbrev At0 (X X0 : Valuation τ sig (Elt F)) : Prop :=
  X (Proc.devRef .tc main_arg0) = X0 (Proc.devRef .tc main_arg0)
  ∧ X (Proc.devRef .tc main_arg1) = X0 (Proc.devRef .tc main_arg1)
  ∧ X (Proc.devRef .tc main_arg2) = X0 (Proc.devRef .tc main_arg2)
  ∧ X (Proc.devRef .tc main_arg3) = X0 (Proc.devRef .tc main_arg3)
  ∧ X (Proc.devRef .tc main_arg4) = X0 (Proc.devRef .tc main_arg4)

/-- The contents `X` after stretch 0, from launch contents `X0`. -/
abbrev At1 (X X0 : Valuation τ sig (Elt F)) : Prop :=
  X (Proc.devRef .tc main_arg0) = X0 (Proc.devRef .tc main_arg0)
  ∧ X (Proc.devRef .tc main_arg1) = X0 (Proc.devRef .tc main_arg1)
  ∧ X (Proc.devRef .tc main_arg2) = X0 (Proc.devRef .tc main_arg2)
  ∧ X (Proc.devRef .tc main_arg3) = X0 (Proc.devRef .tc main_arg3)
  ∧ X (Proc.devRef .tc main_arg4) = X0 (Proc.devRef .tc main_arg4)
  ∧ X (Proc.devRef .tc main_v2) = val_main_v2 (F := F) (X0 (Proc.devRef .tc main_arg0))
  ∧ X (Proc.devRef .tc main_v4) = val_main_v4 (F := F) (X0 (Proc.devRef .tc main_arg1))
  ∧ X (Proc.devRef .tc main_v11) = val_main_v11 (F := F) (X0 (Proc.devRef .tc main_arg2))
  ∧ X (Proc.devRef .tc main_v14) = val_main_v14 (F := F) (X0 (Proc.devRef .tc main_arg1))
  ∧ X (Proc.devRef .tc main_v15) = val_main_v15 (F := F) (X0 (Proc.devRef .tc main_arg0))

/-- The contents `X` after stretch 1, from launch contents `X0`. -/
abbrev At2 (X X0 : Valuation τ sig (Elt F)) : Prop :=
  X (Proc.devRef .tc main_arg0) = X0 (Proc.devRef .tc main_arg0)
  ∧ X (Proc.devRef .tc main_arg1) = X0 (Proc.devRef .tc main_arg1)
  ∧ X (Proc.devRef .tc main_arg2) = X0 (Proc.devRef .tc main_arg2)
  ∧ X (Proc.devRef .tc main_arg3) = X0 (Proc.devRef .tc main_arg3)
  ∧ X (Proc.devRef .tc main_arg4) = X0 (Proc.devRef .tc main_arg4)
  ∧ X (Proc.devRef .tc main_v2) = val_main_v2 (F := F) (X0 (Proc.devRef .tc main_arg0))
  ∧ X (Proc.devRef .tc main_v4) = val_main_v4 (F := F) (X0 (Proc.devRef .tc main_arg1))
  ∧ X (Proc.devRef .tc main_v14) = val_main_v14 (F := F) (X0 (Proc.devRef .tc main_arg1))
  ∧ X (Proc.devRef .tc main_v16) = val_main_v16 (F := F)
  ∧ X (Proc.devRef .tc main_v24) = val_main_v24 (F := F) (X0 (Proc.devRef .tc main_arg2))
  ∧ X (Proc.devRef .tc main_v29) = val_main_v29 (F := F) (X0 (Proc.devRef .tc main_arg0)) (X0 (Proc.devRef .tc main_arg2))

/-- The contents `X` after stretch 2, from launch contents `X0`. -/
abbrev At3 (X X0 : Valuation τ sig (Elt F)) : Prop :=
  X (Proc.devRef .tc main_arg0) = X0 (Proc.devRef .tc main_arg0)
  ∧ X (Proc.devRef .tc main_arg1) = X0 (Proc.devRef .tc main_arg1)
  ∧ X (Proc.devRef .tc main_arg2) = X0 (Proc.devRef .tc main_arg2)
  ∧ X (Proc.devRef .tc main_arg3) = X0 (Proc.devRef .tc main_arg3)
  ∧ X (Proc.devRef .tc main_arg4) = X0 (Proc.devRef .tc main_arg4)
  ∧ X (Proc.devRef .tc main_v2) = val_main_v2 (F := F) (X0 (Proc.devRef .tc main_arg0))
  ∧ X (Proc.devRef .tc main_v4) = val_main_v4 (F := F) (X0 (Proc.devRef .tc main_arg1))
  ∧ X (Proc.devRef .tc main_v14) = val_main_v14 (F := F) (X0 (Proc.devRef .tc main_arg1))
  ∧ X (Proc.devRef .tc main_v16) = val_main_v16 (F := F)
  ∧ X (Proc.devRef .tc main_v29) = val_main_v29 (F := F) (X0 (Proc.devRef .tc main_arg0)) (X0 (Proc.devRef .tc main_arg2))
  ∧ X (Proc.devRef .tc main_v37) = val_main_v37 (F := F) (X0 (Proc.devRef .tc main_arg2))

/-- The contents `X` after stretch 3, from launch contents `X0`. -/
abbrev At4 (X X0 : Valuation τ sig (Elt F)) : Prop :=
  X (Proc.devRef .tc main_arg0) = X0 (Proc.devRef .tc main_arg0)
  ∧ X (Proc.devRef .tc main_arg1) = X0 (Proc.devRef .tc main_arg1)
  ∧ X (Proc.devRef .tc main_arg2) = X0 (Proc.devRef .tc main_arg2)
  ∧ X (Proc.devRef .tc main_arg3) = X0 (Proc.devRef .tc main_arg3)
  ∧ X (Proc.devRef .tc main_arg4) = X0 (Proc.devRef .tc main_arg4)
  ∧ X (Proc.devRef .tc main_v2) = val_main_v2 (F := F) (X0 (Proc.devRef .tc main_arg0))
  ∧ X (Proc.devRef .tc main_v14) = val_main_v14 (F := F) (X0 (Proc.devRef .tc main_arg1))
  ∧ X (Proc.devRef .tc main_v16) = val_main_v16 (F := F)
  ∧ X (Proc.devRef .tc main_v29) = val_main_v29 (F := F) (X0 (Proc.devRef .tc main_arg0)) (X0 (Proc.devRef .tc main_arg2))
  ∧ X (Proc.devRef .tc main_v37) = val_main_v37 (F := F) (X0 (Proc.devRef .tc main_arg2))
  ∧ X (Proc.devRef .tc main_call0_v4) = val_main_call0_v4 (F := F) (X0 (Proc.devRef .tc main_arg1))

/-- The contents `X` after stretch 4, from launch contents `X0`. -/
abbrev At5 (X X0 : Valuation τ sig (Elt F)) : Prop :=
  X (Proc.devRef .tc main_arg0) = X0 (Proc.devRef .tc main_arg0)
  ∧ X (Proc.devRef .tc main_arg1) = X0 (Proc.devRef .tc main_arg1)
  ∧ X (Proc.devRef .tc main_arg2) = X0 (Proc.devRef .tc main_arg2)
  ∧ X (Proc.devRef .tc main_arg3) = X0 (Proc.devRef .tc main_arg3)
  ∧ X (Proc.devRef .tc main_arg4) = X0 (Proc.devRef .tc main_arg4)
  ∧ X (Proc.devRef .tc main_v2) = val_main_v2 (F := F) (X0 (Proc.devRef .tc main_arg0))
  ∧ X (Proc.devRef .tc main_v14) = val_main_v14 (F := F) (X0 (Proc.devRef .tc main_arg1))
  ∧ X (Proc.devRef .tc main_v16) = val_main_v16 (F := F)
  ∧ X (Proc.devRef .tc main_v29) = val_main_v29 (F := F) (X0 (Proc.devRef .tc main_arg0)) (X0 (Proc.devRef .tc main_arg2))
  ∧ X (Proc.devRef .tc main_v37) = val_main_v37 (F := F) (X0 (Proc.devRef .tc main_arg2))
  ∧ X (Proc.devRef .tc main_call0_v4) = val_main_call0_v4 (F := F) (X0 (Proc.devRef .tc main_arg1))
  ∧ X (Proc.devRef .tc main_call0_v6) = val_main_call0_v6 (F := F) (X0 (Proc.devRef .tc main_arg1))
  ∧ X (Proc.devRef .tc main_call0_v8) = val_main_call0_v8 (F := F)

/-- The contents `X` after stretch 5, from launch contents `X0`. -/
abbrev At6 (X X0 : Valuation τ sig (Elt F)) : Prop :=
  X (Proc.devRef .tc main_arg0) = X0 (Proc.devRef .tc main_arg0)
  ∧ X (Proc.devRef .tc main_arg1) = X0 (Proc.devRef .tc main_arg1)
  ∧ X (Proc.devRef .tc main_arg2) = X0 (Proc.devRef .tc main_arg2)
  ∧ X (Proc.devRef .tc main_arg3) = X0 (Proc.devRef .tc main_arg3)
  ∧ X (Proc.devRef .tc main_arg4) = X0 (Proc.devRef .tc main_arg4)
  ∧ X (Proc.devRef .tc main_v2) = val_main_v2 (F := F) (X0 (Proc.devRef .tc main_arg0))
  ∧ X (Proc.devRef .tc main_v14) = val_main_v14 (F := F) (X0 (Proc.devRef .tc main_arg1))
  ∧ X (Proc.devRef .tc main_v16) = val_main_v16 (F := F)
  ∧ X (Proc.devRef .tc main_v29) = val_main_v29 (F := F) (X0 (Proc.devRef .tc main_arg0)) (X0 (Proc.devRef .tc main_arg2))
  ∧ X (Proc.devRef .tc main_v37) = val_main_v37 (F := F) (X0 (Proc.devRef .tc main_arg2))
  ∧ X (Proc.devRef .tc main_call0_v4) = val_main_call0_v4 (F := F) (X0 (Proc.devRef .tc main_arg1))
  ∧ X (Proc.devRef .tc main_call0_v11) = val_main_call0_v11 (F := F) (X0 (Proc.devRef .tc main_arg1))

/-- The contents `X` after stretch 6, from launch contents `X0`. -/
abbrev At7 (X X0 : Valuation τ sig (Elt F)) : Prop :=
  X (Proc.devRef .tc main_arg0) = X0 (Proc.devRef .tc main_arg0)
  ∧ X (Proc.devRef .tc main_arg1) = X0 (Proc.devRef .tc main_arg1)
  ∧ X (Proc.devRef .tc main_arg2) = X0 (Proc.devRef .tc main_arg2)
  ∧ X (Proc.devRef .tc main_arg3) = X0 (Proc.devRef .tc main_arg3)
  ∧ X (Proc.devRef .tc main_arg4) = X0 (Proc.devRef .tc main_arg4)
  ∧ X (Proc.devRef .tc main_v2) = val_main_v2 (F := F) (X0 (Proc.devRef .tc main_arg0))
  ∧ X (Proc.devRef .tc main_v14) = val_main_v14 (F := F) (X0 (Proc.devRef .tc main_arg1))
  ∧ X (Proc.devRef .tc main_v16) = val_main_v16 (F := F)
  ∧ X (Proc.devRef .tc main_v29) = val_main_v29 (F := F) (X0 (Proc.devRef .tc main_arg0)) (X0 (Proc.devRef .tc main_arg2))
  ∧ X (Proc.devRef .tc main_v37) = val_main_v37 (F := F) (X0 (Proc.devRef .tc main_arg2))
  ∧ X (Proc.devRef .tc main_v39) = val_main_v39 (F := F) (X0 (Proc.devRef .tc main_arg0)) (X0 (Proc.devRef .tc main_arg1)) (X0 (Proc.devRef .tc main_arg2))

/-- The contents `X` after stretch 7, from launch contents `X0`. -/
abbrev At8 (X X0 : Valuation τ sig (Elt F)) : Prop :=
  X (Proc.devRef .tc main_arg0) = X0 (Proc.devRef .tc main_arg0)
  ∧ X (Proc.devRef .tc main_arg1) = X0 (Proc.devRef .tc main_arg1)
  ∧ X (Proc.devRef .tc main_arg2) = X0 (Proc.devRef .tc main_arg2)
  ∧ X (Proc.devRef .tc main_arg3) = X0 (Proc.devRef .tc main_arg3)
  ∧ X (Proc.devRef .tc main_arg4) = X0 (Proc.devRef .tc main_arg4)
  ∧ X (Proc.devRef .tc main_v14) = val_main_v14 (F := F) (X0 (Proc.devRef .tc main_arg1))
  ∧ X (Proc.devRef .tc main_v16) = val_main_v16 (F := F)
  ∧ X (Proc.devRef .tc main_v29) = val_main_v29 (F := F) (X0 (Proc.devRef .tc main_arg0)) (X0 (Proc.devRef .tc main_arg2))
  ∧ X (Proc.devRef .tc main_v37) = val_main_v37 (F := F) (X0 (Proc.devRef .tc main_arg2))
  ∧ X (Proc.devRef .tc main_v51) = val_main_v51 (F := F) (X0 (Proc.devRef .tc main_arg0)) (X0 (Proc.devRef .tc main_arg1)) (X0 (Proc.devRef .tc main_arg2))

/-- The contents `X` after stretch 8, from launch contents `X0`. -/
abbrev At9 (X X0 : Valuation τ sig (Elt F)) : Prop :=
  X (Proc.devRef .tc main_arg0) = X0 (Proc.devRef .tc main_arg0)
  ∧ X (Proc.devRef .tc main_arg1) = X0 (Proc.devRef .tc main_arg1)
  ∧ X (Proc.devRef .tc main_arg2) = X0 (Proc.devRef .tc main_arg2)
  ∧ X (Proc.devRef .tc main_arg3) = X0 (Proc.devRef .tc main_arg3)
  ∧ X (Proc.devRef .tc main_arg4) = X0 (Proc.devRef .tc main_arg4)
  ∧ X (Proc.devRef .tc main_v29) = val_main_v29 (F := F) (X0 (Proc.devRef .tc main_arg0)) (X0 (Proc.devRef .tc main_arg2))
  ∧ X (Proc.devRef .tc main_v37) = val_main_v37 (F := F) (X0 (Proc.devRef .tc main_arg2))
  ∧ X (Proc.devRef .tc main_v63) = val_main_v63 (F := F) (X0 (Proc.devRef .tc main_arg0)) (X0 (Proc.devRef .tc main_arg1)) (X0 (Proc.devRef .tc main_arg2))

/-- The contents `X` after stretch 9, from launch contents `X0`. -/
abbrev At10 (X X0 : Valuation τ sig (Elt F)) : Prop :=
  X (Proc.devRef .tc main_arg0) = X0 (Proc.devRef .tc main_arg0)
  ∧ X (Proc.devRef .tc main_arg1) = X0 (Proc.devRef .tc main_arg1)
  ∧ X (Proc.devRef .tc main_arg2) = X0 (Proc.devRef .tc main_arg2)
  ∧ X (Proc.devRef .tc main_arg3) = X0 (Proc.devRef .tc main_arg3)
  ∧ X (Proc.devRef .tc main_arg4) = X0 (Proc.devRef .tc main_arg4)
  ∧ X (Proc.devRef .tc main_v29) = val_main_v29 (F := F) (X0 (Proc.devRef .tc main_arg0)) (X0 (Proc.devRef .tc main_arg2))
  ∧ X (Proc.devRef .tc main_v37) = val_main_v37 (F := F) (X0 (Proc.devRef .tc main_arg2))
  ∧ X (Proc.devRef .tc main_v66) = val_main_v66 (F := F) (X0 (Proc.devRef .tc main_arg2))
  ∧ X (Proc.devRef .tc main_v72) = val_main_v72 (F := F) (X0 (Proc.devRef .tc main_arg0)) (X0 (Proc.devRef .tc main_arg1)) (X0 (Proc.devRef .tc main_arg2))

/-- The contents `X` after stretch 10, from launch contents `X0`. -/
abbrev At11 (X X0 : Valuation τ sig (Elt F)) : Prop :=
  X (Proc.devRef .tc main_arg0) = X0 (Proc.devRef .tc main_arg0)
  ∧ X (Proc.devRef .tc main_arg1) = X0 (Proc.devRef .tc main_arg1)
  ∧ X (Proc.devRef .tc main_arg2) = X0 (Proc.devRef .tc main_arg2)
  ∧ X (Proc.devRef .tc main_arg3) = X0 (Proc.devRef .tc main_arg3)
  ∧ X (Proc.devRef .tc main_arg4) = X0 (Proc.devRef .tc main_arg4)
  ∧ X (Proc.devRef .tc main_v37) = val_main_v37 (F := F) (X0 (Proc.devRef .tc main_arg2))
  ∧ X (Proc.devRef .tc main_v66) = val_main_v66 (F := F) (X0 (Proc.devRef .tc main_arg2))
  ∧ X (Proc.devRef .tc main_v72) = val_main_v72 (F := F) (X0 (Proc.devRef .tc main_arg0)) (X0 (Proc.devRef .tc main_arg1)) (X0 (Proc.devRef .tc main_arg2))
  ∧ X (Proc.devRef .tc main_v88) = val_main_v88 (F := F) (X0 (Proc.devRef .tc main_arg0)) (X0 (Proc.devRef .tc main_arg2))

/-- The contents `X` after stretch 11, from launch contents `X0`. -/
abbrev At12 (X X0 : Valuation τ sig (Elt F)) : Prop :=
  X (Proc.devRef .tc main_arg0) = X0 (Proc.devRef .tc main_arg0)
  ∧ X (Proc.devRef .tc main_arg1) = X0 (Proc.devRef .tc main_arg1)
  ∧ X (Proc.devRef .tc main_arg2) = X0 (Proc.devRef .tc main_arg2)
  ∧ X (Proc.devRef .tc main_arg3) = X0 (Proc.devRef .tc main_arg3)
  ∧ X (Proc.devRef .tc main_arg4) = X0 (Proc.devRef .tc main_arg4)
  ∧ X (Proc.devRef .tc main_v37) = val_main_v37 (F := F) (X0 (Proc.devRef .tc main_arg2))
  ∧ X (Proc.devRef .tc main_v66) = val_main_v66 (F := F) (X0 (Proc.devRef .tc main_arg2))
  ∧ X (Proc.devRef .tc main_v72) = val_main_v72 (F := F) (X0 (Proc.devRef .tc main_arg0)) (X0 (Proc.devRef .tc main_arg1)) (X0 (Proc.devRef .tc main_arg2))
  ∧ X (Proc.devRef .tc main_v88) = val_main_v88 (F := F) (X0 (Proc.devRef .tc main_arg0)) (X0 (Proc.devRef .tc main_arg2))
  ∧ X (Proc.devRef .tc main_v90) = val_main_v90 (F := F)

/-- The contents `X` after stretch 12, from launch contents `X0`. -/
abbrev At13 (X X0 : Valuation τ sig (Elt F)) : Prop :=
  X (Proc.devRef .tc main_arg0) = X0 (Proc.devRef .tc main_arg0)
  ∧ X (Proc.devRef .tc main_arg1) = X0 (Proc.devRef .tc main_arg1)
  ∧ X (Proc.devRef .tc main_arg2) = X0 (Proc.devRef .tc main_arg2)
  ∧ X (Proc.devRef .tc main_arg3) = X0 (Proc.devRef .tc main_arg3)
  ∧ X (Proc.devRef .tc main_arg4) = X0 (Proc.devRef .tc main_arg4)
  ∧ X (Proc.devRef .tc main_v66) = val_main_v66 (F := F) (X0 (Proc.devRef .tc main_arg2))
  ∧ X (Proc.devRef .tc main_v72) = val_main_v72 (F := F) (X0 (Proc.devRef .tc main_arg0)) (X0 (Proc.devRef .tc main_arg1)) (X0 (Proc.devRef .tc main_arg2))
  ∧ X (Proc.devRef .tc main_v88) = val_main_v88 (F := F) (X0 (Proc.devRef .tc main_arg0)) (X0 (Proc.devRef .tc main_arg2))
  ∧ X (Proc.devRef .tc main_v99) = val_main_v99 (F := F) (X0 (Proc.devRef .tc main_arg2))

/-- The contents `X` after stretch 13, from launch contents `X0`. -/
abbrev At14 (X X0 : Valuation τ sig (Elt F)) : Prop :=
  X (Proc.devRef .tc main_arg0) = X0 (Proc.devRef .tc main_arg0)
  ∧ X (Proc.devRef .tc main_arg1) = X0 (Proc.devRef .tc main_arg1)
  ∧ X (Proc.devRef .tc main_arg2) = X0 (Proc.devRef .tc main_arg2)
  ∧ X (Proc.devRef .tc main_arg3) = X0 (Proc.devRef .tc main_arg3)
  ∧ X (Proc.devRef .tc main_arg4) = X0 (Proc.devRef .tc main_arg4)
  ∧ X (Proc.devRef .tc main_v72) = val_main_v72 (F := F) (X0 (Proc.devRef .tc main_arg0)) (X0 (Proc.devRef .tc main_arg1)) (X0 (Proc.devRef .tc main_arg2))
  ∧ X (Proc.devRef .tc main_v110) = val_main_v110 (F := F) (X0 (Proc.devRef .tc main_arg0)) (X0 (Proc.devRef .tc main_arg2))

/-! ## Each stretch carries one cut's contents to the next -/

theorem step0 (X X0 : Valuation τ sig (Elt F)) (h : At0 X X0) : At1 (after stretch0 X) X0 := by
  obtain ⟨h_arg0, h_arg1, h_arg2, h_arg3, h_arg4⟩ := h
  refine ⟨?_, ?_, ?_, ?_, ?_, ?_, ?_, ?_, ?_, ?_⟩
  · after_results_simp; exact h_arg0
  · after_results_simp; exact h_arg1
  · after_results_simp; exact h_arg2
  · after_results_simp; exact h_arg3
  · after_results_simp; exact h_arg4
  · after_results_simp; rw [h_arg0]; rfl
  · after_results_simp; rw [h_arg1]; rfl
  · after_results_simp; rw [h_arg2]; rfl
  · after_results_simp; rw [h_arg1]; rfl
  · after_results_simp; rw [h_arg0]; rfl

theorem step1 (X X0 : Valuation τ sig (Elt F)) (h : At1 X X0) : At2 (after stretch1 X) X0 := by
  obtain ⟨h_arg0, h_arg1, h_arg2, h_arg3, h_arg4, h_v2, h_v4, h_v11, h_v14, h_v15⟩ := h
  refine ⟨?_, ?_, ?_, ?_, ?_, ?_, ?_, ?_, ?_, ?_, ?_⟩
  · after_results_simp; exact h_arg0
  · after_results_simp; exact h_arg1
  · after_results_simp; exact h_arg2
  · after_results_simp; exact h_arg3
  · after_results_simp; exact h_arg4
  · after_results_simp; exact h_v2
  · after_results_simp; exact h_v4
  · after_results_simp; exact h_v14
  · after_results_simp; rfl
  · after_results_simp; rw [h_v11]; rfl
  · after_results_simp; rw [h_v11, h_v15]; rfl

theorem step2 (X X0 : Valuation τ sig (Elt F)) (h : At2 X X0) : At3 (after stretch2 X) X0 := by
  obtain ⟨h_arg0, h_arg1, h_arg2, h_arg3, h_arg4, h_v2, h_v4, h_v14, h_v16, h_v24, h_v29⟩ := h
  refine ⟨?_, ?_, ?_, ?_, ?_, ?_, ?_, ?_, ?_, ?_, ?_⟩
  · after_results_simp; exact h_arg0
  · after_results_simp; exact h_arg1
  · after_results_simp; exact h_arg2
  · after_results_simp; exact h_arg3
  · after_results_simp; exact h_arg4
  · after_results_simp; exact h_v2
  · after_results_simp; exact h_v4
  · after_results_simp; exact h_v14
  · after_results_simp; exact h_v16
  · after_results_simp; exact h_v29
  · after_results_simp; rw [h_v24]; rfl

theorem step3 (X X0 : Valuation τ sig (Elt F)) (h : At3 X X0) : At4 (after stretch3 X) X0 := by
  obtain ⟨h_arg0, h_arg1, h_arg2, h_arg3, h_arg4, h_v2, h_v4, h_v14, h_v16, h_v29, h_v37⟩ := h
  refine ⟨?_, ?_, ?_, ?_, ?_, ?_, ?_, ?_, ?_, ?_, ?_⟩
  · after_results_simp; exact h_arg0
  · after_results_simp; exact h_arg1
  · after_results_simp; exact h_arg2
  · after_results_simp; exact h_arg3
  · after_results_simp; exact h_arg4
  · after_results_simp; exact h_v2
  · after_results_simp; exact h_v14
  · after_results_simp; exact h_v16
  · after_results_simp; exact h_v29
  · after_results_simp; exact h_v37
  · after_results_simp; simp only [TRef.ofBuf, TRef.toBuf, cast_eq]; rw [h_v4]; rfl

theorem step4 (X X0 : Valuation τ sig (Elt F)) (h : At4 X X0) : At5 (after stretch4 X) X0 := by
  obtain ⟨h_arg0, h_arg1, h_arg2, h_arg3, h_arg4, h_v2, h_v14, h_v16, h_v29, h_v37, h_call0_v4⟩ := h
  refine ⟨?_, ?_, ?_, ?_, ?_, ?_, ?_, ?_, ?_, ?_, ?_, ?_, ?_⟩
  · after_results_simp; exact h_arg0
  · after_results_simp; exact h_arg1
  · after_results_simp; exact h_arg2
  · after_results_simp; exact h_arg3
  · after_results_simp; exact h_arg4
  · after_results_simp; exact h_v2
  · after_results_simp; exact h_v14
  · after_results_simp; exact h_v16
  · after_results_simp; exact h_v29
  · after_results_simp; exact h_v37
  · after_results_simp; exact h_call0_v4
  · after_results_simp; simp only [TRef.ofBuf, TRef.toBuf, cast_eq]; rw [h_call0_v4]; rfl
  · after_results_simp; simp only [TRef.ofBuf, TRef.toBuf, cast_eq]; rfl

theorem step5 (X X0 : Valuation τ sig (Elt F)) (h : At5 X X0) : At6 (after stretch5 X) X0 := by
  obtain ⟨h_arg0, h_arg1, h_arg2, h_arg3, h_arg4, h_v2, h_v14, h_v16, h_v29, h_v37, h_call0_v4, h_call0_v6, h_call0_v8⟩ := h
  refine ⟨?_, ?_, ?_, ?_, ?_, ?_, ?_, ?_, ?_, ?_, ?_, ?_⟩
  · after_results_simp; exact h_arg0
  · after_results_simp; exact h_arg1
  · after_results_simp; exact h_arg2
  · after_results_simp; exact h_arg3
  · after_results_simp; exact h_arg4
  · after_results_simp; exact h_v2
  · after_results_simp; exact h_v14
  · after_results_simp; exact h_v16
  · after_results_simp; exact h_v29
  · after_results_simp; exact h_v37
  · after_results_simp; exact h_call0_v4
  · after_results_simp; simp only [TRef.ofBuf, TRef.toBuf, cast_eq]; rw [h_call0_v6, h_call0_v4, h_call0_v8]; rfl

theorem step6 (X X0 : Valuation τ sig (Elt F)) (h : At6 X X0) : At7 (after stretch6 X) X0 := by
  obtain ⟨h_arg0, h_arg1, h_arg2, h_arg3, h_arg4, h_v2, h_v14, h_v16, h_v29, h_v37, h_call0_v4, h_call0_v11⟩ := h
  refine ⟨?_, ?_, ?_, ?_, ?_, ?_, ?_, ?_, ?_, ?_, ?_⟩
  · after_results_simp; exact h_arg0
  · after_results_simp; exact h_arg1
  · after_results_simp; exact h_arg2
  · after_results_simp; exact h_arg3
  · after_results_simp; exact h_arg4
  · after_results_simp; exact h_v2
  · after_results_simp; exact h_v14
  · after_results_simp; exact h_v16
  · after_results_simp; exact h_v29
  · after_results_simp; exact h_v37
  · after_results_simp; simp only [TRef.ofBuf, TRef.toBuf, cast_eq]; rw [h_call0_v11, h_v29, h_call0_v4]; rfl

theorem step7 (X X0 : Valuation τ sig (Elt F)) (h : At7 X X0) : At8 (after stretch7 X) X0 := by
  obtain ⟨h_arg0, h_arg1, h_arg2, h_arg3, h_arg4, h_v2, h_v14, h_v16, h_v29, h_v37, h_v39⟩ := h
  refine ⟨?_, ?_, ?_, ?_, ?_, ?_, ?_, ?_, ?_, ?_⟩
  · after_results_simp; exact h_arg0
  · after_results_simp; exact h_arg1
  · after_results_simp; exact h_arg2
  · after_results_simp; exact h_arg3
  · after_results_simp; exact h_arg4
  · after_results_simp; exact h_v14
  · after_results_simp; exact h_v16
  · after_results_simp; exact h_v29
  · after_results_simp; exact h_v37
  · after_results_simp; rw [h_v2, h_v39]; rfl

theorem step8 (X X0 : Valuation τ sig (Elt F)) (h : At8 X X0) : At9 (after stretch8 X) X0 := by
  obtain ⟨h_arg0, h_arg1, h_arg2, h_arg3, h_arg4, h_v14, h_v16, h_v29, h_v37, h_v51⟩ := h
  refine ⟨?_, ?_, ?_, ?_, ?_, ?_, ?_, ?_⟩
  · after_results_simp; exact h_arg0
  · after_results_simp; exact h_arg1
  · after_results_simp; exact h_arg2
  · after_results_simp; exact h_arg3
  · after_results_simp; exact h_arg4
  · after_results_simp; exact h_v29
  · after_results_simp; exact h_v37
  · after_results_simp; rw [h_v14, h_v51, h_v16]; rfl

theorem step9 (X X0 : Valuation τ sig (Elt F)) (h : At9 X X0) : At10 (after stretch9 X) X0 := by
  obtain ⟨h_arg0, h_arg1, h_arg2, h_arg3, h_arg4, h_v29, h_v37, h_v63⟩ := h
  refine ⟨?_, ?_, ?_, ?_, ?_, ?_, ?_, ?_, ?_⟩
  · after_results_simp; exact h_arg0
  · after_results_simp; exact h_arg1
  · after_results_simp; exact h_arg2
  · after_results_simp; exact h_arg3
  · after_results_simp; exact h_arg4
  · after_results_simp; exact h_v29
  · after_results_simp; exact h_v37
  · after_results_simp; rw [h_v37]; rfl
  · after_results_simp; rw [h_v63, h_v37]; rfl

theorem step10 (X X0 : Valuation τ sig (Elt F)) (h : At10 X X0) : At11 (after stretch10 X) X0 := by
  obtain ⟨h_arg0, h_arg1, h_arg2, h_arg3, h_arg4, h_v29, h_v37, h_v66, h_v72⟩ := h
  refine ⟨?_, ?_, ?_, ?_, ?_, ?_, ?_, ?_, ?_⟩
  · after_results_simp; exact h_arg0
  · after_results_simp; exact h_arg1
  · after_results_simp; exact h_arg2
  · after_results_simp; exact h_arg3
  · after_results_simp; exact h_arg4
  · after_results_simp; exact h_v37
  · after_results_simp; exact h_v66
  · after_results_simp; exact h_v72
  · after_results_simp; rw [h_v29]; rfl

theorem step11 (X X0 : Valuation τ sig (Elt F)) (h : At11 X X0) : At12 (after stretch11 X) X0 := by
  obtain ⟨h_arg0, h_arg1, h_arg2, h_arg3, h_arg4, h_v37, h_v66, h_v72, h_v88⟩ := h
  refine ⟨?_, ?_, ?_, ?_, ?_, ?_, ?_, ?_, ?_, ?_⟩
  · after_results_simp; exact h_arg0
  · after_results_simp; exact h_arg1
  · after_results_simp; exact h_arg2
  · after_results_simp; exact h_arg3
  · after_results_simp; exact h_arg4
  · after_results_simp; exact h_v37
  · after_results_simp; exact h_v66
  · after_results_simp; exact h_v72
  · after_results_simp; exact h_v88
  · after_results_simp; simp only [TRef.ofBuf, TRef.toBuf, cast_eq]; rfl

theorem step12 (X X0 : Valuation τ sig (Elt F)) (h : At12 X X0) : At13 (after stretch12 X) X0 := by
  obtain ⟨h_arg0, h_arg1, h_arg2, h_arg3, h_arg4, h_v37, h_v66, h_v72, h_v88, h_v90⟩ := h
  refine ⟨?_, ?_, ?_, ?_, ?_, ?_, ?_, ?_, ?_⟩
  · after_results_simp; exact h_arg0
  · after_results_simp; exact h_arg1
  · after_results_simp; exact h_arg2
  · after_results_simp; exact h_arg3
  · after_results_simp; exact h_arg4
  · after_results_simp; exact h_v66
  · after_results_simp; exact h_v72
  · after_results_simp; exact h_v88
  · after_results_simp; rw [h_v37, h_v90]; rfl

theorem step13 (X X0 : Valuation τ sig (Elt F)) (h : At13 X X0) : At14 (after stretch13 X) X0 := by
  obtain ⟨h_arg0, h_arg1, h_arg2, h_arg3, h_arg4, h_v66, h_v72, h_v88, h_v99⟩ := h
  refine ⟨?_, ?_, ?_, ?_, ?_, ?_, ?_⟩
  · after_results_simp; exact h_arg0
  · after_results_simp; exact h_arg1
  · after_results_simp; exact h_arg2
  · after_results_simp; exact h_arg3
  · after_results_simp; exact h_arg4
  · after_results_simp; exact h_v72
  · after_results_simp; simp only [TRef.ofBuf, TRef.toBuf, cast_eq]; rw [h_v66, h_v88, h_v99]; rfl

end Cert.ReferenceIdeal.RunH

end
-- ==== Proof.RefRunH.lean ====
/-
  The reference's run, read back over its stages: every weakly fair execution of the reference terminates with each of
  its two results at the last stage (`val_main_v72`, `val_main_v110`) of the argument arrays and the arguments unchanged.
  The 169 host operations are folded stretch by stretch, each buffer a later stretch reads named by its stage.

  The program is a straight line in which every buffer is written once, before any operation reads it. A stage
  `val_<buffer>` is, by definition, the buffer's operation applied to the stages of its operands, so it is a function of
  the arguments alone. Cut the line into fourteen consecutive stretches. At a cut only a few of the buffers written so
  far are read later; the table `At j X X0` says that in the contents `X` reached there each of those holds its stage of
  the arguments' launch contents (those of `X0`), and each argument what it held at launch. A stretch carries one table to
  the next (`step j`): a buffer it does not write keeps what it held, which the table gives; a buffer it writes holds the
  stretch's operations applied to buffers of the table, hence to their stages, and that is the buffer's own stage with
  the stages defined inside the stretch unfolded. The operation list is the stretches appended (`ops_eq`), the contents
  after two lists in a row are the second's from the first's (`after_stretches`), and the launch contents satisfy the
  first table by reflexivity: so the fourteen steps compose to the last table (`at_end`) — the two results at their
  stages, the five arguments as launched — of the contents after the whole list, which is what every final state holds.
-/
import proofs.«410730_j59820304499339_4_alg».proof.Proof.RefRunH1
import Idealize.ShloMosaic.Lib.StableHlo.Run

noncomputable section

namespace Cert.ReferenceIdeal.RunH

open Cert.ReferenceIdeal Cert.ReferenceIdeal.Gen Cert.ReferenceIdeal.ValueP Cert.ReferenceIdeal.ReadP
open Idealize.ShloMosaic Idealize.ShloMosaic.TcCoe Idealize.SL.Sem Idealize.ShloMosaic.StableHlo

variable {F : FTy → Type} [FloatOps F]

/-- The operation list is the fourteen stretches, in order. -/
theorem ops_eq : (ops : List (HloOp τ sig (Elt F))) = stretch0 ++ (stretch1 ++ (stretch2 ++ (stretch3 ++ (stretch4 ++ (stretch5 ++ (stretch6 ++ (stretch7 ++ (stretch8 ++ (stretch9 ++ (stretch10 ++ (stretch11 ++ (stretch12 ++ (stretch13))))))))))))) := rfl

/-- The contents after two lists of operations in a row are the second list's, from the first list's. -/
theorem after_stretches : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_stretches l₁ l₂]

/-- The contents after the whole program are the fourteen stretches' folds, one after another. -/
theorem after_ops (X0 : Valuation τ sig (Elt F)) :
    after ops X0 = after stretch13 (after stretch12 (after stretch11 (after stretch10 (after stretch9 (after stretch8 (after stretch7 (after stretch6 (after stretch5 (after stretch4 (after stretch3 (after stretch2 (after stretch1 (after stretch0 X0))))))))))))) := by
  rw [ops_eq, after_stretches, after_stretches, after_stretches, after_stretches, after_stretches, after_stretches, after_stretches, after_stretches, after_stretches, after_stretches, after_stretches, after_stretches, after_stretches]

/-- After the whole program, from any launch contents: the two results at their stages of the arguments' launch
    contents, the arguments as launched. The launch contents satisfy the first table by reflexivity; each stretch's
    step carries a table to the next. -/
theorem at_end (X0 : Valuation τ sig (Elt F)) : At14 (after ops X0) X0 := by
  rw [after_ops]
  exact step13 _ _ (step12 _ _ (step11 _ _ (step10 _ _ (step9 _ _ (step8 _ _ (step7 _ _ (step6 _ _ (step5 _ _ (step4 _ _ (step3 _ _ (step2 _ _ (step1 _ _ (step0 _ _ (⟨rfl, rfl, rfl, rfl, rfl⟩))))))))))))))

theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v72)
          = val_main_v72 (F := F) (m ((c.tc : Thread nD τ).loc main_arg0)) (m ((c.tc : Thread nD τ).loc main_arg1)) (m ((c.tc : Thread nD τ).loc main_arg2))
      ∧ r.2.mem ((c.tc : Thread nD τ).loc main_v110)
          = val_main_v110 (F := F) (m ((c.tc : Thread nD τ).loc main_arg0)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  refine (θ_run defs _ _).mono (fun _ h c => ?_)
    (run_seq scopedRefs_eq scopedSems_eq defs main (fun _ => ops) main_eq (fun _ => ops_sub) m ρ)
  obtain ⟨e0, e1, e2, e3, e4, e72, e110⟩ := at_end (F := F) (launchContents m c)
  exact ⟨(h c main_v72).trans e72, (h c main_v110).trans e110, (h c main_arg0).trans e0, (h c main_arg1).trans e1,
    (h c main_arg2).trans e2, (h c main_arg3).trans e3, (h c main_arg4).trans e4⟩

end Cert.ReferenceIdeal.RunH

end
-- ==== Proof.Spec.lean ====
/-
  The mathematics both programs compute, index by index over the extended reals.

  An image `b` has 640 × 640 pixels; pixel `(i, j)` carries four embedding channels (channels 4 … 7 of the float input)
  and two labels in 0 … 15 (its kernel label and its text label). For a label map `lab`, an image `b` and a class `m`:
  `cnt lab b m` is the number of pixels of `b` labelled `m`, `esum emb lab b c m` the sum of channel `c` over those pixels.
  The centroid of class `m` is `esum / max cnt 1`. A pixel's pull term is `log1p (max (sqrt (‖e − g‖² + ε) − ½) 0)²`
  with `g` the centroid of the pixel's text label, read as the sum over all classes of the label's indicator times the
  class centroid; `tsum` sums the pull terms of the pixels of each text label.
-/
import Idealize.ShloMosaic.PureOps.Ideal
import Idealize.ShloMosaic.Lib.ValueIdx

noncomputable section

namespace Cert.Spec

open Idealize.ShloMosaic Idealize.ShloMosaic.ValueIdx
open scoped BigOperators

/-- The float input: 8 images, 8 channels, 640 × 640 pixels. -/
abbrev SEmb : Shape := ⟨4, ![8, 8, 640, 640]⟩
/-- A label map: 8 images of 640 × 640 pixels. -/
abbrev SLab : Shape := ⟨3, ![8, 640, 640]⟩

/-- Every label word, read signed, is a class 0 … 15. -/
def InRange (lab : IVec SLab 32) : Prop := ∀ i : SLab.Idx, 0 ≤ (lab i).toInt ∧ (lab i).toInt < 16

/-- The indicator of "the label word, read signed, is class `m`". -/
def ind (w : BitVec 32) (m : Fin 16) : EReal := if w.toInt = (m.val : Int) then 1 else 0

/-- Embedding channel `c` (input channel `4 + c`) of pixel `(i, j)` of image `b`. -/
def px (emb : SEmb.Idx → EReal) (b : Fin 8) (c : Fin 4) (i j : Fin 640) : EReal :=
  emb (ix4 b ⟨4 + c.val, by have := c.isLt; omega⟩ i j)

/-- The number of pixels of image `b` labelled `m`. -/
def cnt (lab : IVec SLab 32) (b : Fin 8) (m : Fin 16) : EReal :=
  ∑ i : Fin 640, ∑ j : Fin 640, ind (lab (ix3 b i j)) m

/-- The sum of embedding channel `c` over the pixels of image `b` labelled `m`. -/
def esum (emb : SEmb.Idx → EReal) (lab : IVec SLab 32) (b : Fin 8) (c : Fin 4) (m : Fin 16) : EReal :=
  ∑ i : Fin 640, ∑ j : Fin 640, px emb b c i j * ind (lab (ix3 b i j)) m

/-- The float constants both programs carry, as their words. -/
abbrev zero : EReal := Ideal.ofBits .f32 0x00000000#32
abbrev one : EReal := Ideal.ofBits .f32 0x3F800000#32
abbrev half : EReal := Ideal.ofBits .f32 0x3F000000#32
abbrev eps : EReal := Ideal.ofBits .f32 0x2B8CBCCC#32

/-- The centroid of class `m` of image `b`, channel `c`: the channel sum over the class's pixel count, the count floored at one. -/
def centroid (emb : SEmb.Idx → EReal) (lab : IVec SLab 32) (b : Fin 8) (c : Fin 4) (m : Fin 16) : EReal :=
  Ideal.div (esum emb lab b c m) (max (cnt lab b m) one)

/-- The centroid a pixel is pulled to, channel `c`: the sum over the classes of the text label's indicator times the class's value. -/
def gpix (tt : IVec SLab 32) (G : Fin 8 → Fin 4 → Fin 16 → EReal) (b : Fin 8) (c : Fin 4) (i j : Fin 640) : EReal :=
  ∑ m : Fin 16, ind (tt (ix3 b i j)) m * G b c m

/-- The squared distance of a pixel's embedding from the centroid it is pulled to. -/
def dist2 (emb : SEmb.Idx → EReal) (tt : IVec SLab 32) (G : Fin 8 → Fin 4 → Fin 16 → EReal) (b : Fin 8) (i j : Fin 640) : EReal :=
  ∑ c : Fin 4, (px emb b c i j - gpix tt G b c i j) * (px emb b c i j - gpix tt G b c i j)

/-- A pixel's pull term. -/
def lpix (emb : SEmb.Idx → EReal) (tt : IVec SLab 32) (G : Fin 8 → Fin 4 → Fin 16 → EReal) (b : Fin 8) (i j : Fin 640) : EReal :=
  Ideal.log1p (max (Ideal.sqrt (dist2 emb tt G b i j + eps) - half) zero * max (Ideal.sqrt (dist2 emb tt G b i j + eps) - half) zero)

/-- The sum of the pull terms over the pixels of image `b` whose text label is `m`. -/
def tsum (emb : SEmb.Idx → EReal) (tt : IVec SLab 32) (G : Fin 8 → Fin 4 → Fin 16 → EReal) (b : Fin 8) (m : Fin 16) : EReal :=
  ∑ i : Fin 640, ∑ j : Fin 640, ind (tt (ix3 b i j)) m * lpix emb tt G b i j

end Cert.Spec

end
-- ==== Proof.KDefs.lean ====
/-
  What the two kernel regions leave in their result arrays, as functions of the whole input arrays.

  Region 0 accumulates, over the five row tiles of an image, the per-class channel sums (rows 0 … 3) and pixel counts
  (row 4) of the kernel labels; region 1 the per-class pixel counts (row 0) and pull-term sums (row 1) of the text labels,
  against the centroids it is handed.
-/
import proofs.«410730_j59820304499339_4_alg».proof.KernelIdeal
import proofs.«410730_j59820304499339_4_alg».proof.Proof.Spec

noncomputable section

namespace Cert.KernelIdeal.Val

open Idealize.ShloMosaic Idealize.ShloMosaic.ValueIdx Cert.KernelIdeal

/-- Region 0's result array: element `(b, r, m)` is the channel-`r` sum of class `m` of image `b` for `r < 4`, the pixel count for `r = 4`. -/
def A0 (emb : Spec.SEmb.Idx → EReal) (kt : IVec Spec.SLab 32) : Vec Ideal S8x5x16 .f32 := fun i =>
  if h : (i 1).val < 4 then Spec.esum emb kt ⟨(i 0).val, (i 0).isLt⟩ ⟨(i 1).val, h⟩ ⟨(i 2).val, (i 2).isLt⟩
  else Spec.cnt kt ⟨(i 0).val, (i 0).isLt⟩ ⟨(i 2).val, (i 2).isLt⟩

/-- The centroids region 1 is handed, read as a function of image, channel and class. -/
def Gof (G : Vec Ideal S8x4x16 .f32) : Fin 8 → Fin 4 → Fin 16 → EReal := fun b c m => G (ix3 b c m)

/-- Region 1's result array: element `(b, 0, m)` is the pixel count of text class `m` of image `b`, element `(b, 1, m)` the sum of its pull terms. -/
def A1 (emb : Spec.SEmb.Idx → EReal) (tt : IVec Spec.SLab 32) (G : Vec Ideal S8x4x16 .f32) : Vec Ideal S8x2x16 .f32 := fun i =>
  if (i 1).val = 0 then Spec.cnt tt ⟨(i 0).val, (i 0).isLt⟩ ⟨(i 2).val, (i 2).isLt⟩
  else Spec.tsum emb tt (Gof G) ⟨(i 0).val, (i 0).isLt⟩ ⟨(i 2).val, (i 2).isLt⟩

end Cert.KernelIdeal.Val

end
-- ==== Proof.KTile.lean ====
/-
  Two facts about one row tile (128 × 640 pixels, 16 classes) that both regions use: the tile's one-hot array read at an
  element is the indicator of the pixel's label, and a sum over the tile's two pixel axes is a double sum over rows and columns.
-/
import proofs.«410730_j59820304499339_4_alg».proof.Proof.Gen.KernelIdeal.Skeleton
import proofs.«410730_j59820304499339_4_alg».proof.Proof.Spec
import Idealize.ShloMosaic.PureOps.Ideal.Laws
import Idealize.ShloMosaic.Lib.Pipeline.Value

noncomputable section

namespace Cert.KernelIdeal.Val

open Idealize.ShloMosaic Idealize.ShloMosaic.ValueIdx
open Cert.KernelIdeal Cert.KernelIdeal.Gen
open scoped BigOperators

/-- A 32-bit word whose signed reading is a class 0 … 15 has that class as its unsigned reading too. -/
theorem toNat_eq_toInt_of_class (w : BitVec 32) (h : 0 ≤ w.toInt ∧ w.toInt < 16) : (w.toNat : Int) = w.toInt := by
  have h2 := BitVec.toInt_eq_toNat_cond w
  have h3 := w.isLt
  split at h2 <;> omega

/-- Such a word is the word of the number `m` exactly when its signed reading is `m`. -/
theorem eq_ofNat_iff_toInt_eq (w : BitVec 32) (h : 0 ≤ w.toInt ∧ w.toInt < 16) (m : Fin 16) :
    w = BitVec.ofNat 32 m.val ↔ w.toInt = (m.val : Int) := by
  have hn := toNat_eq_toInt_of_class w h
  have hm := m.isLt
  constructor
  · intro e
    have : w.toNat = m.val := by rw [e, BitVec.toNat_ofNat]; omega
    omega
  · intro e
    apply BitVec.eq_of_toNat_eq
    rw [BitVec.toNat_ofNat]
    omega

/-- Clamping a class 0 … 15 to the range 0 … 15 leaves it as it is. -/
theorem clamp_of_class (w : BitVec 32) (h : 0 ≤ w.toInt ∧ w.toInt < 16) :
    IntOp.minsi 15#32 (IntOp.maxsi 0#32 w) = w := by
  have h0 : (0#32 : BitVec 32).toInt = 0 := by decide
  have h15 : (15#32 : BitVec 32).toInt = 15 := by decide
  have e1 : IntOp.maxsi 0#32 w = w := by
    unfold IntOp.maxsi
    rw [if_neg]
    simp only [BitVec.slt, h0, decide_eq_true_eq]
    omega
  rw [e1]
  unfold IntOp.minsi
  rw [if_neg]
  simp only [BitVec.slt, h15, decide_eq_true_eq]
  omega

/-- The one-hot element of a word: the compare bit of the clamped word against class `m`, widened and read as a float, is the indicator. -/
theorem onehot_word (w : BitVec 32) (m : Fin 16) (h : 0 ≤ w.toInt ∧ w.toInt < 16) :
    FloatOps.sitofp (F := Ideal) .f32 ((IntOp.cmpi .eq (IntOp.minsi 15#32 (IntOp.maxsi 0#32 w)) (BitVec.ofNat 32 m.val)).setWidth 32)
      = Spec.ind w m := by
  rw [clamp_of_class w h]
  show (((((BitVec.ofBool (w == BitVec.ofNat 32 m.val)).setWidth 32).toInt : ℝ)) : EReal) = _
  unfold Spec.ind
  by_cases e : w.toInt = (m.val : Int)
  · rw [if_pos e]
    have e' : w = BitVec.ofNat 32 m.val := (eq_ofNat_iff_toInt_eq w h m).2 e
    have : (w == BitVec.ofNat 32 m.val) = true := by rw [beq_iff_eq]; exact e'
    rw [this]
    have : ((BitVec.ofBool true).setWidth 32).toInt = 1 := by decide
    rw [this]; simp
  · rw [if_neg e]
    have e' : ¬ w = BitVec.ofNat 32 m.val := fun q => e ((eq_ofNat_iff_toInt_eq w h m).1 q)
    have : (w == BitVec.ofNat 32 m.val) = false := by rw [beq_eq_false_iff_ne]; exact e'
    rw [this]
    have : ((BitVec.ofBool false).setWidth 32).toInt = 0 := by decide
    rw [this]; simp

/-- The class numbers `0 … 15` laid along the last axis, read at class `cls`. -/
theorem iota_class_apply (h : S1x1x1x16.Iotas .tc 32 [3]) (cls : Fin 16) :
    iota .tc S1x1x1x16 32 [3] h (ix4 0 0 0 cls) = BitVec.ofNat 32 cls.val := by
  show BitVec.ofNat 32 (0 * 16 + cls.val) = _
  rw [Nat.zero_mul, Nat.zero_add]

/-- The clamped labels with a trailing unit axis, spread over the 16 classes, read at pixel `(i, j)`. -/
theorem labels_spread_apply (y : IVec S1x128x640 32) (i : Fin 128) (j : Fin 640) (cls : Fin 16) :
    broadcastTo S1x128x640x16 (shapeCast S1x128x640x1 y shapeCasts_S1x128x640_S1x128x640x1) broadcasts_S1x128x640x1_S1x128x640x16 (ix4 0 i j cls)
      = y (ix3 0 i j) := by
  refine (broadcastTo_apply _ _ (ix4 0 i j cls) (ix4 0 i j 0) ?_).trans ?_
  · intro a
    match a with
    | ⟨0, _⟩ => rfl
    | ⟨1, _⟩ => rfl
    | ⟨2, _⟩ => rfl
    | ⟨3, _⟩ => rfl
  · refine shapeCast_apply _ _ (ix4 0 i j 0) (ix3 0 i j) ?_
    rw [Shape.rowMajor_val_three, Shape.rowMajor_val_four]
    show ((0 * 128 + i.val) * 640 + j.val) = (((0 * 128 + i.val) * 640 + j.val) * 1 + 0)
    omega

/-- The class numbers spread over the pixels, read at class `cls`. -/
theorem classes_spread_apply (z : IVec S1x1x1x16 32) (i : Fin 128) (j : Fin 640) (cls : Fin 16) :
    broadcastTo S1x128x640x16 z broadcasts_S1x1x1x16_S1x128x640x16 (ix4 0 i j cls) = z (ix4 0 0 0 cls) := by
  refine broadcastTo_apply _ _ (ix4 0 i j cls) (ix4 0 0 0 cls) ?_
  intro a
  match a with
  | ⟨0, _⟩ => rfl
  | ⟨1, _⟩ => rfl
  | ⟨2, _⟩ => rfl
  | ⟨3, _⟩ => rfl

/-- Region 0's one-hot array of a tile of labels, at pixel `(i, j)` and class `cls`: the indicator of the pixel's label being `cls`,
    when the label is a class 0 … 15 (the clamp to 0 … 15 then changes nothing). -/
theorem onehot0_apply (x1 : Vec Ideal S1x128x640 .i32) (i : Fin 128) (j : Fin 640) (cls : Fin 16)
    (h : 0 ≤ (x1 (ix3 0 i j)).toInt ∧ (x1 (ix3 0 i j)).toInt < 16) :
    k0_pay3 (F := Ideal) x1 (ix4 0 i j cls) = Spec.ind (x1 (ix3 0 i j)) cls := by
  refine Eq.trans ?_ (onehot_word (x1 (ix3 0 i j)) cls h)
  show FloatOps.sitofp (F := Ideal) .f32 ((IntOp.cmpi .eq
      (broadcastTo S1x128x640x16 (shapeCast S1x128x640x1 (minsi (broadcast S1x128x640 15#32) (maxsi (broadcast S1x128x640 0#32) x1)) shapeCasts_S1x128x640_S1x128x640x1) broadcasts_S1x128x640x1_S1x128x640x16 (ix4 0 i j cls))
      (broadcastTo S1x128x640x16 (iota .tc S1x1x1x16 32 [3] iota_S1x1x1x16_d3_w32) broadcasts_S1x1x1x16_S1x128x640x16 (ix4 0 i j cls))).setWidth 32) = _
  rw [labels_spread_apply, classes_spread_apply, iota_class_apply]
  rfl

/-- The same for region 1's one-hot array. -/
theorem onehot1_apply (x1 : Vec Ideal S1x128x640 .i32) (i : Fin 128) (j : Fin 640) (cls : Fin 16)
    (h : 0 ≤ (x1 (ix3 0 i j)).toInt ∧ (x1 (ix3 0 i j)).toInt < 16) :
    k1_pay4 (F := Ideal) x1 (ix4 0 i j cls) = Spec.ind (x1 (ix3 0 i j)) cls :=
  onehot0_apply x1 i j cls h

/-- The row and column of an element of a `[1, 128, 640, 16]` tile. -/
def tilePixel (x : S1x128x640x16.Idx) : Fin 128 × Fin 640 := (x 1, x 2)

/-- Dropping the two pixel axes of the element `(a, i, j, c)` leaves `(a, c)`. -/
theorem drop12_ix4 (h : S1x128x640x16.Reduces [1, 2] S1x16) (a : Fin 1) (i : Fin 128) (j : Fin 640) (c : Fin 16) :
    h.drop (ix4 a i j c) = ix2 a c := by
  funext b
  match b with
  | ⟨0, _⟩ => rfl
  | ⟨1, _⟩ => rfl

/-- Dropping the two pixel axes keeps the class coordinate as the second coordinate. -/
theorem drop12_class (h : S1x128x640x16.Reduces [1, 2] S1x16) (x : S1x128x640x16.Idx) :
    h.drop x 1 = x 3 := rfl

/-- A float sum of a `[1, 128, 640, 16]` array over its two pixel axes, read at class `cls`: the double sum over rows and columns. -/
theorem reduce12_apply (src : FVec Ideal S1x128x640x16 .f32) (cls : Fin 16) :
    multiReduction .add [1, 2] S1x16 src 0x00000000#32 reduces_S1x128x640x16_S1x16 (.inl rfl) rfl (ix2 0 cls)
      = ∑ i : Fin 128, ∑ j : Fin 640, src (ix4 0 i j cls) := by
  show ∑ x ∈ Finset.univ.filter (fun x => reduces_S1x128x640x16_S1x16.drop x = ix2 0 cls), src x = _
  rw [← Fintype.sum_prod_type' (f := fun (i : Fin 128) (j : Fin 640) => src (ix4 0 i j cls))]
  refine Finset.sum_nbij' (fun x => tilePixel x) (fun p => ix4 0 p.1 p.2 cls) ?_ ?_ ?_ ?_ ?_
  · intro x _; exact Finset.mem_univ _
  · intro p _; exact Finset.mem_filter.2 ⟨Finset.mem_univ _, drop12_ix4 _ 0 p.1 p.2 cls⟩
  · intro x hx
    have hd := (Finset.mem_filter.1 hx).2
    have h3 : x 3 = cls := (drop12_class _ x).symm.trans (congrFun hd 1)
    have h0 : x 0 = (0 : Fin 1) := Fin.ext (by have h1 : (x 0).val < 1 := (x 0).isLt; show (x 0).val = 0; omega)
    funext e
    match e with
    | ⟨0, _⟩ => exact h0.symm
    | ⟨1, _⟩ => rfl
    | ⟨2, _⟩ => rfl
    | ⟨3, _⟩ => exact h3.symm
  · intro p _; rfl
  · intro x hx
    have hd := (Finset.mem_filter.1 hx).2
    have h3 : x 3 = cls := (drop12_class _ x).symm.trans (congrFun hd 1)
    have h0 : x 0 = (0 : Fin 1) := Fin.ext (by have h1 : (x 0).val < 1 := (x 0).isLt; show (x 0).val = 0; omega)
    refine congrArg src ?_
    funext e
    match e with
    | ⟨0, _⟩ => exact h0
    | ⟨1, _⟩ => rfl
    | ⟨2, _⟩ => rfl
    | ⟨3, _⟩ => exact h3

end Cert.KernelIdeal.Val

end
-- ==== Proof.KRegion0.lean ====
/-
  Region 0 (the centroid accumulation): its result array is `A0` of the input arrays.

  An image's output block [1, 5, 16] stays in place over the image's five row tiles: the first tile stores zeros into it,
  and every tile adds, at row `r < 4` and class `m`, the sum over the tile's 128 × 640 pixels of embedding channel `r`
  times the indicator of the pixel's kernel label being `m`, and at row 4 the number of the tile's pixels labelled `m`.
  After the fifth tile the block holds zero plus the five tiles' sums, which is the sum over the image's 640 rows; the
  block is written back then, to the image's rows of the result array.
-/
import proofs.«410730_j59820304499339_4_alg».proof.Proof.Gen.KernelIdeal.Frame
import proofs.«410730_j59820304499339_4_alg».proof.Proof.KDefs
import proofs.«410730_j59820304499339_4_alg».proof.Proof.KTile
import Idealize.ShloMosaic.Lib.Pipeline.Value
import Idealize.ShloMosaic.Lib.ValueLayout
import Idealize.ShloMosaic.Lib.Tactic
import Idealize.ShloMosaic.PureOps.Ideal.Laws

noncomputable section

namespace Cert.KernelIdeal.Val

open Idealize.ShloMosaic Idealize.ShloMosaic.TcCoe Idealize.SL.Sem Idealize.ShloMosaic.ValueIdx
open Idealize.ShloMosaic.Pipeline (Dat)
open Cert.KernelIdeal Cert.KernelIdeal.Gen
open scoped BigOperators

namespace R0

/-! ## What the body leaves in the output block, case by case -/

section Pieces
variable {F : FTy → Type} [FloatOps F]

theorem zeros3 : (![0, 0, 0] : Fin 3 → Nat) = fun _ => 0 := funext fun a => by fin_cases a <;> rfl
theorem zeros4 : (![0, 0, 0, 0] : Fin 4 → Nat) = fun _ => 0 := funext fun a => by fin_cases a <;> rfl

/-- At a row tile that is not an image's first, the body leaves the update of what the block held. -/
theorem out0_B_eq (c : Dev nD) (i : grid0.Coords) (a2 : Memref sig .tc .vmem S1x4x128x640 .f32) (h2 : a2.IsWhole)
    (a3 : Memref sig .tc .vmem S1x128x640 .i32) (h3 : a3.IsWhole) (a4 : Memref sig .tc .vmem S1x5x16 .f32) (h4 : a4.IsWhole)
    (hc : ¬cond0_0 i) (x0 : Vec F S1x4x128x640 .f32) (x1 : Vec F S1x128x640 .i32) (xo : Vec F S1x5x16 .f32) :
    out0_B_2 c i a2 h2 a3 h3 a4 h4 hc x0 x1 xo
      = k0_pay1 x0 (k0_pay3 x1) (k0_pay4 x1) (k0_pay5 x0 x1) (k0_pay6 x0 x1) (k0_pay7 x0 x1) xo := by
  unfold out0_B_2
  rw [View.read_writes_eq_canon _ _ _ (cover0_B_2 c i a2 h2 a3 h3 a4 h4 hc x0 x1 xo)]
  unfold kernelRun0_B
  dsimp only
  sl_unfold_words
  rw [View.canon_unit_zero zeros3]
  simp only [View.readAt_eq_ld, h2.read_unread, h3.read_unread, h4.read_unread, View.ld_unit_zero (S := S1x5x16) zeros3,
    View.ld_unit_zero (S := S1x4x128x640) zeros4, View.ld_unit_zero (S := S1x128x640) zeros3]

/-- At an image's first row tile, the body leaves the update of the zero block. -/
theorem out0_A_eq (c : Dev nD) (i : grid0.Coords) (a2 : Memref sig .tc .vmem S1x4x128x640 .f32) (h2 : a2.IsWhole)
    (a3 : Memref sig .tc .vmem S1x128x640 .i32) (h3 : a3.IsWhole) (a4 : Memref sig .tc .vmem S1x5x16 .f32) (h4 : a4.IsWhole)
    (hc : cond0_0 i) (x0 : Vec F S1x4x128x640 .f32) (x1 : Vec F S1x128x640 .i32) :
    out0_A_2 c i a2 h2 a3 h3 a4 h4 hc x0 x1
      = k0_pay1 x0 (k0_pay3 x1) (k0_pay4 x1) (k0_pay5 x0 x1) (k0_pay6 x0 x1) (k0_pay7 x0 x1) (k0_pay2 (F := F)) := by
  unfold out0_A_2
  rw [View.read_writes_eq_canon _ _ _ (cover0_A_2 c i a2 h2 a3 h3 a4 h4 hc x0 x1)]
  unfold kernelRun0_A
  dsimp only
  sl_unfold_words
  rw [View.canon_cons_unit_zero (S := S1x5x16) zeros3]
  simp only [View.readAt_eq_ld, h2.read_unread, h3.read_unread, View.ld_unit_zero (S := S1x4x128x640) zeros4,
    View.ld_unit_zero (S := S1x128x640) zeros3, View.readCov_unit_zero (S := S1x5x16) _ zeros3]

end Pieces

/-! ## What one row tile adds -/

/-- What a row tile adds to the running block at row `r`, class `cls`: for a channel row the sum over the tile's pixels
    of the channel's value times the indicator of the pixel's label being `cls`; for the count row the number of the
    tile's pixels labelled `cls`. -/
def tileAdd (x0 : Vec Ideal S1x4x128x640 .f32) (x1 : Vec Ideal S1x128x640 .i32) (r : Fin 5) (cls : Fin 16) : EReal :=
  if h : r.val < 4 then ∑ i : Fin 128, ∑ j : Fin 640, x0 (ix4 0 ⟨r.val, h⟩ i j) * Spec.ind (x1 (ix3 0 i j)) cls
  else ∑ i : Fin 128, ∑ j : Fin 640, Spec.ind (x1 (ix3 0 i j)) cls

/-- One channel of the tile, spread over the classes and multiplied by an array over pixels and classes, summed over the
    pixels, at class `cls`: the double sum of the products. -/
theorem chanSum_apply (x0 : Vec Ideal S1x4x128x640 .f32) (oh : FVec Ideal S1x128x640x16 .f32) (ch : Fin 4)
    (off : Fin 4 → Nat) (hoff : off = ![0, ch.val, 0, 0]) (hs : S1x4x128x640.Slices off S1x1x128x640) (cls : Fin 16) :
    multiReduction (F := Ideal) .add [1, 2] S1x16
      (mulf (broadcastTo S1x128x640x16 (shapeCast S1x128x640x1 (shapeCast S1x128x640 (extractStridedSlice S1x1x128x640 off x0 hs)
        shapeCasts_S1x1x128x640_S1x128x640) shapeCasts_S1x128x640_S1x128x640x1) broadcasts_S1x128x640x1_S1x128x640x16) oh)
      0x00000000#32 reduces_S1x128x640x16_S1x16 (.inl rfl) rfl (ix2 0 cls)
    = ∑ i : Fin 128, ∑ j : Fin 640, x0 (ix4 0 ch i j) * oh (ix4 0 i j cls) := by
  subst hoff
  refine (reduce12_apply _ cls).trans ?_
  refine Finset.sum_congr rfl fun i _ => Finset.sum_congr rfl fun j _ => ?_
  refine congrArg (· * oh (ix4 0 i j cls)) ?_
  refine (broadcastTo_apply _ _ (ix4 0 i j cls) (ix4 0 i j 0) (fun a => ?_)).trans ?_
  · match a with
    | ⟨0, _⟩ => rfl
    | ⟨1, _⟩ => rfl
    | ⟨2, _⟩ => rfl
    | ⟨3, _⟩ => rfl
  refine (shapeCast_apply _ _ (ix4 0 i j 0) (ix3 0 i j) ?_).trans ?_
  · rw [Shape.rowMajor_val_three, Shape.rowMajor_val_four]
    show ((0 * 128 + i.val) * 640 + j.val) = (((0 * 128 + i.val) * 640 + j.val) * 1 + 0)
    omega
  refine (shapeCast_apply _ _ (ix3 0 i j) (ix4 0 0 i j) ?_).trans ?_
  · rw [Shape.rowMajor_val_three, Shape.rowMajor_val_four]
    show (((0 * 1 + 0) * 128 + i.val) * 640 + j.val) = ((0 * 128 + i.val) * 640 + j.val)
    omega
  refine extractStridedSlice_apply _ _ _ (ix4 0 0 i j) (ix4 0 ch i j) (fun a => ?_)
  match a with
  | ⟨0, _⟩ => rfl
  | ⟨1, _⟩ => show ch.val = ch.val + 0; omega
  | ⟨2, _⟩ => show i.val = 0 + i.val; omega
  | ⟨3, _⟩ => show j.val = 0 + j.val; omega

/-- A stack of four single rows read at row `k`: the `k`-th of them, at its one row. -/
theorem rows4_piece (xs : List ((s : Shape) × (s.Idx → EReal))) (h : Shape.Concatenates (xs.map (·.1)) S1x4x16 1)
    (k : Nat) (hk4 : k < 4) (hk : k < xs.length) (x₁ : S1x1x16.Idx → EReal) (hxk : xs[k] = ⟨S1x1x16, x₁⟩)
    (hpre : (((xs.take k).map (·.1)).map fun s : Shape => if h : s.rank = S1x4x16.rank then s.size ((1 : Fin S1x4x16.rank).cast h.symm) else 0).sum = k)
    (cls : Fin 16) :
    concatenate S1x4x16 1 xs h (ix3 0 ⟨k, hk4⟩ cls) = x₁ (ix3 0 0 cls) :=
  concatenate_apply_piece (1 : Fin S1x4x16.rank) xs h (ix3 0 ⟨k, hk4⟩ cls) k hk S1x1x16 x₁ hxk rfl k hpre (ix3 0 0 cls)
    (fun b hb => match b, hb with
      | ⟨0, _⟩, _ => rfl
      | ⟨1, _⟩, hb => absurd rfl hb
      | ⟨2, _⟩, _ => rfl)
    (by show k + 0 = k; rfl)

/-- THE UPDATE AT AN ENTRY. With the tile's labels in range, the body's update of a block `acc` reads, at row `r` and
    class `cls`, `acc` there plus what the tile adds. -/
theorem step_apply (x0 : Vec Ideal S1x4x128x640 .f32) (x1 : Vec Ideal S1x128x640 .i32) (acc : Vec Ideal S1x5x16 .f32)
    (hx1 : ∀ (i : Fin 128) (j : Fin 640), 0 ≤ (x1 (ix3 0 i j)).toInt ∧ (x1 (ix3 0 i j)).toInt < 16)
    (r : Fin 5) (cls : Fin 16) :
    k0_pay1 (F := Ideal) x0 (k0_pay3 x1) (k0_pay4 x1) (k0_pay5 x0 x1) (k0_pay6 x0 x1) (k0_pay7 x0 x1) acc (ix3 0 r cls)
      = acc (ix3 0 r cls) + tileAdd x0 x1 r cls := by
  have hoh : ∀ ch : Fin 4,
      (∑ i : Fin 128, ∑ j : Fin 640, x0 (ix4 0 ch i j) * k0_pay3 (F := Ideal) x1 (ix4 0 i j cls))
        = ∑ i : Fin 128, ∑ j : Fin 640, x0 (ix4 0 ch i j) * Spec.ind (x1 (ix3 0 i j)) cls :=
    fun ch => Finset.sum_congr rfl fun i _ => Finset.sum_congr rfl fun j _ => by rw [onehot0_apply x1 i j cls (hx1 i j)]
  unfold k0_pay1
  refine congrArg₂ (· + ·) (congrFun (shapeCast_self acc _) _) ?_
  unfold tileAdd
  obtain ⟨rv, hrv⟩ := r
  by_cases hr : rv < 4
  · rw [dif_pos hr]
    refine (concatenate_pair_apply_left (s₁ := S1x4x16) (s₂ := S1x1x16) (1 : Fin S1x5x16.rank) _ _ _ (ix3 0 ⟨rv, hrv⟩ cls) rfl (ix3 0 ⟨rv, hr⟩ cls) (fun b => ?_)).trans ?_
    · match b with
      | ⟨0, _⟩ => rfl
      | ⟨1, _⟩ => rfl
      | ⟨2, _⟩ => rfl
    match rv, hr with
    | 0, hr =>
      refine (rows4_piece _ _ 0 hr (by show (0 : ℕ) < 4; decide) _ rfl rfl cls).trans ?_
      unfold k0_pay5
      refine (shapeCast_ab_1ab_apply _ _ 0 0 cls).trans ?_
      exact (chanSum_apply x0 (k0_pay3 x1) 0 _ rfl _ cls).trans (hoh 0)
    | 1, hr =>
      refine (rows4_piece _ _ 1 hr (by show (1 : ℕ) < 4; decide) _ rfl rfl cls).trans ?_
      unfold k0_pay6
      refine (shapeCast_ab_1ab_apply _ _ 0 0 cls).trans ?_
      exact (chanSum_apply x0 (k0_pay3 x1) 1 _ rfl _ cls).trans (hoh 1)
    | 2, hr =>
      refine (rows4_piece _ _ 2 hr (by show (2 : ℕ) < 4; decide) _ rfl rfl cls).trans ?_
      refine (shapeCast_ab_1ab_apply _ _ 0 0 cls).trans ?_
      unfold k0_pay7
      exact (chanSum_apply x0 (k0_pay3 x1) 2 _ rfl _ cls).trans (hoh 2)
    | 3, hr =>
      refine (rows4_piece _ _ 3 hr (by show (3 : ℕ) < 4; decide) _ rfl rfl cls).trans ?_
      refine (shapeCast_ab_1ab_apply _ _ 0 0 cls).trans ?_
      exact (chanSum_apply x0 (k0_pay3 x1) 3 _ rfl _ cls).trans (hoh 3)
  · rw [dif_neg hr]
    have h4 : rv = 4 := by omega
    subst h4
    refine (concatenate_pair_apply_right (s₁ := S1x4x16) (s₂ := S1x1x16) (1 : Fin S1x5x16.rank) _ _ _ (ix3 0 ⟨4, hrv⟩ cls) rfl rfl (ix3 0 0 cls) (fun b hb => ?_) rfl).trans ?_
    · match b, hb with
      | ⟨0, _⟩, _ => rfl
      | ⟨1, _⟩, hb => exact absurd rfl hb
      | ⟨2, _⟩, _ => rfl
    refine (shapeCast_ab_1ab_apply _ _ 0 0 cls).trans ?_
    unfold k0_pay4
    refine (reduce12_apply _ cls).trans ?_
    exact Finset.sum_congr rfl fun i _ => Finset.sum_congr rfl fun j _ => onehot0_apply x1 i j cls (hx1 i j)

/-! ## The blocks the windows hand a point -/

section AtIdeal
variable (m : (ℓ : Loc nD τ sig) → Buf (Elt Ideal) ℓ) (ρ : Dev nD → PrngReg)

/-- The four embedding channels of the 128 rows of an image that a point is handed. -/
abbrev embBlk (c : Dev nD) (t : Fin cfg0.N) : Vec Ideal S1x4x128x640 .f32 := iblk0 (V0 m ρ) c 0 t
/-- The kernel labels of those rows. -/
abbrev labBlk (c : Dev nD) (t : Fin cfg0.N) : Vec Ideal S1x128x640 .i32 := iblk0 (V0 m ρ) c 1 t

/-- The index maps, decided over the grid: point `t` is row tile `t % 5` of image `t / 5`. -/
theorem idx_facts : ∀ t : Fin cfg0.N,
    win0_0.index t (0 : Fin 4) = t.val / 5 ∧ win0_0.index t (1 : Fin 4) = 1 ∧ win0_0.index t (2 : Fin 4) = t.val % 5
    ∧ win0_0.index t (3 : Fin 4) = 0
    ∧ win0_1.index t (0 : Fin 3) = t.val / 5 ∧ win0_1.index t (1 : Fin 3) = t.val % 5 ∧ win0_1.index t (2 : Fin 3) = 0
    ∧ win0_2.index t (0 : Fin 3) = t.val / 5 ∧ win0_2.index t (1 : Fin 3) = 0 ∧ win0_2.index t (2 : Fin 3) = 0 :=
  (by decide +kernel : ∀ t : Fin grid0.N, _)

/-- The embedding block at a point, read at channel `ch`, row `i`, column `j`: the float input at the point's image,
    channel `4 + ch`, row `128 (t % 5) + i`. -/
theorem embBlk_apply (c : Dev nD) (t : Fin cfg0.N) (ch : Fin 4) (i : Fin 128) (j : Fin 640) (b : Fin 8)
    (hb : b.val = t.val / 5) (row : Fin 640) (hrow : row.val = 128 * (t.val % 5) + i.val) :
    embBlk m ρ c t (ix4 0 ch i j)
      = m ((c : Thread nD τ).loc main_arg0) (ix4 b ⟨4 + ch.val, by have := ch.isLt; omega⟩ row j) := by
  obtain ⟨e0, e1, e2, e3, -⟩ := idx_facts t
  show iblk0 (V0 m ρ) c 0 t (ix4 0 ch i j) = _
  unfold iblk0
  rw [View.read_apply]
  show m ((c : Thread nD τ).loc main_arg0) _ = m ((c : Thread nD τ).loc main_arg0) _
  congr 1
  funext a
  apply Fin.ext
  match a with
  | ⟨0, _⟩ => show win0_0.index t (0 : Fin 4) * 1 + 1 * 0 = b.val; omega
  | ⟨1, _⟩ => show win0_0.index t (1 : Fin 4) * 4 + 1 * ch.val = 4 + ch.val; omega
  | ⟨2, _⟩ => show win0_0.index t (2 : Fin 4) * 128 + 1 * i.val = row.val; omega
  | ⟨3, _⟩ => show win0_0.index t (3 : Fin 4) * 640 + 1 * j.val = j.val; omega

/-- The label block at a point, read at row `i`, column `j`: the kernel labels at the point's image, row `128 (t % 5) + i`. -/
theorem labBlk_apply (c : Dev nD) (t : Fin cfg0.N) (i : Fin 128) (j : Fin 640) (b : Fin 8)
    (hb : b.val = t.val / 5) (row : Fin 640) (hrow : row.val = 128 * (t.val % 5) + i.val) :
    labBlk m ρ c t (ix3 0 i j) = m ((c : Thread nD τ).loc main_arg2) (ix3 b row j) := by
  obtain ⟨-, -, -, -, e0, e1, e2, -⟩ := idx_facts t
  show iblk0 (V0 m ρ) c 1 t (ix3 0 i j) = _
  unfold iblk0
  rw [View.read_apply]
  show m ((c : Thread nD τ).loc main_arg2) _ = m ((c : Thread nD τ).loc main_arg2) _
  congr 1
  funext a
  apply Fin.ext
  match a with
  | ⟨0, _⟩ => show win0_1.index t (0 : Fin 3) * 1 + 1 * 0 = b.val; omega
  | ⟨1, _⟩ => show win0_1.index t (1 : Fin 3) * 128 + 1 * i.val = row.val; omega
  | ⟨2, _⟩ => show win0_1.index t (2 : Fin 3) * 640 + 1 * j.val = j.val; omega

/-- Under labels in range every label of a point's block is a class 0 … 15. -/
theorem labBlk_inRange (c : Dev nD) (hk : Spec.InRange (m ((c : Thread nD τ).loc main_arg2))) (t : Fin cfg0.N)
    (y : S1x128x640.Idx) : 0 ≤ (labBlk m ρ c t y).toInt ∧ (labBlk m ρ c t y).toInt < 16 := by
  show 0 ≤ (iblk0 (V0 m ρ) c 1 t y).toInt ∧ (iblk0 (V0 m ρ) c 1 t y).toInt < 16
  unfold iblk0
  rw [View.read_apply]
  exact hk _

/-! ## The running block, point by point -/

/-- After an image's first row tile the block holds, entry by entry, zero plus what that tile adds. -/
theorem outsAt_first (c : Dev nD) (hk : Spec.InRange (m ((c : Thread nD τ).loc main_arg2))) (t : Fin cfg0.N)
    (h0 : t.val % 5 = 0) (r : Fin 5) (cls : Fin 16) :
    outsAt0 (V0 m ρ) c t.val t.isLt (ix3 0 r cls)
      = Spec.zero + tileAdd (embBlk m ρ c t) (labBlk m ρ c t) r cls := by
  refine (congrFun (outsAt0_A (V0 m ρ) c t h0) (ix3 0 r cls)).trans ?_
  refine (congrFun (out0_A_eq (F := Ideal) c (grid0.coords t) (ms0_0 t) (hs0_0 t) (ms0_1 t) (hs0_1 t) (ms0_2 t) (hs0_2 t)
    ((hcond0_0 t).mpr h0) (embBlk m ρ c t) (labBlk m ρ c t)) (ix3 0 r cls)).trans ?_
  exact step_apply (embBlk m ρ c t) (labBlk m ρ c t) (k0_pay2 (F := Ideal))
    (fun i j => labBlk_inRange m ρ c hk t (ix3 0 i j)) r cls

/-- After any later row tile it holds what the tile before left plus what this tile adds. -/
theorem outsAt_next (c : Dev nD) (hk : Spec.InRange (m ((c : Thread nD τ).loc main_arg2))) (n : ℕ) (h : n + 1 < cfg0.N)
    (h0 : ¬(n + 1) % 5 = 0) (r : Fin 5) (cls : Fin 16) :
    outsAt0 (V0 m ρ) c (n + 1) h (ix3 0 r cls)
      = outsAt0 (V0 m ρ) c n (Nat.lt_of_succ_lt h) (ix3 0 r cls)
        + tileAdd (embBlk m ρ c ⟨n + 1, h⟩) (labBlk m ρ c ⟨n + 1, h⟩) r cls := by
  refine (congrFun (outsAt0_B (V0 m ρ) c ⟨n + 1, h⟩ h0) (ix3 0 r cls)).trans ?_
  refine (congrFun (out0_B_eq (F := Ideal) c (grid0.coords ⟨n + 1, h⟩) (ms0_0 ⟨n + 1, h⟩) (hs0_0 ⟨n + 1, h⟩) (ms0_1 ⟨n + 1, h⟩)
    (hs0_1 ⟨n + 1, h⟩) (ms0_2 ⟨n + 1, h⟩) (hs0_2 ⟨n + 1, h⟩) (fun hh => h0 ((hcond0_0 ⟨n + 1, h⟩).mp hh))
    (embBlk m ρ c ⟨n + 1, h⟩) (labBlk m ρ c ⟨n + 1, h⟩) (outsAt0 (V0 m ρ) c n (Nat.lt_of_succ_lt h))) (ix3 0 r cls)).trans ?_
  exact step_apply (embBlk m ρ c ⟨n + 1, h⟩) (labBlk m ρ c ⟨n + 1, h⟩) (outsAt0 (V0 m ρ) c n (Nat.lt_of_succ_lt h))
    (fun i j => labBlk_inRange m ρ c hk ⟨n + 1, h⟩ (ix3 0 i j)) r cls

/-- Row tile `u` of image `b` as a point of the grid. -/
def pt (b : Fin 8) (u : Fin 5) : Fin cfg0.N :=
  ⟨5 * b.val + u.val, lt_of_lt_of_eq (by have := b.isLt; have := u.isLt; omega : 5 * b.val + u.val < 40) N_0.symm⟩

/-- What row tile `u` of image `b` adds (nothing past the fifth tile). -/
def imgAdd (c : Dev nD) (b : Fin 8) (u : ℕ) (r : Fin 5) (cls : Fin 16) : EReal :=
  if hu : u < 5 then tileAdd (embBlk m ρ c (pt b ⟨u, hu⟩)) (labBlk m ρ c (pt b ⟨u, hu⟩)) r cls else 0

/-- After row tile `s` of image `b` the block holds zero plus what the tiles `0 … s` of the image add. -/
theorem outsAt_image (c : Dev nD) (hk : Spec.InRange (m ((c : Thread nD τ).loc main_arg2))) (b : Fin 8) (r : Fin 5)
    (cls : Fin 16) : ∀ (s : ℕ) (hs : s < 5) (h : 5 * b.val + s < cfg0.N),
      outsAt0 (V0 m ρ) c (5 * b.val + s) h (ix3 0 r cls)
        = Spec.zero + ∑ u ∈ Finset.range (s + 1), imgAdd m ρ c b u r cls
  | 0, hs, h => by
    rw [Finset.sum_range_one]
    refine (outsAt_first m ρ c hk ⟨5 * b.val + 0, h⟩ (by show (5 * b.val + 0) % 5 = 0; omega) r cls).trans ?_
    unfold imgAdd
    rw [dif_pos hs]
    rfl
  | s + 1, hs, h => by
    have ih := outsAt_image c hk b r cls s (by omega) (Nat.lt_of_succ_lt h)
    have e : imgAdd m ρ c b (s + 1) r cls
        = tileAdd (embBlk m ρ c ⟨5 * b.val + s + 1, h⟩) (labBlk m ρ c ⟨5 * b.val + s + 1, h⟩) r cls := by
      unfold imgAdd; rw [dif_pos hs]; rfl
    rw [Finset.sum_range_succ, ← add_assoc Spec.zero, ← ih, e]
    exact outsAt_next m ρ c hk (5 * b.val + s) h (by omega) r cls

/-! ## From the five row tiles to the image, and from the blocks to the array -/

/-- A sum over the 640 rows of an image is the sum over its five row tiles of the sums over a tile's 128 rows. -/
theorem sum_rows (f : Fin 640 → EReal) :
    ∑ k : Fin 640, f k
      = ∑ s : Fin 5, ∑ i : Fin 128, f ⟨128 * s.val + i.val, by have := s.isLt; have := i.isLt; omega⟩ := by
  rw [← Fintype.sum_prod_type' (f := fun (s : Fin 5) (i : Fin 128) => f ⟨128 * s.val + i.val, by have := s.isLt; have := i.isLt; omega⟩)]
  refine (Fintype.sum_equiv (finProdFinEquiv (m := 5) (n := 128)) _ (fun k : Fin (5 * 128) => f k) (fun p => ?_)).symm
  refine congrArg f (Fin.ext ?_)
  show 128 * p.1.val + p.2.val = p.2.val + 128 * p.1.val
  omega

/-- The five tiles of image `b` together add, at row `r` and class `cls`, the image's channel sum or pixel count. -/
theorem image_sum (c : Dev nD) (b : Fin 8) (r : Fin 5) (cls : Fin 16) :
    Spec.zero + ∑ u ∈ Finset.range 5, imgAdd m ρ c b u r cls
      = A0 (m ((c : Thread nD τ).loc main_arg0)) (m ((c : Thread nD τ).loc main_arg2)) (ix3 b r cls) := by
  have hq : ∀ u : Fin 5, b.val = (pt b u).val / 5 := fun u => by
    show b.val = (5 * b.val + u.val) / 5
    have := u.isLt; omega
  have hrow : ∀ (u : Fin 5) (i : Fin 128),
      (⟨128 * u.val + i.val, by have := u.isLt; have := i.isLt; omega⟩ : Fin 640).val = 128 * ((pt b u).val % 5) + i.val :=
    fun u i => by
      show 128 * u.val + i.val = 128 * ((5 * b.val + u.val) % 5) + i.val
      have := u.isLt; omega
  rw [Finset.sum_range, show Spec.zero = 0 from Ideal.ofBits_zero_f32, zero_add]
  have e : ∀ u : Fin 5, imgAdd m ρ c b u.val r cls
      = tileAdd (embBlk m ρ c (pt b u)) (labBlk m ρ c (pt b u)) r cls := fun u => by
    unfold imgAdd; rw [dif_pos u.isLt]
  rw [Finset.sum_congr rfl fun u _ => e u]
  unfold A0 tileAdd
  by_cases hr : r.val < 4
  · rw [dif_pos (show ((ix3 b r cls : S8x5x16.Idx) 1).val < 4 from hr)]
    simp only [dif_pos hr]
    unfold Spec.esum
    rw [sum_rows]
    refine Finset.sum_congr rfl fun u _ => Finset.sum_congr rfl fun i _ => Finset.sum_congr rfl fun j _ => ?_
    rw [embBlk_apply m ρ c (pt b u) ⟨r.val, hr⟩ i j b (hq u) _ (hrow u i), labBlk_apply m ρ c (pt b u) i j b (hq u) _ (hrow u i)]
    rfl
  · rw [dif_neg (show ¬((ix3 b r cls : S8x5x16.Idx) 1).val < 4 from hr)]
    simp only [dif_neg hr]
    unfold Spec.cnt
    rw [sum_rows]
    refine Finset.sum_congr rfl fun u _ => Finset.sum_congr rfl fun i _ => Finset.sum_congr rfl fun j _ => ?_
    rw [labBlk_apply m ρ c (pt b u) i j b (hq u) _ (hrow u i)]

/-- The running block does not depend on how its point is written. -/
theorem outsAt0_congr (c : Dev nD) {n n' : ℕ} (e : n = n') (h : n < cfg0.N) (h' : n' < cfg0.N) :
    outsAt0 (V0 m ρ) c n h = outsAt0 (V0 m ρ) c n' h' := by
  subst e; rfl

/-- What an image's last row tile writes back is the image's block of `A0`. -/
theorem flushed_eq (c : Dev nD) (hk : Spec.InRange (m ((c : Thread nD τ).loc main_arg2))) (t : Fin cfg0.N)
    (hf : (cfg0.win 2).flush t = true) :
    (dat0 (V0 m ρ) c).flushed 2 t
      = ((cfg0.win 2).blk t).view.read (Elt Ideal)
          (A0 (m ((c : Thread nD τ).loc main_arg0)) (m ((c : Thread nD τ).loc main_arg2))) := by
  have hN : cfg0.N = 40 := N_0
  have ht : t.val < 40 := lt_of_lt_of_eq t.isLt hN
  have h4 : t.val % 5 = 4 := (flush0_2 t).mp hf
  obtain ⟨-, -, -, -, -, -, -, e0, e1, e2⟩ := idx_facts t
  funext y
  have hy0 : (y 0).val < 1 := (y 0).isLt
  have hy1 : (y 1).val < 5 := (y 1).isLt
  have hy2 : (y 2).val < 16 := (y 2).isLt
  have hb : t.val / 5 < 8 := by omega
  show (cfg0.win 2).cut (grid0.coords t) ((dat0 (V0 m ρ) c).after 2 t) y = _
  rw [after0_2, View.read_apply]
  show outsAt0 (V0 m ρ) c t.val t.isLt ((cfg0.win 2).xinj (grid0.coords t) y)
    = A0 (m ((c : Thread nD τ).loc main_arg0)) (m ((c : Thread nD τ).loc main_arg2)) (((cfg0.win 2).blk t).view.emb y)
  have hx : (cfg0.win 2).xinj (grid0.coords t) y = ix3 (0 : Fin 1) (⟨(y 1).val, hy1⟩ : Fin 5) (⟨(y 2).val, hy2⟩ : Fin 16) :=
    funext fun a => Fin.ext (match a with
      | ⟨0, _⟩ => (by show (y 0).val = 0; omega)
      | ⟨1, _⟩ => rfl
      | ⟨2, _⟩ => rfl)
  have hemb : ((cfg0.win 2).blk t).view.emb y
      = ix3 (⟨t.val / 5, hb⟩ : Fin 8) (⟨(y 1).val, hy1⟩ : Fin 5) (⟨(y 2).val, hy2⟩ : Fin 16) :=
    funext fun a => Fin.ext (match a with
      | ⟨0, _⟩ => (by show win0_2.index t (0 : Fin 3) * 1 + 1 * (y 0).val = t.val / 5; omega)
      | ⟨1, _⟩ => (by show win0_2.index t (1 : Fin 3) * 5 + 1 * (y 1).val = (y 1).val; omega)
      | ⟨2, _⟩ => (by show win0_2.index t (2 : Fin 3) * 16 + 1 * (y 2).val = (y 2).val; omega))
  rw [hx, hemb, ← image_sum m ρ c ⟨t.val / 5, hb⟩ ⟨(y 1).val, hy1⟩ ⟨(y 2).val, hy2⟩]
  have hpt : t.val = 5 * (t.val / 5) + 4 := by omega
  rw [outsAt0_congr m ρ c hpt t.isLt (by omega)]
  exact outsAt_image m ρ c hk ⟨t.val / 5, hb⟩ ⟨(y 1).val, hy1⟩ ⟨(y 2).val, hy2⟩ 4 (by decide) (by show 5 * (t.val / 5) + 4 < cfg0.N; omega)

/-- Every entry of the result array lies in the block its image's last row tile writes back. -/
theorem covered (c : Dev nD) (i : S8x5x16.Idx) :
    ∃ t : Fin cfg0.N, (cfg0.win 2).flush t = true ∧ i ∈ ((cfg0.win 2).blk t).view.set := by
  have hi0 : (i 0).val < 8 := (i 0).isLt
  have hi1 : (i 1).val < 5 := (i 1).isLt
  have hi2 : (i 2).val < 16 := (i 2).isLt
  refine ⟨pt ⟨(i 0).val, hi0⟩ 4, (flush0_2 _).mpr (by show (5 * (i 0).val + 4) % 5 = 4; omega), ?_⟩
  obtain ⟨-, -, -, -, -, -, -, e0, e1, e2⟩ := idx_facts (pt ⟨(i 0).val, hi0⟩ 4)
  have hq : (pt ⟨(i 0).val, hi0⟩ 4).val / 5 = (i 0).val := by show (5 * (i 0).val + 4) / 5 = (i 0).val; omega
  show i ∈ ((View.whole main_v0).slice (win0_2.rect (pt ⟨(i 0).val, hi0⟩ 4))).set
  rw [View.set_slice_whole, Rect.mem_set_unit]
  intro a
  match a with
  | ⟨0, _⟩ =>
    show win0_2.index (pt ⟨(i 0).val, hi0⟩ 4) (0 : Fin 3) * 1 ≤ (i 0).val
      ∧ (i 0).val < win0_2.index (pt ⟨(i 0).val, hi0⟩ 4) (0 : Fin 3) * 1 + 1
    omega
  | ⟨1, _⟩ =>
    show win0_2.index (pt ⟨(i 0).val, hi0⟩ 4) (1 : Fin 3) * 5 ≤ (i 1).val
      ∧ (i 1).val < win0_2.index (pt ⟨(i 0).val, hi0⟩ 4) (1 : Fin 3) * 5 + 5
    omega
  | ⟨2, _⟩ =>
    show win0_2.index (pt ⟨(i 0).val, hi0⟩ 4) (2 : Fin 3) * 16 ≤ (i 2).val
      ∧ (i 2).val < win0_2.index (pt ⟨(i 0).val, hi0⟩ 4) (2 : Fin 3) * 16 + 16
    omega

end AtIdeal

end R0

open R0

variable (m : (ℓ : Loc nD τ sig) → Buf (Elt Ideal) ℓ) (ρ : Dev nD → PrngReg)

/-- Under kernel labels in range, region 0 leaves `A0` of the float input and the kernel labels in its result array. -/
theorem arr0 (c : Dev nD) (hk : Spec.InRange (m ((c : Thread nD τ).loc main_arg2))) :
    (dat0 (V0 m ρ) c).arrAt 2 cfg0.N = A0 (m ((c : Thread nD τ).loc main_arg0)) (m ((c : Thread nD τ).loc main_arg2)) :=
  (dat0 (V0 m ρ) c).arrAt_eq_of_cover 2 (A0 (m ((c : Thread nD τ).loc main_arg0)) (m ((c : Thread nD τ).loc main_arg2)))
    (fun t hf => flushed_eq m ρ c hk t hf) (covered c)

end Cert.KernelIdeal.Val

end
-- ==== Proof.KRegion1Tile.lean ====
/-
  One grid step of region 1, read at an element: the step adds to row 0 of its result block, at class cls, the number of the
  tile's pixels whose text label is cls, and to row 1 the sum of those pixels' pull terms. A pixel's pull term is a function of
  its four embedding channels, its label word and the image's centroids: the kernel gathers the label's centroid as the sum over
  the classes of the label's indicator times the class centroid, squares the distance channel by channel, and applies
  log1p (max (sqrt (d + eps) - 1/2) 0)^2.
-/
import proofs.«410730_j59820304499339_4_alg».proof.Proof.KTile
import Idealize.ShloMosaic.PureOps.Ideal.Laws
import Idealize.ShloMosaic.Lib.Pipeline.Value
import Idealize.ShloMosaic.Lib.ValueIdx

noncomputable section

namespace Cert.KernelIdeal.Val.R1

open Idealize.ShloMosaic Idealize.ShloMosaic.ValueIdx
open Cert.KernelIdeal Cert.KernelIdeal.Gen Cert.KernelIdeal.Val
open scoped BigOperators

/-- A float sum of a [1, 128, 640, 16] array over its class axis, read at pixel (i, j): the sum over the sixteen classes. -/
theorem sumClasses_apply (src : FVec Ideal S1x128x640x16 .f32) (i : Fin 128) (j : Fin 640) :
    multiReduction .add [3] S1x128x640 src 0x00000000#32 reduces_S1x128x640x16_S1x128x640 (.inl rfl) rfl (ix3 0 i j)
      = ∑ k : Fin 16, src (ix4 0 i j k) := by
  refine (Ideal.multiReduction_add_single src 0x00000000#32 reduces_S1x128x640x16_S1x128x640 (.inl rfl) rfl (ix3 0 i j)).trans ?_
  refine Finset.sum_congr rfl fun k _ => congrArg src (funext fun a => Fin.ext ?_)
  match a with
  | ⟨0, _⟩ => rfl
  | ⟨1, _⟩ => rfl
  | ⟨2, _⟩ => rfl
  | ⟨3, _⟩ => rfl

/-- A float sum of a [1, 4, 128, 640] array over its channel axis, read at pixel (i, j): the sum over the four channels. -/
theorem sumChannels_apply (src : FVec Ideal S1x4x128x640 .f32) (i : Fin 128) (j : Fin 640) :
    multiReduction .add [1] S1x128x640 src 0x00000000#32 reduces_S1x4x128x640_S1x128x640 (.inl rfl) rfl (ix3 0 i j)
      = ∑ ch : Fin 4, src (ix4 0 ch i j) := by
  refine (Ideal.multiReduction_add_single src 0x00000000#32 reduces_S1x4x128x640_S1x128x640 (.inl rfl) rfl (ix3 0 i j)).trans ?_
  refine Finset.sum_congr rfl fun k _ => congrArg src (funext fun a => Fin.ext ?_)
  match a with
  | ⟨0, _⟩ => rfl
  | ⟨1, _⟩ => rfl
  | ⟨2, _⟩ => rfl
  | ⟨3, _⟩ => rfl

/-- A class row [1, 16] spread over the pixels of a tile reads, at pixel (i, j) and class k, the row's entry k. -/
theorem spreadRow_apply (g : FVec Ideal S1x16 .f32) (i : Fin 128) (j : Fin 640) (k : Fin 16) :
    broadcastTo S1x128x640x16 (shapeCast S1x1x1x16 g shapeCasts_S1x16_S1x1x1x16) broadcasts_S1x1x1x16_S1x128x640x16 (ix4 0 i j k)
      = g (ix2 0 k) := by
  refine (broadcastTo_apply _ broadcasts_S1x1x1x16_S1x128x640x16 (ix4 0 i j k) (ix4 0 0 0 k) ?_).trans ?_
  · intro a
    match a with
    | ⟨0, _⟩ => rfl
    | ⟨1, _⟩ => rfl
    | ⟨2, _⟩ => rfl
    | ⟨3, _⟩ => rfl
  refine shapeCast_apply g shapeCasts_S1x16_S1x1x1x16 (ix4 0 0 0 k) (ix2 0 k) ?_
  rw [Shape.rowMajor_val_two, Shape.rowMajor_val_four]
  show (0 : Nat) * 16 + k.val = (((0 : Nat) * 1 + 0) * 1 + 0) * 16 + k.val
  omega

/-- A per-pixel value [1, 128, 640] spread over the classes reads, at pixel (i, j) and any class, the pixel's value. -/
theorem spreadPixel_apply (v : FVec Ideal S1x128x640 .f32) (i : Fin 128) (j : Fin 640) (k : Fin 16) :
    broadcastTo S1x128x640x16 (shapeCast S1x128x640x1 v shapeCasts_S1x128x640_S1x128x640x1) broadcasts_S1x128x640x1_S1x128x640x16 (ix4 0 i j k)
      = v (ix3 0 i j) := by
  refine (broadcastTo_apply _ broadcasts_S1x128x640x1_S1x128x640x16 (ix4 0 i j k) (ix4 0 i j 0) ?_).trans ?_
  · intro a
    match a with
    | ⟨0, _⟩ => rfl
    | ⟨1, _⟩ => rfl
    | ⟨2, _⟩ => rfl
    | ⟨3, _⟩ => rfl
  refine shapeCast_apply v shapeCasts_S1x128x640_S1x128x640x1 (ix4 0 i j 0) (ix3 0 i j) ?_
  rw [Shape.rowMajor_val_three, Shape.rowMajor_val_four]
  show ((0 : Nat) * 128 + i.val) * 640 + j.val = ((((0 : Nat) * 128 + i.val) * 640 + j.val) * 1 + 0)
  omega

/-- The one-hot array times a class row, summed over the classes and laid out as one channel of a tile: at pixel (i, j) the
    sum over the classes of the pixel's one-hot entry times the row's entry. -/
theorem pickRow_apply (oh : FVec Ideal S1x128x640x16 .f32) (g : FVec Ideal S1x16 .f32) (i : Fin 128) (j : Fin 640) :
    shapeCast S1x1x128x640
        (multiReduction .add [3] S1x128x640
          (mulf oh (broadcastTo S1x128x640x16 (shapeCast S1x1x1x16 g shapeCasts_S1x16_S1x1x1x16) broadcasts_S1x1x1x16_S1x128x640x16))
          0x00000000#32 reduces_S1x128x640x16_S1x128x640 (.inl rfl) rfl)
        shapeCasts_S1x128x640_S1x1x128x640 (ix4 0 0 i j)
      = ∑ k : Fin 16, oh (ix4 0 i j k) * g (ix2 0 k) := by
  refine (shapeCast_apply _ shapeCasts_S1x128x640_S1x1x128x640 (ix4 0 0 i j) (ix3 0 i j) ?_).trans ?_
  · rw [Shape.rowMajor_val_three, Shape.rowMajor_val_four]
    show ((0 : Nat) * 128 + i.val) * 640 + j.val = ((((0 : Nat) * 1 + 0) * 128 + i.val) * 640 + j.val)
    omega
  refine (sumClasses_apply _ i j).trans ?_
  refine Finset.sum_congr rfl fun k _ => ?_
  rw [mulf_apply, spreadRow_apply]

/-- Row ch of the centroid block, taken out as a class row: its entry k is the block's entry (ch, k). -/
theorem centroidRow_apply (x2 : Vec Ideal S1x4x16 .f32) (ch : Fin 4) (off : Fin 3 → Nat) (hoff : off = ![0, ch.val, 0])
    (h : S1x4x16.Slices off S1x1x16) (k : Fin 16) :
    shapeCast S1x16 (extractStridedSlice S1x1x16 off (k1_pay3 (F := Ideal) x2) h) shapeCasts_S1x1x16_S1x16 (ix2 0 k) = x2 (ix3 0 ch k) := by
  subst hoff
  refine (shapeCast_apply _ shapeCasts_S1x1x16_S1x16 (ix2 0 k) (ix3 0 0 k) ?_).trans ?_
  · rw [Shape.rowMajor_val_two, Shape.rowMajor_val_three]
    show (((0 : Nat) * 1 + 0) * 16 + k.val) = (0 : Nat) * 16 + k.val
    omega
  refine (extractStridedSlice_apply _ _ h (ix3 0 0 k) (ix3 0 ch k) ?_).trans ?_
  · intro a
    match a with
    | ⟨0, _⟩ => rfl
    | ⟨1, _⟩ => show ch.val = ch.val + 0; omega
    | ⟨2, _⟩ => show k.val = 0 + k.val; omega
  unfold k1_pay3
  rw [shapeCast_self]

/-- Two class rows stacked as the two rows of a [1, 2, 16] block: row r at class cls. -/
theorem stackRows_apply (u0 u1 : FVec Ideal S1x16 .f32) (r : Fin 2) (cls : Fin 16) :
    concatenate S1x2x16 1 [⟨S1x1x16, shapeCast S1x1x16 u0 shapeCasts_S1x16_S1x1x16⟩, ⟨S1x1x16, shapeCast S1x1x16 u1 shapeCasts_S1x16_S1x1x16⟩]
        concatenates_S1x1x16_S1x1x16_S1x2x16_d1 (ix3 0 r cls)
      = if r.val = 0 then u0 (ix2 0 cls) else u1 (ix2 0 cls) := by
  have hc : ∀ u : FVec Ideal S1x16 .f32, shapeCast S1x1x16 u shapeCasts_S1x16_S1x1x16 (ix3 0 0 cls) = u (ix2 0 cls) := fun u => by
    refine shapeCast_apply u shapeCasts_S1x16_S1x1x16 (ix3 0 0 cls) (ix2 0 cls) ?_
    rw [Shape.rowMajor_val_two, Shape.rowMajor_val_three]
    show (0 : Nat) * 16 + cls.val = (((0 : Nat) * 1 + 0) * 16 + cls.val)
    omega
  by_cases h : r.val = 0
  · rw [if_pos h]
    obtain rfl : r = 0 := Fin.ext h
    refine (concatenate_pair_apply_left (t := S1x2x16) (s₁ := S1x1x16) (s₂ := S1x1x16) 1 _ _ concatenates_S1x1x16_S1x1x16_S1x2x16_d1 (ix3 0 0 cls) rfl (ix3 0 0 cls) ?_).trans ?_
    · intro b
      match b with
      | ⟨0, _⟩ => rfl
      | ⟨1, _⟩ => rfl
      | ⟨2, _⟩ => rfl
    exact hc u0
  · rw [if_neg h]
    obtain rfl : r = 1 := Fin.ext (by have := r.isLt; show r.val = 1; omega)
    refine (concatenate_pair_apply_right (t := S1x2x16) (s₁ := S1x1x16) (s₂ := S1x1x16) 1 _ _ concatenates_S1x1x16_S1x1x16_S1x2x16_d1 (ix3 0 1 cls) rfl rfl (ix3 0 0 cls) ?_ rfl).trans ?_
    · intro b hb
      match b with
      | ⟨0, _⟩ => rfl
      | ⟨1, _⟩ => exact absurd rfl hb
      | ⟨2, _⟩ => rfl
    exact hc u1

/-- Four one-channel tiles stacked as the four channels of a [1, 4, 128, 640] tile: channel ch at pixel (i, j). -/
theorem stackChannels_apply (p0 p1 p2 p3 : FVec Ideal S1x1x128x640 .f32) (ch : Fin 4) (i : Fin 128) (j : Fin 640) :
    concatenate S1x4x128x640 1 [⟨S1x1x128x640, p0⟩, ⟨S1x1x128x640, p1⟩, ⟨S1x1x128x640, p2⟩, ⟨S1x1x128x640, p3⟩]
        concatenates_S1x1x128x640_S1x1x128x640_S1x1x128x640_S1x1x128x640_S1x4x128x640_d1 (ix4 0 ch i j)
      = (![p0, p1, p2, p3] ch) (ix4 0 0 i j) := by
  have hi : ∀ (c : Fin 4) (b : Fin 4), b.cast rfl ≠ (1 : Fin 4) → ((ix4 (0 : Fin 1) (0 : Fin 1) i j) b).val = ((ix4 (0 : Fin 1) c i j) (b.cast rfl)).val := fun c b hb => by
    match b with
    | ⟨0, _⟩ => rfl
    | ⟨1, _⟩ => exact absurd rfl hb
    | ⟨2, _⟩ => rfl
    | ⟨3, _⟩ => rfl
  match ch with
  | ⟨0, _⟩ =>
    exact concatenate_apply_piece (t := S1x4x128x640) 1 [⟨S1x1x128x640, p0⟩, ⟨S1x1x128x640, p1⟩, ⟨S1x1x128x640, p2⟩, ⟨S1x1x128x640, p3⟩] concatenates_S1x1x128x640_S1x1x128x640_S1x1x128x640_S1x1x128x640_S1x4x128x640_d1 (ix4 0 0 i j) 0 (by simp) S1x1x128x640 p0 rfl rfl 0 rfl (ix4 0 0 i j) (hi 0) rfl
  | ⟨1, _⟩ =>
    exact concatenate_apply_piece (t := S1x4x128x640) 1 [⟨S1x1x128x640, p0⟩, ⟨S1x1x128x640, p1⟩, ⟨S1x1x128x640, p2⟩, ⟨S1x1x128x640, p3⟩] concatenates_S1x1x128x640_S1x1x128x640_S1x1x128x640_S1x1x128x640_S1x4x128x640_d1 (ix4 0 1 i j) 1 (by simp) S1x1x128x640 p1 rfl rfl 1 rfl (ix4 0 0 i j) (hi 1) rfl
  | ⟨2, _⟩ =>
    exact concatenate_apply_piece (t := S1x4x128x640) 1 [⟨S1x1x128x640, p0⟩, ⟨S1x1x128x640, p1⟩, ⟨S1x1x128x640, p2⟩, ⟨S1x1x128x640, p3⟩] concatenates_S1x1x128x640_S1x1x128x640_S1x1x128x640_S1x1x128x640_S1x4x128x640_d1 (ix4 0 2 i j) 2 (by simp) S1x1x128x640 p2 rfl rfl 2 rfl (ix4 0 0 i j) (hi 2) rfl
  | ⟨3, _⟩ =>
    exact concatenate_apply_piece (t := S1x4x128x640) 1 [⟨S1x1x128x640, p0⟩, ⟨S1x1x128x640, p1⟩, ⟨S1x1x128x640, p2⟩, ⟨S1x1x128x640, p3⟩] concatenates_S1x1x128x640_S1x1x128x640_S1x1x128x640_S1x1x128x640_S1x4x128x640_d1 (ix4 0 3 i j) 3 (by simp) S1x1x128x640 p3 rfl rfl 3 rfl (ix4 0 0 i j) (hi 3) rfl

/-- From a tile of squared distances to the tile of pull terms: every operation is pointwise. -/
theorem pullTerm_apply (d2 : FVec Ideal S1x128x640 .f32) (y : S1x128x640.Idx) :
    log1p (mulf
        (maximumf (subf (sqrt (addf d2 (broadcast S1x128x640 (Scalar.ofBits .f32 0x2B8CBCCC#32)))) (broadcast S1x128x640 (Scalar.ofBits .f32 0x3F000000#32)))
          (broadcast S1x128x640 (Scalar.ofBits .f32 0x00000000#32)))
        (maximumf (subf (sqrt (addf d2 (broadcast S1x128x640 (Scalar.ofBits .f32 0x2B8CBCCC#32)))) (broadcast S1x128x640 (Scalar.ofBits .f32 0x3F000000#32)))
          (broadcast S1x128x640 (Scalar.ofBits .f32 0x00000000#32)))) y
      = Ideal.log1p (max (Ideal.sqrt (d2 y + Spec.eps) - Spec.half) Spec.zero * max (Ideal.sqrt (d2 y + Spec.eps) - Spec.half) Spec.zero) := rfl

/-- A pixel's pull term, from its four embedding channels e, its label word w and the class centroids g of its image. -/
def pullOf (e : Fin 4 → EReal) (w : BitVec 32) (g : Fin 4 → Fin 16 → EReal) : EReal :=
  Ideal.log1p
    (max (Ideal.sqrt ((∑ c : Fin 4, (e c - ∑ m : Fin 16, Spec.ind w m * g c m) * (e c - ∑ m : Fin 16, Spec.ind w m * g c m)) + Spec.eps) - Spec.half) Spec.zero
      * max (Ideal.sqrt ((∑ c : Fin 4, (e c - ∑ m : Fin 16, Spec.ind w m * g c m) * (e c - ∑ m : Fin 16, Spec.ind w m * g c m)) + Spec.eps) - Spec.half) Spec.zero)

/-- What one grid step adds to element (r, cls) of the result block, from the tile's blocks. -/
def tileAdd1 (x0 : Vec Ideal S1x4x128x640 .f32) (x1 : Vec Ideal S1x128x640 .i32) (x2 : Vec Ideal S1x4x16 .f32) (r : Fin 2) (cls : Fin 16) : EReal :=
  if r.val = 0 then ∑ i : Fin 128, ∑ j : Fin 640, Spec.ind (x1 (ix3 0 i j)) cls
  else ∑ i : Fin 128, ∑ j : Fin 640,
    Spec.ind (x1 (ix3 0 i j)) cls * pullOf (fun ch => x0 (ix4 0 ch i j)) (x1 (ix3 0 i j)) (fun ch k => x2 (ix3 0 ch k))

/-- The centroid a pixel is pulled to, channel ch, as the kernel gathers it: the one-hot array times row ch of the centroid
    block, summed over the classes. -/
theorem gathered_apply (x1 : Vec Ideal S1x128x640 .i32) (x2 : Vec Ideal S1x4x16 .f32)
    (hx1 : ∀ (i : Fin 128) (j : Fin 640), 0 ≤ (x1 (ix3 0 i j)).toInt ∧ (x1 (ix3 0 i j)).toInt < 16)
    (ch : Fin 4) (off : Fin 3 → Nat) (hoff : off = ![0, ch.val, 0]) (h : S1x4x16.Slices off S1x1x16) (i : Fin 128) (j : Fin 640) :
    shapeCast S1x1x128x640
        (multiReduction .add [3] S1x128x640
          (mulf (k1_pay4 (F := Ideal) x1)
            (broadcastTo S1x128x640x16
              (shapeCast S1x1x1x16 (shapeCast S1x16 (extractStridedSlice S1x1x16 off (k1_pay3 (F := Ideal) x2) h) shapeCasts_S1x1x16_S1x16) shapeCasts_S1x16_S1x1x1x16)
              broadcasts_S1x1x1x16_S1x128x640x16))
          0x00000000#32 reduces_S1x128x640x16_S1x128x640 (.inl rfl) rfl)
        shapeCasts_S1x128x640_S1x1x128x640 (ix4 0 0 i j)
      = ∑ m : Fin 16, Spec.ind (x1 (ix3 0 i j)) m * x2 (ix3 0 ch m) := by
  refine (pickRow_apply _ _ i j).trans ?_
  refine Finset.sum_congr rfl fun m _ => ?_
  rw [onehot1_apply x1 i j m (hx1 i j), centroidRow_apply x2 ch off hoff h m]

/-- The squared distance of a pixel's embedding from a tile of per-pixel centroids: the sum over the four channels of the
    squared differences. -/
theorem sqDist_apply (x0 C : FVec Ideal S1x4x128x640 .f32) (i : Fin 128) (j : Fin 640) (g : Fin 4 → EReal)
    (hC : ∀ ch : Fin 4, C (ix4 0 ch i j) = g ch) :
    multiReduction .add [1] S1x128x640 (mulf (subf x0 C) (subf x0 C)) 0x00000000#32 reduces_S1x4x128x640_S1x128x640 (.inl rfl) rfl (ix3 0 i j)
      = ∑ c : Fin 4, (x0 (ix4 0 c i j) - g c) * (x0 (ix4 0 c i j) - g c) := by
  refine (sumChannels_apply _ i j).trans ?_
  refine Finset.sum_congr rfl fun c _ => ?_
  rw [mulf_apply, subf_apply, hC c]

/-- THE STEP: the body's stored value at element (r, cls) is the previous contents there plus the tile's addend. -/
theorem step1_apply (x0 : Vec Ideal S1x4x128x640 .f32) (x1 : Vec Ideal S1x128x640 .i32) (x2 : Vec Ideal S1x4x16 .f32)
    (acc : Vec Ideal S1x2x16 .f32)
    (hx1 : ∀ (i : Fin 128) (j : Fin 640), 0 ≤ (x1 (ix3 0 i j)).toInt ∧ (x1 (ix3 0 i j)).toInt < 16) (r : Fin 2) (cls : Fin 16) :
    k1_pay1 (F := Ideal) x0 (k1_pay3 x2) (k1_pay4 x1) (k1_pay5 x1) (k1_pay6 x1 x2) (k1_pay7 x1 x2) (k1_pay8 x2) (k1_pay9 x1) acc (ix3 0 r cls)
      = acc (ix3 0 r cls) + tileAdd1 x0 x1 x2 r cls := by
  unfold k1_pay1
  dsimp only
  rw [addf_apply, shapeCast_self]
  refine congrArg (acc (ix3 0 r cls) + ·) ?_
  refine (stackRows_apply _ _ r cls).trans ?_
  unfold tileAdd1
  by_cases h : r.val = 0
  · rw [if_pos h, if_pos h]
    unfold k1_pay5
    refine (reduce12_apply _ cls).trans ?_
    exact Finset.sum_congr rfl fun i _ => Finset.sum_congr rfl fun j _ => onehot1_apply x1 i j cls (hx1 i j)
  · rw [if_neg h, if_neg h]
    refine (reduce12_apply _ cls).trans ?_
    refine Finset.sum_congr rfl fun i _ => Finset.sum_congr rfl fun j _ => ?_
    rw [mulf_apply, onehot1_apply x1 i j cls (hx1 i j), spreadPixel_apply, pullTerm_apply]
    refine congrArg (Spec.ind (x1 (ix3 0 i j)) cls * ·) ?_
    unfold pullOf
    have hd : ∀ D D' : EReal, D = D' →
        Ideal.log1p (max (Ideal.sqrt (D + Spec.eps) - Spec.half) Spec.zero * max (Ideal.sqrt (D + Spec.eps) - Spec.half) Spec.zero)
          = Ideal.log1p (max (Ideal.sqrt (D' + Spec.eps) - Spec.half) Spec.zero * max (Ideal.sqrt (D' + Spec.eps) - Spec.half) Spec.zero) :=
      fun D D' e => by rw [e]
    refine hd _ _ ?_
    refine sqDist_apply x0 _ i j (fun ch => ∑ m : Fin 16, Spec.ind (x1 (ix3 0 i j)) m * x2 (ix3 0 ch m)) ?_
    intro ch
    refine (stackChannels_apply _ _ _ _ ch i j).trans ?_
    match ch with
    | ⟨0, _⟩ =>
      show k1_pay6 x1 x2 (ix4 0 0 i j) = _
      unfold k1_pay6
      exact gathered_apply x1 x2 hx1 0 _ rfl _ i j
    | ⟨1, _⟩ =>
      show k1_pay7 x1 x2 (ix4 0 0 i j) = _
      unfold k1_pay7
      exact gathered_apply x1 x2 hx1 1 _ rfl _ i j
    | ⟨2, _⟩ =>
      unfold k1_pay9 k1_pay8
      exact gathered_apply x1 x2 hx1 2 _ rfl _ i j
    | ⟨3, _⟩ =>
      exact gathered_apply x1 x2 hx1 3 _ rfl _ i j

end Cert.KernelIdeal.Val.R1

end
-- ==== Proof.KRegion1Blocks.lean ====
/-
  Region 1's blocks read at an element: grid point t works on image t / 5 and row tile t % 5, so element (ch, i, j) of its
  block of the float input is the input at (t / 5, 4 + ch, 128 (t % 5) + i, j), element (i, j) of its block of the text labels
  the label at (t / 5, 128 (t % 5) + i, j), its block of the centroids and of the result the slab of image t / 5; the result's
  slabs, written back at the last row tile of each image, fill the result array.
-/
import proofs.«410730_j59820304499339_4_alg».proof.Proof.Gen.KernelIdeal.Frame
import Idealize.ShloMosaic.Lib.Pipeline.Value
import Idealize.ShloMosaic.Lib.ValueIdx

noncomputable section

namespace Cert.KernelIdeal.Val.R1

open Idealize.ShloMosaic Idealize.ShloMosaic.TcCoe Idealize.SL.Sem Idealize.ShloMosaic.ValueIdx
open Idealize.ShloMosaic.Pipeline (Dat)
open Cert.KernelIdeal Cert.KernelIdeal.Gen
open scoped BigOperators

variable {F : FTy → Type} [FloatOps F]
variable (V : (c : Dev nD) → (b : Ref sig .tc) → Buf (Elt F) ((c : Thread nD τ).loc b))

/-- The index maps, decided once over the grid: point t is row tile t % 5 of image t / 5. -/
theorem idx_facts1 : ∀ t : Fin cfg1.N,
    win1_0.index t (0 : Fin 4) = t.val / 5 ∧ win1_0.index t (1 : Fin 4) = 1 ∧ win1_0.index t (2 : Fin 4) = t.val % 5
    ∧ win1_0.index t (3 : Fin 4) = 0
    ∧ win1_1.index t (0 : Fin 3) = t.val / 5 ∧ win1_1.index t (1 : Fin 3) = t.val % 5 ∧ win1_1.index t (2 : Fin 3) = 0
    ∧ win1_2.index t (0 : Fin 3) = t.val / 5 ∧ win1_2.index t (1 : Fin 3) = 0 ∧ win1_2.index t (2 : Fin 3) = 0
    ∧ win1_3.index t (0 : Fin 3) = t.val / 5 ∧ win1_3.index t (1 : Fin 3) = 0 ∧ win1_3.index t (2 : Fin 3) = 0 :=
  (by decide +kernel : ∀ t : Fin grid1.N, _)

/-- Element (ch, i, j) of point t's block of the float input: channel 4 + ch, row 128 (t % 5) + i of image t / 5. -/
theorem blk1_0_apply (c : Dev nD) (t : Fin cfg1.N) (ch : Fin 4) (i : Fin 128) (j : Fin 640)
    (b : Fin 8) (ch' : Fin 8) (i' : Fin 640) (hb : b.val = t.val / 5) (hch : ch'.val = 4 + ch.val) (hi : i'.val = 128 * (t.val % 5) + i.val) :
    (iblk1 V c 0 t : Vec F S1x4x128x640 .f32) (ix4 0 ch i j) = (V c main_arg0 : Vec F S8x8x640x640 .f32) (ix4 b ch' i' j) := by
  obtain ⟨e0, e1, e2, e3, -⟩ := idx_facts1 t
  unfold iblk1
  rw [View.read_apply]
  show V c main_arg0 _ = V c main_arg0 _
  congr 1
  funext a
  apply Fin.ext
  match a with
  | ⟨0, _⟩ => show win1_0.index t (0 : Fin 4) * 1 + 1 * 0 = b.val; omega
  | ⟨1, _⟩ => show win1_0.index t (1 : Fin 4) * 4 + 1 * ch.val = ch'.val; omega
  | ⟨2, _⟩ => show win1_0.index t (2 : Fin 4) * 128 + 1 * i.val = i'.val; omega
  | ⟨3, _⟩ => show win1_0.index t (3 : Fin 4) * 640 + 1 * j.val = j.val; omega

/-- Element (i, j) of point t's block of the text labels: row 128 (t % 5) + i of image t / 5. -/
theorem blk1_1_apply (c : Dev nD) (t : Fin cfg1.N) (i : Fin 128) (j : Fin 640)
    (b : Fin 8) (i' : Fin 640) (hb : b.val = t.val / 5) (hi : i'.val = 128 * (t.val % 5) + i.val) :
    (iblk1 V c 1 t : Vec F S1x128x640 .i32) (ix3 0 i j) = (V c main_arg1 : Vec F S8x640x640 .i32) (ix3 b i' j) := by
  obtain ⟨-, -, -, -, e0, e1, e2, -⟩ := idx_facts1 t
  unfold iblk1
  rw [View.read_apply]
  show V c main_arg1 _ = V c main_arg1 _
  congr 1
  funext a
  apply Fin.ext
  match a with
  | ⟨0, _⟩ => show win1_1.index t (0 : Fin 3) * 1 + 1 * 0 = b.val; omega
  | ⟨1, _⟩ => show win1_1.index t (1 : Fin 3) * 128 + 1 * i.val = i'.val; omega
  | ⟨2, _⟩ => show win1_1.index t (2 : Fin 3) * 640 + 1 * j.val = j.val; omega

/-- Element (ch, k) of point t's block of the centroids: the centroids of image t / 5. -/
theorem blk1_2_apply (c : Dev nD) (t : Fin cfg1.N) (ch : Fin 4) (k : Fin 16) (b : Fin 8) (hb : b.val = t.val / 5) :
    (iblk1 V c 2 t : Vec F S1x4x16 .f32) (ix3 0 ch k) = (V c main_v8 : Vec F S8x4x16 .f32) (ix3 b ch k) := by
  obtain ⟨-, -, -, -, -, -, -, e0, e1, e2, -⟩ := idx_facts1 t
  unfold iblk1
  rw [View.read_apply]
  show V c main_v8 _ = V c main_v8 _
  congr 1
  funext a
  apply Fin.ext
  match a with
  | ⟨0, _⟩ => show win1_2.index t (0 : Fin 3) * 1 + 1 * 0 = b.val; omega
  | ⟨1, _⟩ => show win1_2.index t (1 : Fin 3) * 4 + 1 * ch.val = ch.val; omega
  | ⟨2, _⟩ => show win1_2.index t (2 : Fin 3) * 16 + 1 * k.val = k.val; omega

/-- Element (r, cls) of point t's block of any contents of the result array: the slab of image t / 5. -/
theorem blk1_3_read_apply (c : Dev nD) (t : Fin cfg1.N) (G : Buf (Elt F) (((cfg1.win 3).arr.view.loc ((c : Dev nD).tc : Thread nD τ)))) (r : Fin 2) (cls : Fin 16)
    (b : Fin 8) (hb : b.val = t.val / 5) :
    (((cfg1.win 3).blk t).view.read (Elt F) G : Vec F S1x2x16 .f32) (ix3 0 r cls) = (G : Vec F S8x2x16 .f32) (ix3 b r cls) := by
  obtain ⟨-, -, -, -, -, -, -, -, -, -, e0, e1, e2⟩ := idx_facts1 t
  rw [View.read_apply]
  refine congrArg G (funext fun a => Fin.ext ?_)
  match a with
  | ⟨0, _⟩ => show win1_3.index t (0 : Fin 3) * 1 + 1 * 0 = b.val; omega
  | ⟨1, _⟩ => show win1_3.index t (1 : Fin 3) * 2 + 1 * r.val = r.val; omega
  | ⟨2, _⟩ => show win1_3.index t (2 : Fin 3) * 16 + 1 * cls.val = cls.val; omega

/-- Every element of the result array lies in the block written back at the last row tile of its image. -/
theorem blk1_3_cover (c : Dev nD) (i : S8x2x16.Idx) :
    ∃ t : Fin cfg1.N, (cfg1.win 3).flush t = true ∧ t.val = 5 * (i 0).val + 4 ∧ i ∈ ((cfg1.win 3).blk t).view.set := by
  have hi0 : (i 0).val < 8 := (i 0).isLt
  have hi1 : (i 1).val < 2 := (i 1).isLt
  have hi2 : (i 2).val < 16 := (i 2).isLt
  have hN : cfg1.N = 40 := N_1
  have hlt : 5 * (i 0).val + 4 < cfg1.N := by omega
  refine ⟨⟨5 * (i 0).val + 4, hlt⟩, (flush1_3 _).mpr (by show (5 * (i 0).val + 4) % 5 = 4; omega), rfl, ?_⟩
  obtain ⟨-, -, -, -, -, -, -, -, -, -, e0, e1, e2⟩ := idx_facts1 ⟨5 * (i 0).val + 4, hlt⟩
  have hq : (5 * (i 0).val + 4) / 5 = (i 0).val := by omega
  show i ∈ ((View.whole main_v9).slice (win1_3.rect ⟨5 * (i 0).val + 4, hlt⟩)).set
  rw [View.set_slice_whole, Rect.mem_set_unit]
  intro a
  match a with
  | ⟨0, _⟩ =>
    show win1_3.index ⟨5 * (i 0).val + 4, hlt⟩ (0 : Fin 3) * 1 ≤ (i 0).val
      ∧ (i 0).val < win1_3.index ⟨5 * (i 0).val + 4, hlt⟩ (0 : Fin 3) * 1 + 1
    rw [e0]; show (5 * (i 0).val + 4) / 5 * 1 ≤ (i 0).val ∧ (i 0).val < (5 * (i 0).val + 4) / 5 * 1 + 1
    omega
  | ⟨1, _⟩ =>
    show win1_3.index ⟨5 * (i 0).val + 4, hlt⟩ (1 : Fin 3) * 2 ≤ (i 1).val
      ∧ (i 1).val < win1_3.index ⟨5 * (i 0).val + 4, hlt⟩ (1 : Fin 3) * 2 + 2
    omega
  | ⟨2, _⟩ =>
    show win1_3.index ⟨5 * (i 0).val + 4, hlt⟩ (2 : Fin 3) * 16 ≤ (i 2).val
      ∧ (i 2).val < win1_3.index ⟨5 * (i 0).val + 4, hlt⟩ (2 : Fin 3) * 16 + 16
    omega

/-! ## The input arrays as region 1 finds them

Region 1 is entered after region 0 and the host operations that form the centroids; none of them writes the float input or the
text labels (region 0 reads the float input through a window and does not touch the text labels), so region 1 finds both as
launched. -/

section Entry
variable (m : (ℓ : Loc nD τ sig) → Buf (Elt F) ℓ) (ρ : Dev nD → PrngReg)

/-- Region 1 finds the float input as launched. -/
theorem V2_main_arg0 (c : Dev nD) : V2 m ρ c main_arg0 = m ((c : Thread nD τ).loc main_arg0) :=
  calc W2 m ρ c (Proc.devRef .tc main_arg0)
    _ = W1 m ρ c (Proc.devRef .tc main_arg0) := StableHlo.after_of_forall_not_mem (b := Proc.devRef .tc main_arg0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg0) := (W1_arr m ρ c 0).trans (((dat0 (V0 m ρ) c).arrAt_in 0 rfl _).trans (A_eq0 (V0 m ρ) c 0))
    _ = m ((c : Thread nD τ).loc main_arg0) := rfl

/-- Region 1 finds the text labels as launched. -/
theorem V2_main_arg1 (c : Dev nD) : V2 m ρ c main_arg1 = m ((c : Thread nD τ).loc main_arg1) :=
  calc W2 m ρ c (Proc.devRef .tc main_arg1)
    _ = W1 m ρ c (Proc.devRef .tc main_arg1) := StableHlo.after_of_forall_not_mem (b := Proc.devRef .tc main_arg1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg1) := W1_of_ne m ρ c main_arg1 (by decide)
    _ = m ((c : Thread nD τ).loc main_arg1) := rfl

end Entry

end Cert.KernelIdeal.Val.R1

end
-- ==== Proof.KRegion1.lean ====
/-
  Region 1 (the pull-loss accumulation): its result array is `A1` of the input arrays and the centroids it is handed.

  An image's output block [1, 2, 16] stays in place over the image's five row tiles: the first tile stores zeros into it,
  and every tile adds, at class `m`, to row 0 the number of the tile's pixels whose text label is `m` and to row 1 the sum
  of those pixels' pull terms, a pixel's pull term being computed from its four embedding channels, its label and the
  image's centroids. After the fifth tile the block holds zero plus the five tiles' sums, which is the sum over the
  image's 640 rows; the block is written back then, to the image's rows of the result array.
-/
import proofs.«410730_j59820304499339_4_alg».proof.Proof.Gen.KernelIdeal.Frame
import proofs.«410730_j59820304499339_4_alg».proof.Proof.KDefs
import proofs.«410730_j59820304499339_4_alg».proof.Proof.KRegion1Tile
import proofs.«410730_j59820304499339_4_alg».proof.Proof.KRegion1Blocks
import Idealize.ShloMosaic.Lib.Pipeline.Value
import Idealize.ShloMosaic.Lib.Tactic
import Idealize.ShloMosaic.PureOps.Ideal.Laws

noncomputable section

namespace Cert.KernelIdeal.Val

open Idealize.ShloMosaic Idealize.ShloMosaic.TcCoe Idealize.SL.Sem Idealize.ShloMosaic.ValueIdx
open Idealize.ShloMosaic.Pipeline (Dat)
open Cert.KernelIdeal Cert.KernelIdeal.Gen
open scoped BigOperators

namespace R1

/-! ## What the body leaves in the output block, case by case -/

section Pieces
variable {F : FTy → Type} [FloatOps F]

theorem zeros3 : (![0, 0, 0] : Fin 3 → Nat) = fun _ => 0 := funext fun a => by fin_cases a <;> rfl
theorem zeros4 : (![0, 0, 0, 0] : Fin 4 → Nat) = fun _ => 0 := funext fun a => by fin_cases a <;> rfl

/-- At a row tile that is not an image's first, the body leaves the update of what the block held. -/
theorem out1_B_3_eq (c : Dev nD) (i : grid1.Coords) (a2 : Memref sig .tc .vmem S1x4x128x640 .f32) (h2 : a2.IsWhole)
    (a3 : Memref sig .tc .vmem S1x128x640 .i32) (h3 : a3.IsWhole) (a4 : Memref sig .tc .vmem S1x4x16 .f32) (h4 : a4.IsWhole)
    (a5 : Memref sig .tc .vmem S1x2x16 .f32) (h5 : a5.IsWhole) (hc : ¬cond1_0 i)
    (x0 : Vec F S1x4x128x640 .f32) (x1 : Vec F S1x128x640 .i32) (x2 : Vec F S1x4x16 .f32) (xo : Vec F S1x2x16 .f32) :
    out1_B_3 c i a2 h2 a3 h3 a4 h4 a5 h5 hc x0 x1 x2 xo
      = k1_pay1 x0 (k1_pay3 x2) (k1_pay4 x1) (k1_pay5 x1) (k1_pay6 x1 x2) (k1_pay7 x1 x2) (k1_pay8 x2) (k1_pay9 x1) xo := by
  unfold out1_B_3
  rw [View.read_writes_eq_canon _ _ _ (cover1_B_3 c i a2 h2 a3 h3 a4 h4 a5 h5 hc x0 x1 x2 xo)]
  unfold kernelRun1_B
  dsimp only
  sl_unfold_words
  rw [View.canon_unit_zero zeros3]
  simp only [View.readAt_eq_ld, h2.read_unread, h3.read_unread, h4.read_unread, h5.read_unread,
    View.ld_unit_zero (S := S1x2x16) zeros3, View.ld_unit_zero (S := S1x4x16) zeros3,
    View.ld_unit_zero (S := S1x4x128x640) zeros4, View.ld_unit_zero (S := S1x128x640) zeros3]

/-- At an image's first row tile, the body leaves the update of the zero block. -/
theorem out1_A_3_eq (c : Dev nD) (i : grid1.Coords) (a2 : Memref sig .tc .vmem S1x4x128x640 .f32) (h2 : a2.IsWhole)
    (a3 : Memref sig .tc .vmem S1x128x640 .i32) (h3 : a3.IsWhole) (a4 : Memref sig .tc .vmem S1x4x16 .f32) (h4 : a4.IsWhole)
    (a5 : Memref sig .tc .vmem S1x2x16 .f32) (h5 : a5.IsWhole) (hc : cond1_0 i)
    (x0 : Vec F S1x4x128x640 .f32) (x1 : Vec F S1x128x640 .i32) (x2 : Vec F S1x4x16 .f32) :
    out1_A_3 c i a2 h2 a3 h3 a4 h4 a5 h5 hc x0 x1 x2
      = k1_pay1 x0 (k1_pay3 x2) (k1_pay4 x1) (k1_pay5 x1) (k1_pay6 x1 x2) (k1_pay7 x1 x2) (k1_pay8 x2) (k1_pay9 x1)
          (k1_pay2 (F := F)) := by
  unfold out1_A_3
  rw [View.read_writes_eq_canon _ _ _ (cover1_A_3 c i a2 h2 a3 h3 a4 h4 a5 h5 hc x0 x1 x2)]
  unfold kernelRun1_A
  dsimp only
  sl_unfold_words
  rw [View.canon_cons_unit_zero (S := S1x2x16) zeros3]
  simp only [View.readAt_eq_ld, h2.read_unread, h3.read_unread, h4.read_unread,
    View.ld_unit_zero (S := S1x4x16) zeros3, View.ld_unit_zero (S := S1x4x128x640) zeros4,
    View.ld_unit_zero (S := S1x128x640) zeros3, View.readCov_unit_zero (S := S1x2x16) _ zeros3]

end Pieces

/-! ## The blocks the windows hand a point, and the running block, point by point -/

section AtIdeal
variable (m : (ℓ : Loc nD τ sig) → Buf (Elt Ideal) ℓ) (ρ : Dev nD → PrngReg)

/-- The four embedding channels of the 128 rows of an image that a point is handed. -/
abbrev embBlk1 (c : Dev nD) (t : Fin cfg1.N) : Vec Ideal S1x4x128x640 .f32 := iblk1 (V2 m ρ) c 0 t
/-- The text labels of those rows. -/
abbrev labBlk1 (c : Dev nD) (t : Fin cfg1.N) : Vec Ideal S1x128x640 .i32 := iblk1 (V2 m ρ) c 1 t
/-- The centroids of the point's image. -/
abbrev cenBlk1 (c : Dev nD) (t : Fin cfg1.N) : Vec Ideal S1x4x16 .f32 := iblk1 (V2 m ρ) c 2 t

/-- Under labels in range every label of a point's block is a class 0 … 15. -/
theorem labBlk1_inRange (c : Dev nD) (ht : Spec.InRange (m ((c : Thread nD τ).loc main_arg1))) (t : Fin cfg1.N)
    (y : S1x128x640.Idx) : 0 ≤ (labBlk1 m ρ c t y).toInt ∧ (labBlk1 m ρ c t y).toInt < 16 := by
  have ht2 : Spec.InRange (V2 m ρ c main_arg1) := by rw [V2_main_arg1 m ρ c]; exact ht
  show 0 ≤ (iblk1 (V2 m ρ) c 1 t y).toInt ∧ (iblk1 (V2 m ρ) c 1 t y).toInt < 16
  unfold iblk1
  rw [View.read_apply]
  exact ht2 _

/-- After an image's first row tile the block holds, entry by entry, zero plus what that tile adds. -/
theorem outsAt1_first (c : Dev nD) (ht : Spec.InRange (m ((c : Thread nD τ).loc main_arg1))) (t : Fin cfg1.N)
    (h0 : t.val % 5 = 0) (r : Fin 2) (cls : Fin 16) :
    outsAt1 (V2 m ρ) c t.val t.isLt (ix3 0 r cls)
      = Spec.zero + tileAdd1 (embBlk1 m ρ c t) (labBlk1 m ρ c t) (cenBlk1 m ρ c t) r cls := by
  refine (congrFun (outsAt1_A (V2 m ρ) c t h0) (ix3 0 r cls)).trans ?_
  refine (congrFun (out1_A_3_eq (F := Ideal) c (grid1.coords t) (ms1_0 t) (hs1_0 t) (ms1_1 t) (hs1_1 t) (ms1_2 t) (hs1_2 t)
    (ms1_3 t) (hs1_3 t) ((hcond1_0 t).mpr h0) (embBlk1 m ρ c t) (labBlk1 m ρ c t) (cenBlk1 m ρ c t)) (ix3 0 r cls)).trans ?_
  exact step1_apply (embBlk1 m ρ c t) (labBlk1 m ρ c t) (cenBlk1 m ρ c t) (k1_pay2 (F := Ideal))
    (fun i j => labBlk1_inRange m ρ c ht t (ix3 0 i j)) r cls

/-- After any later row tile it holds what the tile before left plus what this tile adds. -/
theorem outsAt1_next (c : Dev nD) (ht : Spec.InRange (m ((c : Thread nD τ).loc main_arg1))) (n : ℕ) (h : n + 1 < cfg1.N)
    (h0 : ¬(n + 1) % 5 = 0) (r : Fin 2) (cls : Fin 16) :
    outsAt1 (V2 m ρ) c (n + 1) h (ix3 0 r cls)
      = outsAt1 (V2 m ρ) c n (Nat.lt_of_succ_lt h) (ix3 0 r cls)
        + tileAdd1 (embBlk1 m ρ c ⟨n + 1, h⟩) (labBlk1 m ρ c ⟨n + 1, h⟩) (cenBlk1 m ρ c ⟨n + 1, h⟩) r cls := by
  refine (congrFun (outsAt1_B (V2 m ρ) c ⟨n + 1, h⟩ h0) (ix3 0 r cls)).trans ?_
  refine (congrFun (out1_B_3_eq (F := Ideal) c (grid1.coords ⟨n + 1, h⟩) (ms1_0 ⟨n + 1, h⟩) (hs1_0 ⟨n + 1, h⟩) (ms1_1 ⟨n + 1, h⟩)
    (hs1_1 ⟨n + 1, h⟩) (ms1_2 ⟨n + 1, h⟩) (hs1_2 ⟨n + 1, h⟩) (ms1_3 ⟨n + 1, h⟩) (hs1_3 ⟨n + 1, h⟩)
    (fun hh => h0 ((hcond1_0 ⟨n + 1, h⟩).mp hh)) (embBlk1 m ρ c ⟨n + 1, h⟩) (labBlk1 m ρ c ⟨n + 1, h⟩) (cenBlk1 m ρ c ⟨n + 1, h⟩)
    (outsAt1 (V2 m ρ) c n (Nat.lt_of_succ_lt h))) (ix3 0 r cls)).trans ?_
  exact step1_apply (embBlk1 m ρ c ⟨n + 1, h⟩) (labBlk1 m ρ c ⟨n + 1, h⟩) (cenBlk1 m ρ c ⟨n + 1, h⟩)
    (outsAt1 (V2 m ρ) c n (Nat.lt_of_succ_lt h)) (fun i j => labBlk1_inRange m ρ c ht ⟨n + 1, h⟩ (ix3 0 i j)) r cls

/-- Row tile `u` of image `b` as a point of the grid. -/
def pt1 (b : Fin 8) (u : Fin 5) : Fin cfg1.N :=
  ⟨5 * b.val + u.val, lt_of_lt_of_eq (by have := b.isLt; have := u.isLt; omega : 5 * b.val + u.val < 40) N_1.symm⟩

/-- What row tile `u` of image `b` adds (nothing past the fifth tile). -/
def imgAdd1 (c : Dev nD) (b : Fin 8) (u : ℕ) (r : Fin 2) (cls : Fin 16) : EReal :=
  if hu : u < 5 then
    tileAdd1 (embBlk1 m ρ c (pt1 b ⟨u, hu⟩)) (labBlk1 m ρ c (pt1 b ⟨u, hu⟩)) (cenBlk1 m ρ c (pt1 b ⟨u, hu⟩)) r cls
  else 0

/-- After row tile `s` of image `b` the block holds zero plus what the tiles `0 … s` of the image add. -/
theorem outsAt1_image (c : Dev nD) (ht : Spec.InRange (m ((c : Thread nD τ).loc main_arg1))) (b : Fin 8) (r : Fin 2)
    (cls : Fin 16) : ∀ (s : ℕ) (hs : s < 5) (h : 5 * b.val + s < cfg1.N),
      outsAt1 (V2 m ρ) c (5 * b.val + s) h (ix3 0 r cls)
        = Spec.zero + ∑ u ∈ Finset.range (s + 1), imgAdd1 m ρ c b u r cls
  | 0, hs, h => by
    rw [Finset.sum_range_one]
    refine (outsAt1_first m ρ c ht ⟨5 * b.val + 0, h⟩ (by show (5 * b.val + 0) % 5 = 0; omega) r cls).trans ?_
    unfold imgAdd1
    rw [dif_pos hs]
    rfl
  | s + 1, hs, h => by
    have ih := outsAt1_image c ht b r cls s (by omega) (Nat.lt_of_succ_lt h)
    have e : imgAdd1 m ρ c b (s + 1) r cls
        = tileAdd1 (embBlk1 m ρ c ⟨5 * b.val + s + 1, h⟩) (labBlk1 m ρ c ⟨5 * b.val + s + 1, h⟩)
            (cenBlk1 m ρ c ⟨5 * b.val + s + 1, h⟩) r cls := by
      unfold imgAdd1; rw [dif_pos hs]; rfl
    rw [Finset.sum_range_succ, ← add_assoc Spec.zero, ← ih, e]
    exact outsAt1_next m ρ c ht (5 * b.val + s) h (by omega) r cls

/-! ## From the five row tiles to the image, and from the blocks to the array -/

/-- A sum over the 640 rows of an image is the sum over its five row tiles of the sums over a tile's 128 rows. -/
theorem sum_rows (f : Fin 640 → EReal) :
    ∑ k : Fin 640, f k
      = ∑ s : Fin 5, ∑ i : Fin 128, f ⟨128 * s.val + i.val, by have := s.isLt; have := i.isLt; omega⟩ := by
  rw [← Fintype.sum_prod_type' (f := fun (s : Fin 5) (i : Fin 128) => f ⟨128 * s.val + i.val, by have := s.isLt; have := i.isLt; omega⟩)]
  refine (Fintype.sum_equiv (finProdFinEquiv (m := 5) (n := 128)) _ (fun k : Fin (5 * 128) => f k) (fun p => ?_)).symm
  refine congrArg f (Fin.ext ?_)
  show 128 * p.1.val + p.2.val = p.2.val + 128 * p.1.val
  omega

/-- A pixel's pull term as the tile computes it is the specification's, at the pixel's channels, label and centroids. -/
theorem pull_eq (emb : Spec.SEmb.Idx → EReal) (tt : IVec Spec.SLab 32) (G : Fin 8 → Fin 4 → Fin 16 → EReal) (b : Fin 8)
    (i j : Fin 640) :
    pullOf (fun ch => Spec.px emb b ch i j) (tt (ix3 b i j)) (G b) = Spec.lpix emb tt G b i j := rfl

/-- The five tiles of image `b` together add, at row `r` and class `cls`, the image's pixel count or pull-term sum. -/
theorem image_sum1 (c : Dev nD) (b : Fin 8) (r : Fin 2) (cls : Fin 16) :
    Spec.zero + ∑ u ∈ Finset.range 5, imgAdd1 m ρ c b u r cls
      = A1 (m ((c : Thread nD τ).loc main_arg0)) (m ((c : Thread nD τ).loc main_arg1)) (V2 m ρ c main_v8) (ix3 b r cls) := by
  have hq : ∀ u : Fin 5, b.val = (pt1 b u).val / 5 := fun u => by
    show b.val = (5 * b.val + u.val) / 5
    have := u.isLt; omega
  have hrow : ∀ (u : Fin 5) (i : Fin 128),
      (⟨128 * u.val + i.val, by have := u.isLt; have := i.isLt; omega⟩ : Fin 640).val = 128 * ((pt1 b u).val % 5) + i.val :=
    fun u i => by
      show 128 * u.val + i.val = 128 * ((5 * b.val + u.val) % 5) + i.val
      have := u.isLt; omega
  -- the three blocks of a tile, element by element, in the launch arrays and the centroid array
  have hlab : ∀ (u : Fin 5) (i : Fin 128) (j : Fin 640), labBlk1 m ρ c (pt1 b u) (ix3 0 i j)
      = m ((c : Thread nD τ).loc main_arg1) (ix3 b ⟨128 * u.val + i.val, by have := u.isLt; have := i.isLt; omega⟩ j) :=
    fun u i j => (blk1_1_apply (V2 m ρ) c (pt1 b u) i j b _ (hq u) (hrow u i)).trans
      (congrFun (V2_main_arg1 m ρ c) _)
  have hemb : ∀ (u : Fin 5) (i : Fin 128) (j : Fin 640) (ch : Fin 4), embBlk1 m ρ c (pt1 b u) (ix4 0 ch i j)
      = Spec.px (m ((c : Thread nD τ).loc main_arg0)) b ch ⟨128 * u.val + i.val, by have := u.isLt; have := i.isLt; omega⟩ j :=
    fun u i j ch => (blk1_0_apply (V2 m ρ) c (pt1 b u) ch i j b ⟨4 + ch.val, by have := ch.isLt; omega⟩ _ (hq u) rfl (hrow u i)).trans
      (congrFun (V2_main_arg0 m ρ c) _)
  have hcen : ∀ (u : Fin 5) (ch : Fin 4) (k : Fin 16), cenBlk1 m ρ c (pt1 b u) (ix3 0 ch k) = Gof (V2 m ρ c main_v8) b ch k :=
    fun u ch k => blk1_2_apply (V2 m ρ) c (pt1 b u) ch k b (hq u)
  rw [Finset.sum_range, show Spec.zero = 0 from Ideal.ofBits_zero_f32, zero_add]
  have e : ∀ u : Fin 5, imgAdd1 m ρ c b u.val r cls
      = tileAdd1 (embBlk1 m ρ c (pt1 b u)) (labBlk1 m ρ c (pt1 b u)) (cenBlk1 m ρ c (pt1 b u)) r cls := fun u => by
    unfold imgAdd1; rw [dif_pos u.isLt]
  rw [Finset.sum_congr rfl fun u _ => e u]
  unfold A1 tileAdd1
  by_cases hr : r.val = 0
  · rw [if_pos (show ((ix3 b r cls : S8x2x16.Idx) 1).val = 0 from hr)]
    simp only [if_pos hr]
    unfold Spec.cnt
    rw [sum_rows]
    refine Finset.sum_congr rfl fun u _ => Finset.sum_congr rfl fun i _ => Finset.sum_congr rfl fun j _ => ?_
    rw [hlab u i j]
  · rw [if_neg (show ¬((ix3 b r cls : S8x2x16.Idx) 1).val = 0 from hr)]
    simp only [if_neg hr]
    unfold Spec.tsum
    rw [sum_rows]
    refine Finset.sum_congr rfl fun u _ => Finset.sum_congr rfl fun i _ => Finset.sum_congr rfl fun j _ => ?_
    rw [hlab u i j, ← pull_eq]
    refine congrArg (Spec.ind _ cls * ·) ?_
    refine congrArg₂ (fun e g => pullOf e (m ((c : Thread nD τ).loc main_arg1) (ix3 b ⟨128 * u.val + i.val, by have := u.isLt; have := i.isLt; omega⟩ j)) g) ?_ ?_
    · exact funext fun ch => hemb u i j ch
    · exact funext fun ch => funext fun k => hcen u ch k

/-- The running block does not depend on how its point is written. -/
theorem outsAt1_congr (c : Dev nD) {n n' : ℕ} (e : n = n') (h : n < cfg1.N) (h' : n' < cfg1.N) :
    outsAt1 (V2 m ρ) c n h = outsAt1 (V2 m ρ) c n' h' := by
  subst e; rfl

/-- What an image's last row tile writes back is the image's block of `A1`. -/
theorem flushed1_eq (c : Dev nD) (ht : Spec.InRange (m ((c : Thread nD τ).loc main_arg1))) (t : Fin cfg1.N)
    (hf : (cfg1.win 3).flush t = true) :
    (dat1 (V2 m ρ) c).flushed 3 t
      = ((cfg1.win 3).blk t).view.read (Elt Ideal)
          (A1 (m ((c : Thread nD τ).loc main_arg0)) (m ((c : Thread nD τ).loc main_arg1)) (V2 m ρ c main_v8)) := by
  have hN : cfg1.N = 40 := N_1
  have htl : t.val < 40 := lt_of_lt_of_eq t.isLt hN
  have h4 : t.val % 5 = 4 := (flush1_3 t).mp hf
  obtain ⟨-, -, -, -, -, -, -, -, -, -, e0, e1, e2⟩ := idx_facts1 t
  funext y
  have hy0 : (y 0).val < 1 := (y 0).isLt
  have hy1 : (y 1).val < 2 := (y 1).isLt
  have hy2 : (y 2).val < 16 := (y 2).isLt
  have hb : t.val / 5 < 8 := by omega
  show (cfg1.win 3).cut (grid1.coords t) ((dat1 (V2 m ρ) c).after 3 t) y = _
  rw [after1_3, View.read_apply]
  show outsAt1 (V2 m ρ) c t.val t.isLt ((cfg1.win 3).xinj (grid1.coords t) y)
    = A1 (m ((c : Thread nD τ).loc main_arg0)) (m ((c : Thread nD τ).loc main_arg1)) (V2 m ρ c main_v8)
        (((cfg1.win 3).blk t).view.emb y)
  have hx : (cfg1.win 3).xinj (grid1.coords t) y = ix3 (0 : Fin 1) (⟨(y 1).val, hy1⟩ : Fin 2) (⟨(y 2).val, hy2⟩ : Fin 16) :=
    funext fun a => Fin.ext (match a with
      | ⟨0, _⟩ => (by show (y 0).val = 0; omega)
      | ⟨1, _⟩ => rfl
      | ⟨2, _⟩ => rfl)
  have hemb : ((cfg1.win 3).blk t).view.emb y
      = ix3 (⟨t.val / 5, hb⟩ : Fin 8) (⟨(y 1).val, hy1⟩ : Fin 2) (⟨(y 2).val, hy2⟩ : Fin 16) :=
    funext fun a => Fin.ext (match a with
      | ⟨0, _⟩ => (by show win1_3.index t (0 : Fin 3) * 1 + 1 * (y 0).val = t.val / 5; omega)
      | ⟨1, _⟩ => (by show win1_3.index t (1 : Fin 3) * 2 + 1 * (y 1).val = (y 1).val; omega)
      | ⟨2, _⟩ => (by show win1_3.index t (2 : Fin 3) * 16 + 1 * (y 2).val = (y 2).val; omega))
  rw [hx, hemb, ← image_sum1 m ρ c ⟨t.val / 5, hb⟩ ⟨(y 1).val, hy1⟩ ⟨(y 2).val, hy2⟩]
  have hpt : t.val = 5 * (t.val / 5) + 4 := by omega
  rw [outsAt1_congr m ρ c hpt t.isLt (by omega)]
  exact outsAt1_image m ρ c ht ⟨t.val / 5, hb⟩ ⟨(y 1).val, hy1⟩ ⟨(y 2).val, hy2⟩ 4 (by decide)
    (by show 5 * (t.val / 5) + 4 < cfg1.N; omega)

end AtIdeal

end R1

open R1

variable (m : (ℓ : Loc nD τ sig) → Buf (Elt Ideal) ℓ) (ρ : Dev nD → PrngReg)

/-- Under text labels in range, region 1 leaves `A1` of the float input, the text labels and the centroid array it finds in its result array. -/
theorem arr1 (c : Dev nD) (ht : Spec.InRange (m ((c : Thread nD τ).loc main_arg1))) :
    (dat1 (V2 m ρ) c).arrAt 3 cfg1.N
      = A1 (m ((c : Thread nD τ).loc main_arg0)) (m ((c : Thread nD τ).loc main_arg1)) (V2 m ρ c main_v8) :=
  (dat1 (V2 m ρ) c).arrAt_eq_of_cover 3
    (A1 (m ((c : Thread nD τ).loc main_arg0)) (m ((c : Thread nD τ).loc main_arg1)) (V2 m ρ c main_v8))
    (fun t hf => flushed1_eq m ρ c ht t hf)
    (fun i => (blk1_3_cover c i).elim fun t h => ⟨t, h.1, h.2.2⟩)

end Cert.KernelIdeal.Val

end
-- ==== Proof.Tail.lean ====
/-
  The last stretch of both programs, as functions of four small arrays: the per-class kernel pixel counts, the centroids,
  and the per-class text pixel counts and pull-term sums. An instance is valid when its class is not the background class 0
  and it has kernel pixels; the pull loss of an image is the mean over its valid instances of each instance's mean pull term,
  the push loss the mean over ordered pairs of distinct valid instances of `log1p (max (3 − ‖gᵢ − gⱼ‖_ε) 0)²`, zero when
  fewer than two instances are valid. Both programs apply these same operations; they differ only in how they count the
  valid instances (`nvK`: a float sum of the indicator; `nvR`: an integer sum converted), which `nv_eq` joins.
-/
import proofs.«410730_j59820304499339_4_alg».proof.ReferenceIdeal
import Idealize.ShloMosaic.PureOps.Ideal

noncomputable section

namespace Cert.ReferenceIdeal.Tail

open Idealize.ShloMosaic Cert.ReferenceIdeal
open Facts₀ Facts

variable {F : FTy → Type} [FloatOps F] [Facts]

/-- The valid instances: a positive kernel pixel count and a class number at least 1. -/
def validOf (cnt : FVec F S8x16 .f32) : IVec S8x16 1 :=
  andi (cmpf .ogt cnt (broadcastInDim S8x16 ![] bcast_S_S8x16 (constant S_ .f32 0x00000000#32)))
    (broadcastInDim S8x16 ![0, 1] bcast_S1x16_S8x16_0_1
      (cmpi .sge (broadcastInDim S1x16 ![1] bcast_S16_S1x16_1 (iotaInDim S16 32 0)) (broadcastInDim S1x16 ![] bcast_S_S1x16 (constantI S_ 32 1#32))))

/-- The number of valid instances of each image, counted as a float sum of the indicator. -/
def nvK (valid : IVec S8x16 1) : FVec F S8 .f32 :=
  Host.reduceAdd (uitofp .f32 valid) (constant S_ .f32 0x00000000#32) reducesTo_S8x16_S8_d1 h_S_

/-- The same number, counted as an integer sum of the indicator, then converted. -/
def nvR (valid : IVec S8x16 1) : FVec F S8 .f32 :=
  sitofp .f32 (Host.reduce IntOp.addi (extui 32 valid natLt_1_32) (constantI S_ 32 0#32) reducesTo_S8x16_S8_d1 h_S_)

/-- The pull loss of each image from the text sums and counts, the valid instances and their number. -/
def pull (sumT cntT : FVec F S8x16 .f32) (valid : IVec S8x16 1) (nv : FVec F S8 .f32) : FVec F S8 .f32 :=
  Host.divf
    (Host.reduceAdd
      (mulf (Host.divf sumT (maximumf cntT (broadcastInDim S8x16 ![] bcast_S_S8x16 (constant S_ .f32 0x3F800000#32)))) (uitofp .f32 valid))
      (constant S_ .f32 0x00000000#32) reducesTo_S8x16_S8_d1 h_S_)
    (maximumf nv (broadcastInDim S8 ![] bcast_S_S8 (constant S_ .f32 0x3F800000#32)))

/-- The strict upper triangle of the 16 × 16 pairs. -/
def upper : IVec S16x16 1 :=
  select (cmpi .sge (addi (iotaInDim S16x16 32 0) (broadcastInDim S16x16 ![] bcast_S_S16x16 (constantI S_ 32 0#32))) (iotaInDim S16x16 32 1))
    (broadcastInDim S16x16 ![] bcast_S_S16x16 (constantI S_ 1 0#1))
    (broadcastInDim S16x16 ![] bcast_S_S16x16 (constantI S_ 1 1#1))

/-- The push loss of each image from the centroids (image, class, channel), the valid instances and their number. -/
def push (G : FVec F S8x16x4 .f32) (valid : IVec S8x16 1) (nv : FVec F S8 .f32) : FVec F S8 .f32 :=
  select (cmpf .ogt nv (broadcastInDim S8 ![] bcast_S_S8 (constant S_ .f32 0x3F800000#32)))
    (Host.divf
      (Host.reduceAdd
        (mulf
          (Host.log1p
            (mulf
              (maximumf
                (subf (broadcastInDim S8x16x16 ![] bcast_S_S8x16x16 (constant S_ .f32 0x40400000#32))
                  (Host.sqrt
                    (addf
                      (Host.reduceAdd
                        (mulf
                          (subf
                            (broadcastInDim S8x16x16x4 ![0, 1, 2, 3] bcast_S8x16x1x4_S8x16x16x4_0_1_2_3 (broadcastInDim S8x16x1x4 ![0, 1, 3] bcast_S8x16x4_S8x16x1x4_0_1_3 G))
                            (broadcastInDim S8x16x16x4 ![0, 1, 2, 3] bcast_S8x1x16x4_S8x16x16x4_0_1_2_3 (broadcastInDim S8x1x16x4 ![0, 2, 3] bcast_S8x16x4_S8x1x16x4_0_2_3 G)))
                          (subf
                            (broadcastInDim S8x16x16x4 ![0, 1, 2, 3] bcast_S8x16x1x4_S8x16x16x4_0_1_2_3 (broadcastInDim S8x16x1x4 ![0, 1, 3] bcast_S8x16x4_S8x16x1x4_0_1_3 G))
                            (broadcastInDim S8x16x16x4 ![0, 1, 2, 3] bcast_S8x1x16x4_S8x16x16x4_0_1_2_3 (broadcastInDim S8x1x16x4 ![0, 2, 3] bcast_S8x16x4_S8x1x16x4_0_2_3 G))))
                        (constant S_ .f32 0x00000000#32) reducesTo_S8x16x16x4_S8x16x16_d3 h_S_)
                      (broadcastInDim S8x16x16 ![] bcast_S_S8x16x16 (constant S_ .f32 0x2B8CBCCC#32)))))
                (broadcastInDim S8x16x16 ![] bcast_S_S8x16x16 (constant S_ .f32 0x00000000#32)))
              (maximumf
                (subf (broadcastInDim S8x16x16 ![] bcast_S_S8x16x16 (constant S_ .f32 0x40400000#32))
                  (Host.sqrt
                    (addf
                      (Host.reduceAdd
                        (mulf
                          (subf
                            (broadcastInDim S8x16x16x4 ![0, 1, 2, 3] bcast_S8x16x1x4_S8x16x16x4_0_1_2_3 (broadcastInDim S8x16x1x4 ![0, 1, 3] bcast_S8x16x4_S8x16x1x4_0_1_3 G))
                            (broadcastInDim S8x16x16x4 ![0, 1, 2, 3] bcast_S8x1x16x4_S8x16x16x4_0_1_2_3 (broadcastInDim S8x1x16x4 ![0, 2, 3] bcast_S8x16x4_S8x1x16x4_0_2_3 G)))
                          (subf
                            (broadcastInDim S8x16x16x4 ![0, 1, 2, 3] bcast_S8x16x1x4_S8x16x16x4_0_1_2_3 (broadcastInDim S8x16x1x4 ![0, 1, 3] bcast_S8x16x4_S8x16x1x4_0_1_3 G))
                            (broadcastInDim S8x16x16x4 ![0, 1, 2, 3] bcast_S8x1x16x4_S8x16x16x4_0_1_2_3 (broadcastInDim S8x1x16x4 ![0, 2, 3] bcast_S8x16x4_S8x1x16x4_0_2_3 G))))
                        (constant S_ .f32 0x00000000#32) reducesTo_S8x16x16x4_S8x16x16_d3 h_S_)
                      (broadcastInDim S8x16x16 ![] bcast_S_S8x16x16 (constant S_ .f32 0x2B8CBCCC#32)))))
                (broadcastInDim S8x16x16 ![] bcast_S_S8x16x16 (constant S_ .f32 0x00000000#32)))))
          (uitofp .f32
            (andi
              (andi
                (broadcastInDim S8x16x16 ![0, 1, 2] bcast_S8x16x1_S8x16x16_0_1_2 (broadcastInDim S8x16x1 ![0, 1] bcast_S8x16_S8x16x1_0_1 valid))
                (broadcastInDim S8x16x16 ![0, 1, 2] bcast_S8x1x16_S8x16x16_0_1_2 (broadcastInDim S8x1x16 ![0, 2] bcast_S8x16_S8x1x16_0_2 valid)))
              (broadcastInDim S8x16x16 ![0, 1, 2] bcast_S1x16x16_S8x16x16_0_1_2 (broadcastInDim S1x16x16 ![1, 2] bcast_S16x16_S1x16x16_1_2 upper)))))
        (constant S_ .f32 0x00000000#32) reducesTo_S8x16x16_S8_d1_2 h_S_)
      (maximumf (mulf nv (subf nv (broadcastInDim S8 ![] bcast_S_S8 (constant S_ .f32 0x3F800000#32))))
        (broadcastInDim S8 ![] bcast_S_S8 (constant S_ .f32 0x3F800000#32))))
    (broadcastInDim S8 ![] bcast_S_S8 (id (constant S_ .f32 0x00000000#32)))

end Cert.ReferenceIdeal.Tail

end
-- ==== Proof.KHost.lean ====
/-
  The host operations of the kernel's program around its two regions, as pure functions of the regions' result arrays:
  the kernel pixel counts (row 4 of region 0's array), the centroids (rows 0 … 3 over the counts floored at one), their
  transpose, and the text pixel counts and pull-term sums (rows 0 and 1 of region 1's array); the contents region 1 finds
  in its centroid buffer; and the two results of the program as the last stretch (`Tail.pull`, `Tail.push`) of these.
-/
import proofs.«410730_j59820304499339_4_alg».proof.Proof.Gen.KernelIdeal.Frame
import proofs.«410730_j59820304499339_4_alg».proof.Proof.Gen.ReferenceIdeal
import proofs.«410730_j59820304499339_4_alg».proof.Proof.Spec
import proofs.«410730_j59820304499339_4_alg».proof.Proof.Tail
import Idealize.ShloMosaic.Lib.Pipeline.Value
import Idealize.ShloMosaic.Lib.StableHlo.Run

noncomputable section

namespace Cert.KernelIdeal.Val

open Idealize.ShloMosaic Idealize.ShloMosaic.TcCoe Idealize.SL.Sem Idealize.ShloMosaic.ValueIdx
open Idealize.ShloMosaic.Pipeline (Dat)
open Cert.KernelIdeal Cert.KernelIdeal.Gen
open Cert.ReferenceIdeal (Tail.pull Tail.push Tail.validOf Tail.nvK)

section Pure
variable {F : FTy → Type} [FloatOps F]

/-- The kernel pixel counts: row 4 of region 0's array. -/
def cntK (a0 : Vec F S8x5x16 .f32) : FVec F S8x16 .f32 :=
  shapeCast S8x16 (extractStridedSlice S8x1x16 ![0, 4, 0] a0 slices_S8x5x16_S8x1x16_0_4_0) shapeCasts_S8x1x16_S8x16

/-- The centroids (image, channel, class): rows 0 … 3 of region 0's array over the counts floored at one. -/
def GK (a0 : Vec F S8x5x16 .f32) : FVec F S8x4x16 .f32 :=
  Host.divf (extractStridedSlice S8x4x16 ![0, 0, 0] a0 slices_S8x5x16_S8x4x16_0_0_0)
    (broadcastInDim S8x4x16 ![0, 1, 2] bcast_S8x1x16_S8x4x16_0_1_2
      (broadcastInDim S8x1x16 ![0, 2] bcast_S8x16_S8x1x16_0_2
        (maximumf (cntK a0) (broadcastInDim S8x16 ![] bcast_S_S8x16 (constant S_ .f32 0x3F800000#32)))))

/-- The centroids transposed to (image, class, channel). -/
def G14 (g : FVec F S8x4x16 .f32) : FVec F S8x16x4 .f32 :=
  transpose S8x16x4 [0, 2, 1] g transposes_S8x4x16_S8x16x4_0_2_1

/-- The text pixel counts: row 0 of region 1's array. -/
def cntT (a1 : Vec F S8x2x16 .f32) : FVec F S8x16 .f32 :=
  shapeCast S8x16 (extractStridedSlice S8x1x16 ![0, 0, 0] a1 slices_S8x2x16_S8x1x16_0_0_0) shapeCasts_S8x1x16_S8x16

/-- The pull-term sums: row 1 of region 1's array. -/
def sumT (a1 : Vec F S8x2x16 .f32) : FVec F S8x16 .f32 :=
  shapeCast S8x16 (extractStridedSlice S8x1x16 ![0, 1, 0] a1 slices_S8x2x16_S8x1x16_0_1_0) shapeCasts_S8x1x16_S8x16

end Pure

/-! ## Read at an index, at the ideal instance -/

/-- Row `r` of an `[8, n, 16]` array, taken as a `[8, 1, 16]` block and reshaped to `[8, 16]`, read at `(b, cls)`. -/
theorem row_apply {α : Type} {n : Nat} (x : (⟨3, ![8, n, 16]⟩ : Shape).Idx → α) (k : Nat) (r : Fin n) (hr : r.val = k)
    (hs : Shape.Slices (⟨3, ![8, n, 16]⟩ : Shape) ![0, k, 0] S8x1x16) (hc : S8x1x16.ShapeCasts S8x16) (b : Fin 8) (cls : Fin 16) :
    shapeCast S8x16 (extractStridedSlice S8x1x16 ![0, k, 0] x hs) hc (ix2 b cls) = x (ix3 b r cls) := by
  refine (shapeCast_apply _ hc (ix2 b cls) (ix3 b 0 cls) ?_).trans ?_
  · rw [Shape.rowMajor_val_three, Shape.rowMajor_val_two]
    show (b.val * 1 + 0) * 16 + cls.val = b.val * 16 + cls.val
    omega
  · refine extractStridedSlice_apply _ _ hs (ix3 b 0 cls) (ix3 b r cls) ?_
    intro a
    match a with
    | ⟨0, _⟩ => show b.val = 0 + b.val; omega
    | ⟨1, _⟩ => show r.val = k + 0; omega
    | ⟨2, _⟩ => show cls.val = 0 + cls.val; omega

theorem cntK_apply (a0 : Vec Ideal S8x5x16 .f32) (b : Fin 8) (cls : Fin 16) : cntK a0 (ix2 b cls) = a0 (ix3 b 4 cls) := by
  unfold cntK
  exact row_apply a0 4 4 rfl _ _ b cls

/-- The first four rows of an `[8, 5, 16]` array, read at `(b, ch, cls)`. -/
theorem rows04_apply {α : Type} (x : S8x5x16.Idx → α) (hs : S8x5x16.Slices ![0, 0, 0] S8x4x16) (b : Fin 8) (ch : Fin 4) (cls : Fin 16) :
    extractStridedSlice S8x4x16 ![0, 0, 0] x hs (ix3 b ch cls) = x (ix3 b ⟨ch.val, by have := ch.isLt; omega⟩ cls) := by
  refine extractStridedSlice_apply _ _ hs (ix3 b ch cls) (ix3 b ⟨ch.val, by have := ch.isLt; omega⟩ cls) ?_
  intro a
  match a with
  | ⟨0, _⟩ => show b.val = 0 + b.val; omega
  | ⟨1, _⟩ => show ch.val = 0 + ch.val; omega
  | ⟨2, _⟩ => show cls.val = 0 + cls.val; omega

/-- An `[8, 16]` array spread over the four channels, read at `(b, ch, cls)`. -/
theorem spread_channels_apply {α : Type} (y : S8x16.Idx → α) (b : Fin 8) (ch : Fin 4) (cls : Fin 16) :
    broadcastInDim S8x4x16 ![0, 1, 2] bcast_S8x1x16_S8x4x16_0_1_2 (broadcastInDim S8x1x16 ![0, 2] bcast_S8x16_S8x1x16_0_2 y) (ix3 b ch cls)
      = y (ix2 b cls) := by
  refine (broadcastInDim_apply _ _ _ (ix3 b ch cls) (ix3 b 0 cls) ?_).trans ?_
  · intro a
    match a with
    | ⟨0, _⟩ => rfl
    | ⟨1, _⟩ => rfl
    | ⟨2, _⟩ => rfl
  · refine broadcastInDim_apply _ _ _ (ix3 b 0 cls) (ix2 b cls) ?_
    intro a
    match a with
    | ⟨0, _⟩ => rfl
    | ⟨1, _⟩ => rfl

theorem GK_apply (a0 : Vec Ideal S8x5x16 .f32) (b : Fin 8) (ch : Fin 4) (cls : Fin 16) :
    GK a0 (ix3 b ch cls) = Ideal.div (a0 (ix3 b ⟨ch.val, by have := ch.isLt; omega⟩ cls)) (max (a0 (ix3 b 4 cls)) Spec.one) := by
  unfold GK
  show Ideal.div (extractStridedSlice S8x4x16 ![0, 0, 0] a0 slices_S8x5x16_S8x4x16_0_0_0 (ix3 b ch cls))
      (broadcastInDim S8x4x16 ![0, 1, 2] bcast_S8x1x16_S8x4x16_0_1_2
        (broadcastInDim S8x1x16 ![0, 2] bcast_S8x16_S8x1x16_0_2
          (maximumf (cntK a0) (broadcastInDim S8x16 ![] bcast_S_S8x16 (constant (F := Ideal) S_ .f32 0x3F800000#32)))) (ix3 b ch cls)) = _
  rw [rows04_apply, spread_channels_apply, maximumf_apply, cntK_apply]
  rfl

theorem G14_apply (g : FVec Ideal S8x4x16 .f32) (b : Fin 8) (cls : Fin 16) (ch : Fin 4) : G14 g (ix3 b cls ch) = g (ix3 b ch cls) := by
  unfold G14
  refine transpose_apply _ _ _ (ix3 b cls ch) (ix3 b ch cls) ?_
  intro a
  match a with
  | ⟨0, _⟩ => rfl
  | ⟨1, _⟩ => rfl
  | ⟨2, _⟩ => rfl

theorem cntT_apply (a1 : Vec Ideal S8x2x16 .f32) (b : Fin 8) (cls : Fin 16) : cntT a1 (ix2 b cls) = a1 (ix3 b 0 cls) := by
  unfold cntT
  exact row_apply a1 0 0 rfl _ _ b cls

theorem sumT_apply (a1 : Vec Ideal S8x2x16 .f32) (b : Fin 8) (cls : Fin 16) : sumT a1 (ix2 b cls) = a1 (ix3 b 1 cls) := by
  unfold sumT
  exact row_apply a1 1 1 rfl _ _ b cls

end Cert.KernelIdeal.Val

end
-- ==== Proof.KHostRun.lean ====
/-
  The run of the kernel's program through its host stretches: the contents region 1 finds in its centroid buffer are the
  centroids of region 0's result array, and the program's two results are the last stretch (`Tail.pull`, `Tail.push`) of
  the small arrays the host operations cut out of the two regions' result arrays.
-/
import proofs.«410730_j59820304499339_4_alg».proof.Proof.KHost

noncomputable section

namespace Cert.KernelIdeal.Val

open Idealize.ShloMosaic Idealize.ShloMosaic.TcCoe Idealize.SL.Sem Idealize.ShloMosaic.ValueIdx
open Idealize.ShloMosaic.Pipeline (Dat)
open Cert.KernelIdeal Cert.KernelIdeal.Gen
open Cert.ReferenceIdeal (Tail.pull Tail.push Tail.validOf Tail.nvK)

/-! ## The host stretches after region 1, from any contents

The two results as functions of the three buffers the stretches read and do not write: region 1's result array, the
centroids and the kernel pixel counts. -/

section Stretches
variable {F : FTy → Type} [FloatOps F]

/-- The first result is the pull loss of the text sums and counts cut out of region 1's result array, over the valid
    instances of the kernel pixel counts. -/
theorem pull_of_contents (X : Valuation τ sig (Elt F)) :
    StableHlo.after hostOps2 X (Proc.devRef .tc main_v32)
      = Tail.pull (sumT (X (Proc.devRef .tc main_v9))) (cntT (X (Proc.devRef .tc main_v9)))
          (Tail.validOf (X (Proc.devRef .tc main_v3))) (Tail.nvK (Tail.validOf (X (Proc.devRef .tc main_v3)))) := by
  after_results_simp
  rfl

/-- No later stretch writes the first result's buffer. -/
theorem pull_kept (X : Valuation τ sig (Elt F)) :
    StableHlo.after hostOps2_3 (StableHlo.after hostOps2_2 (StableHlo.after hostOps2_1 X)) (Proc.devRef .tc main_v32)
      = X (Proc.devRef .tc main_v32) := by
  after_results_simp

/-- The second result is the push loss of the transposed centroids, over the valid instances of the kernel pixel
    counts. -/
theorem push_of_contents (X : Valuation τ sig (Elt F)) :
    StableHlo.after hostOps2_3 (StableHlo.after hostOps2_2 (StableHlo.after hostOps2_1 (StableHlo.after hostOps2 X)))
        (Proc.devRef .tc main_v70)
      = Tail.push (G14 (X (Proc.devRef .tc main_v8)))
          (Tail.validOf (X (Proc.devRef .tc main_v3))) (Tail.nvK (Tail.validOf (X (Proc.devRef .tc main_v3)))) := by
  after_results_simp
  simp only [StableHlo.TRef.ofBuf, StableHlo.TRef.toBuf, cast_eq]
  rfl

end Stretches

/-! ## The boundary contents of the run, through the host stretches -/

section Run
variable {F : FTy → Type} [FloatOps F]
variable (m : (ℓ : Loc nD τ sig) → Buf (Elt F) ℓ) (ρ : Dev nD → PrngReg)

/-- At region 0's exit the buffer of its third window holds its result array. -/
theorem W1_v0 (c : Dev nD) : W1 m ρ c (Proc.devRef .tc main_v0) = (dat0 (V0 m ρ) c).arrAt 2 cfg0.N := W1_arr m ρ c 2

/-- Region 1 finds, in its centroid buffer, the centroids of region 0's result array. -/
theorem V2_v8 (c : Dev nD) : V2 m ρ c main_v8 = GK ((dat0 (V0 m ρ) c).arrAt 2 cfg0.N) := by
  show StableHlo.after hostOps1 (W1 m ρ c) (Proc.devRef .tc main_v8) = _
  after_results
  rw [W1_v0 m ρ c]
  rfl

/-- At region 1's entry the count buffer holds the kernel pixel counts of region 0's result array. -/
theorem V2_v3 (c : Dev nD) : V2 m ρ c main_v3 = cntK ((dat0 (V0 m ρ) c).arrAt 2 cfg0.N) := by
  show StableHlo.after hostOps1 (W1 m ρ c) (Proc.devRef .tc main_v3) = _
  after_results
  rw [W1_v0 m ρ c]
  rfl

/-- At region 1's exit the buffer of its fourth window holds its result array. -/
theorem W3_v9 (c : Dev nD) : W3 m ρ c (Proc.devRef .tc main_v9) = (dat1 (V2 m ρ) c).arrAt 3 cfg1.N := W3_arr m ρ c 3

/-- Region 1 only reads its centroid buffer: at its exit the buffer still holds the centroids. -/
theorem W3_v8 (c : Dev nD) : W3 m ρ c (Proc.devRef .tc main_v8) = GK ((dat0 (V0 m ρ) c).arrAt 2 cfg0.N) :=
  (W3_arr m ρ c 2).trans ((((dat1 (V2 m ρ) c).arrAt_in 2 rfl _).trans (A_eq1 (V2 m ρ) c 2)).trans (V2_v8 m ρ c))

/-- Region 1 has no window on the count buffer: at its exit the buffer still holds the kernel pixel counts. -/
theorem W3_v3 (c : Dev nD) : W3 m ρ c (Proc.devRef .tc main_v3) = cntK ((dat0 (V0 m ρ) c).arrAt 2 cfg0.N) :=
  (W3_of_ne m ρ c main_v3 (by decide)).trans (V2_v3 m ρ c)

/-- The first result: the pull loss of the regions' arrays. -/
theorem res0_eq (c : Dev nD) :
    W7 m ρ c (Proc.devRef .tc main_v32)
      = Tail.pull (sumT ((dat1 (V2 m ρ) c).arrAt 3 cfg1.N)) (cntT ((dat1 (V2 m ρ) c).arrAt 3 cfg1.N))
          (Tail.validOf (cntK ((dat0 (V0 m ρ) c).arrAt 2 cfg0.N))) (Tail.nvK (Tail.validOf (cntK ((dat0 (V0 m ρ) c).arrAt 2 cfg0.N)))) := by
  refine (pull_kept (W4 m ρ c)).trans ((pull_of_contents (W3 m ρ c)).trans ?_)
  rw [W3_v9 m ρ c, W3_v3 m ρ c]

/-- The second result: the push loss of region 0's array. -/
theorem res1_eq (c : Dev nD) :
    W7 m ρ c (Proc.devRef .tc main_v70)
      = Tail.push (G14 (GK ((dat0 (V0 m ρ) c).arrAt 2 cfg0.N)))
          (Tail.validOf (cntK ((dat0 (V0 m ρ) c).arrAt 2 cfg0.N))) (Tail.nvK (Tail.validOf (cntK ((dat0 (V0 m ρ) c).arrAt 2 cfg0.N)))) := by
  refine (push_of_contents (W3 m ρ c)).trans ?_
  rw [W3_v8 m ρ c, W3_v3 m ρ c]

end Run

end Cert.KernelIdeal.Val

end
-- ==== Proof.PreRange.lean ====
/-
  The precondition read: every text label and every kernel label is a class 0 … 15.
-/
import proofs.«410730_j59820304499339_4_alg».proof.Defs
import proofs.«410730_j59820304499339_4_alg».proof.Proof.Gen.Pre_finite_inputs
import proofs.«410730_j59820304499339_4_alg».proof.Proof.Gen.KernelIdeal
import proofs.«410730_j59820304499339_4_alg».proof.Proof.Spec
import Idealize.ShloMosaic.Lib.StableHlo.Predicate
import Idealize.ShloMosaic.Lib.ReduceAll

noncomputable section

namespace Cert.Proof

open Idealize.ShloMosaic Idealize.SL.Sem Idealize.ShloMosaic.ValueIdx

/-- The scalar shape has one index. -/
instance scalarIdx_subsingleton : Subsingleton Cert.Pre_finite_inputs.S_.Idx :=
  ⟨fun a b => funext fun d => d.elim0⟩

/-- A word that tests "0 ≤ x" and "x < 16", both signed, is a class 0 … 15. -/
theorem word_inRange_of_compares (x z s : BitVec 32) (hz : z = 0#32) (hs : s = 16#32)
    (h0 : IntOp.cmpi .sge x z = 1#1) (h16 : IntOp.cmpi .slt x s = 1#1) : 0 ≤ x.toInt ∧ x.toInt < 16 := by
  subst hz hs
  have a := IntOp.cmpi_sge.1 h0
  have b := IntOp.cmpi_slt.1 h16
  rw [show (0#32 : BitVec 32).toInt = 0 from by decide] at a
  rw [show (16#32 : BitVec 32).toInt = 16 from by decide] at b
  exact ⟨a, b⟩

/-- A label array whose mask "0 ≤ x and x < 16", reduced by `and` over every axis, came out one holds only classes 0 … 15. -/
theorem inRange_of_all_mask {t u : Shape} [Subsingleton t.Idx] {axes : List (Fin Spec.SLab.rank)}
    (lab z s : IVec Spec.SLab 32) (hz : ∀ i, z i = 0#32) (hs : ∀ i, s i = 16#32)
    (init : u.Idx → BitVec 1) (hr : Spec.SLab.ReducesTo axes t) (hu : 0 < u.numel) (j : t.Idx)
    (e : Host.reduce IntOp.andi (andi (cmpi .sge lab z) (cmpi .slt lab s)) init hr hu j = 1#1) : Spec.InRange lab := by
  intro i
  have hi : IntOp.andi (IntOp.cmpi .sge (lab i) (z i)) (IntOp.cmpi .slt (lab i) (s i)) = 1#1 :=
    Host.reduce_andi_all _ init hr hu j e i
  obtain ⟨h0, h16⟩ := IntOp.andi_eq_one.1 hi
  exact word_inRange_of_compares (lab i) (z i) (s i) (hz i) (hs i) h0 h16

/-- The precondition's two label conjuncts, decoded: on every device the text labels (argument 1) and the kernel labels
    (argument 2) are in range. -/
theorem range_of_pre (m : (ℓ : Loc Cert.KernelIdeal.nD Cert.KernelIdeal.τ Cert.KernelIdeal.sig) → Buf (Elt Ideal) ℓ)
    (h : Cert.Pre_KernelIdeal m) (c : Dev Cert.KernelIdeal.nD) :
    Spec.InRange (m ((c.tc : Thread Cert.KernelIdeal.nD Cert.KernelIdeal.τ).loc Cert.KernelIdeal.main_arg1))
      ∧ Spec.InRange (m ((c.tc : Thread Cert.KernelIdeal.nD Cert.KernelIdeal.τ).loc Cert.KernelIdeal.main_arg2)) := by
  have e := congrFun (h c) ValueIdx.ix0
  unfold Cert.Pre_finite_inputs.fn Cert.Pre_finite_inputs.fn_part1 at e
  dsimp only at e
  -- the conjunction of the three scalars: finiteness and the text labels' mask, then the kernel labels' mask
  obtain ⟨e01, e2⟩ := IntOp.andi_eq_one.1 e
  obtain ⟨-, e1⟩ := IntOp.andi_eq_one.1 e01
  exact ⟨inRange_of_all_mask _ _ _ (fun _ => rfl) (fun _ => rfl) _ _ _ _ e1,
    inRange_of_all_mask _ _ _ (fun _ => rfl) (fun _ => rfl) _ _ _ _ e2⟩

end Cert.Proof

end
-- ==== Proof.RefIdx.lean ====
/-
  The reference numbers the pixels of all images in one row-major list of 8 · 640 · 640 and adds, to each pixel's label,
  sixteen times its image number, to name one of 128 segments (image, class). Under labels in range, a sum over all pixels
  that keeps the pixels whose segment word is `16 b + m` is the sum over image `b`'s pixels labelled `m`.
-/
import proofs.«410730_j59820304499339_4_alg».proof.Proof.Spec
import Idealize.ShloMosaic.Lib.ValueIdx
import Mathlib.Algebra.BigOperators.Group.Finset.Defs
import Mathlib.Algebra.BigOperators.Group.Finset.Basic
import Mathlib.Data.Fintype.BigOperators

noncomputable section

namespace Cert.Spec

open Idealize.ShloMosaic Idealize.ShloMosaic.ValueIdx
open scoped BigOperators

/-- The row-major number of pixel `(i, j)` of image `b` among all pixels. -/
def flat (b : Fin 8) (i j : Fin 640) : Fin 3276800 :=
  ⟨(b.val * 640 + i.val) * 640 + j.val, by have := b.isLt; have := i.isLt; have := j.isLt; omega⟩

/-- Numbering the pixels row-major is a bijection: a pixel number is read back as (image, row, column) by division with
    remainder. -/
def flatEquiv : Fin 8 × Fin 640 × Fin 640 ≃ Fin 3276800 where
  toFun p := flat p.1 p.2.1 p.2.2
  invFun n := (⟨n.val / 409600, by have := n.isLt; omega⟩, ⟨n.val / 640 % 640, by omega⟩, ⟨n.val % 640, by omega⟩)
  left_inv := by
    rintro ⟨b, i, j⟩
    have hb := b.isLt
    have hi := i.isLt
    have hj := j.isLt
    refine Prod.ext (Fin.ext ?_) (Prod.ext (Fin.ext ?_) (Fin.ext ?_))
    · show ((b.val * 640 + i.val) * 640 + j.val) / 409600 = b.val
      omega
    · show ((b.val * 640 + i.val) * 640 + j.val) / 640 % 640 = i.val
      omega
    · show ((b.val * 640 + i.val) * 640 + j.val) % 640 = j.val
      omega
  right_inv := by
    intro n
    have hn := n.isLt
    apply Fin.ext
    show (n.val / 409600 * 640 + n.val / 640 % 640) * 640 + n.val % 640 = n.val
    omega

/-- A sum over all pixel numbers is the sum over images, rows and columns. -/
theorem sum_flat {M : Type*} [AddCommMonoid M] (f : Fin 3276800 → M) :
    ∑ n : Fin 3276800, f n = ∑ b : Fin 8, ∑ i : Fin 640, ∑ j : Fin 640, f (flat b i j) := by
  rw [← Equiv.sum_comp flatEquiv f, Fintype.sum_prod_type]
  refine Finset.sum_congr rfl fun b _ => ?_
  rw [Fintype.sum_prod_type]
  rfl

/-- The segment sum. `w` is the segment word of each pixel: read signed, the pixel's label plus sixteen times its image
    number. Keeping, in a sum over all pixels, those whose word is `16 b + m` leaves image `b`'s pixels labelled `m`. -/
theorem seg_sum (lab : IVec SLab 32) (hl : InRange lab) (w : Fin 3276800 → BitVec 32)
    (hw : ∀ (b : Fin 8) (i j : Fin 640), (w (flat b i j)).toInt = (lab (ix3 b i j)).toInt + 16 * (b.val : Int))
    (u : Fin 3276800 → EReal) (b : Fin 8) (m : Fin 16) :
    ∑ n : Fin 3276800, (if (w n).toInt = ((16 * b.val + m.val : ℕ) : Int) then u n else 0)
      = ∑ i : Fin 640, ∑ j : Fin 640, ind (lab (ix3 b i j)) m * u (flat b i j) := by
  have hm := m.isLt
  rw [sum_flat, Finset.sum_eq_single b]
  · -- image b itself: the word is 16 b + m exactly when the label is m
    refine Finset.sum_congr rfl fun i _ => Finset.sum_congr rfl fun j _ => ?_
    rw [hw b i j]
    unfold ind
    by_cases hc : (lab (ix3 b i j)).toInt = (m.val : Int)
    · rw [if_pos hc, one_mul, if_pos (by omega)]
    · rw [if_neg hc, zero_mul, if_neg (by omega)]
  · -- another image: a label in 0 … 15 plus 16 b' is not 16 b + m
    intro b' _ hb'
    refine Finset.sum_eq_zero fun i _ => Finset.sum_eq_zero fun j _ => ?_
    rw [hw b' i j]
    have hr := hl (ix3 b' i j)
    refine if_neg fun hc => hb' (Fin.ext ?_)
    omega
  · intro h
    exact absurd (Finset.mem_univ b) h

end Cert.Spec

end
-- ==== Proof.LibScatterFold.lean ====
/-
  A scatter whose body returns the update ("set"): the row-major left fold in which each update replaces the element at
  its result index. If at least one update lands on an element and every update that lands there carries the same value,
  the folded array holds that value there, whatever the order and whatever the start array.

  `foldl_proj_eq_of_hit` is the fold fact in the abstract (a state, a projection of it, steps that either set the
  projection to `v` or leave it alone); `scatter_set_apply` is it for `Host.scatter … (fun _ b => b)`;
  `rowScatter_resultIdx_eq_some_iff` reads the result index of a ROW scatter (operand [N, C], indices an [R, 1] column,
  updates [R, C]: update row `i` goes to the operand row its index word names, read signed, and is dropped when that is
  outside the operand) off the index column.
-/
import Idealize.ShloMosaic.PureOps.ShapeOps
import Idealize.ShloMosaic.Lib.ValueIdx

namespace Idealize.ShloMosaic.ScatterFold

open Idealize.ShloMosaic Idealize.ShloMosaic.ValueIdx

/-- A left fold whose steps either SET a projection of the state to `v` (the steps of `hit`) or LEAVE it (the others):
    if some step of the list hits, the projection of the result is `v`. The invariant, for every start state: the
    projection is already `v`, or a hit is still to come. -/
theorem foldl_proj_eq_of_hit {κ β α : Type} (step : β → κ → β) (π : β → α) (hit : κ → Prop) (v : α) (l : List κ)
    (hset : ∀ k ∈ l, hit k → ∀ r, π (step r k) = v)
    (hkeep : ∀ k ∈ l, ¬ hit k → ∀ r, π (step r k) = π r)
    (x : β) (hx : π x = v ∨ ∃ k ∈ l, hit k) : π (l.foldl step x) = v := by
  induction l generalizing x with
  | nil =>
    rcases hx with hx | ⟨k, hk, _⟩
    · exact hx
    · exact absurd hk List.not_mem_nil
  | cons k l ih =>
    rw [List.foldl_cons]
    refine ih (fun k' hk' => hset k' (List.mem_cons_of_mem _ hk')) (fun k' hk' => hkeep k' (List.mem_cons_of_mem _ hk')) _ ?_
    by_cases hk : hit k
    · exact Or.inl (hset k List.mem_cons_self hk x)
    · rcases hx with hx | ⟨k', hk', hh⟩
      · exact Or.inl ((hkeep k List.mem_cons_self hk x).trans hx)
      · rcases List.mem_cons.1 hk' with rfl | hk'
        · exact absurd hh hk
        · exact Or.inr ⟨k', hk', hh⟩

variable {s si u : Shape} {α : Type} {w : Nat}

/-- A "set" scatter read at `i'`: when some update's result index is `i'` and every update whose result index is `i'`
    carries `v`, the result at `i'` is `v` (the operand and the order of the updates play no part). -/
theorem scatter_set_apply (d : ScatterDims s si u) (x : s.Idx → α) (idx : IVec si w) (upd : u.Idx → α) (i' : s.Idx) (v : α)
    (hex : ∃ j : u.Idx, d.resultIdx? j idx = some i')
    (hall : ∀ j : u.Idx, d.resultIdx? j idx = some i' → upd j = v) :
    Host.scatter d (fun _ b => b) x idx upd i' = v := by
  unfold Host.scatter
  refine foldl_proj_eq_of_hit _ (fun r => r i') (fun n => d.resultIdx? (u.rowMajor.symm n) idx = some i') v _ ?_ ?_ x ?_
  · intro n _ hn r
    show (match d.resultIdx? (u.rowMajor.symm n) idx with
      | some i => fun i'' => if i'' = i then upd (u.rowMajor.symm n) else r i''
      | none => r) i' = v
    rw [hn]
    show (if i' = i' then upd (u.rowMajor.symm n) else r i') = v
    rw [if_pos rfl]
    exact hall _ hn
  · intro n _ hn r
    show (match d.resultIdx? (u.rowMajor.symm n) idx with
      | some i => fun i'' => if i'' = i then upd (u.rowMajor.symm n) else r i''
      | none => r) i' = r i'
    cases hr : d.resultIdx? (u.rowMajor.symm n) idx with
    | none => rfl
    | some i =>
      show (if i' = i then upd (u.rowMajor.symm n) else r i') = r i'
      rw [if_neg]
      intro h
      exact hn (by rw [hr, h])
  · obtain ⟨j, hj⟩ := hex
    refine Or.inr ⟨u.rowMajor j, List.mem_finRange _, ?_⟩
    show d.resultIdx? (u.rowMajor.symm (u.rowMajor j)) idx = some i'
    rw [Equiv.symm_apply_apply]
    exact hj

/-! ## The row scatter: one scalar index per update row, the window a whole row -/

section RowScatter

/-- The entries of a one-element list. -/
theorem getElem_of_eq_singleton {β : Type} {l : List β} {a : β} (h : l = [a]) (k : Nat) (hk : k < l.length) : l[k] = a := by
  subst h
  have hk0 : k = 0 := by simpa using hk
  subst hk0
  rfl

variable {N R C w : Nat} (d : ScatterDims ⟨2, ![N, C]⟩ ⟨2, ![R, 1]⟩ ⟨2, ![R, C]⟩)
  (huw : d.updateWindowDims = [1]) (hiw : d.insertedWindowDims = [0]) (hsd : d.scatterDimsToOperandDims = [0])
  (hiv : d.indexVectorDim = 1)

include hsd hiv huw in
theorem rowScatter_start_zero (idx : IVec ⟨2, ![R, 1]⟩ w) (j : (⟨2, ![R, C]⟩ : Shape).Idx) :
    d.start j idx 0 = (idx (ix2 (j 0) 0)).toInt := by
  have hm : (0 : Fin 2) ∈ d.scatterDimsToOperandDims := by rw [hsd]; exact List.mem_singleton.mpr rfl
  have hus : d.uScatter = [0] := by
    show Shape.kept _ d.updateWindowDims = [0]
    rw [huw]; rfl
  unfold ScatterDims.start
  rw [dif_pos hm]
  congr 2
  funext b
  match b with
  | ⟨0, _⟩ =>
    unfold ScatterDims.siIdx
    rw [dif_neg (by rw [hiv]; exact Nat.zero_ne_one)]
    unfold ScatterDims.siCoord
    apply Fin.ext
    simp only [Fin.val_cast]
    rw [getElem_of_eq_singleton hus]
  | ⟨1, _⟩ =>
    unfold ScatterDims.siIdx
    rw [dif_pos (by rw [hiv])]
    apply Fin.ext
    show List.idxOf (0 : Fin 2) d.scatterDimsToOperandDims = 0
    rw [hsd]; simp

include hsd in
theorem rowScatter_start_one (idx : IVec ⟨2, ![R, 1]⟩ w) (j : (⟨2, ![R, C]⟩ : Shape).Idx) :
    d.start j idx 1 = 0 := by
  have hm : (1 : Fin 2) ∉ d.scatterDimsToOperandDims := by rw [hsd]; simp
  unfold ScatterDims.start
  rw [dif_neg hm]

include hiw in
theorem rowScatter_window_zero (j : (⟨2, ![R, C]⟩ : Shape).Idx) : d.window j 0 = 0 := by
  have hsk : d.sKept = [1] := by
    show Shape.kept _ d.insertedWindowDims = [1]
    rw [hiw]; rfl
  have hm : (0 : Fin 2) ∉ d.sKept := by rw [hsk]; simp
  unfold ScatterDims.window
  rw [dif_neg hm]

include hiw huw in
theorem rowScatter_window_one (j : (⟨2, ![R, C]⟩ : Shape).Idx) : d.window j 1 = (j 1).val := by
  have hsk : d.sKept = [1] := by
    show Shape.kept _ d.insertedWindowDims = [1]
    rw [hiw]; rfl
  have hm : (1 : Fin 2) ∈ d.sKept := by rw [hsk]; exact List.mem_singleton.mpr rfl
  unfold ScatterDims.window
  rw [dif_pos hm, getElem_of_eq_singleton huw]

include huw hiw hsd hiv in
/-- The result index of update element `(i, c)` of a ROW scatter (one scalar index per update row, read off the
    index column; the window one whole row): it is `k` exactly when the row's index word, read signed, is `k`'s row
    and `c` is `k`'s column. -/
theorem rowScatter_resultIdx_eq_some_iff (idx : IVec ⟨2, ![R, 1]⟩ w) (i : Fin R) (c : Fin C) (k : (⟨2, ![N, C]⟩ : Shape).Idx) :
    d.resultIdx? (ix2 i c) idx = some k ↔ (idx (ix2 i 0)).toInt = ((k 0).val : Int) ∧ (k 1).val = c.val := by
  have h00 : d.start (ix2 i c) idx 0 = (idx (ix2 i 0)).toInt := rowScatter_start_zero d huw hsd hiv idx (ix2 i c)
  have h01 := rowScatter_start_one d hsd idx (ix2 i c)
  have h10 := rowScatter_window_zero d hiw (ix2 i c)
  have h11 : d.window (ix2 i c) 1 = c.val := rowScatter_window_one d huw hiw (ix2 i c)
  have e0 : d.start (ix2 i c) idx 0 + (d.window (ix2 i c) 0 : Int) = (idx (ix2 i 0)).toInt := by
    rw [h00, h10]; simp
  have e1 : d.start (ix2 i c) idx 1 + (d.window (ix2 i c) 1 : Int) = (c.val : Int) := by
    rw [h01, h11]; simp
  have hk0 := (k 0).isLt
  have hk1 := (k 1).isLt
  unfold ScatterDims.resultIdx?
  constructor
  · intro h
    split at h
    · next hin =>
      have hf := Option.some.inj h
      have f0 := congrArg (fun f => (f 0).val) hf
      have f1 := congrArg (fun f => (f 1).val) hf
      simp only at f0 f1
      have i0 := hin 0
      have i1 := hin 1
      rw [e0] at i0 f0
      rw [e1] at i1 f1
      constructor
      · omega
      · omega
    · exact absurd h (by simp)
  · rintro ⟨hr, hc⟩
    have hin : ∀ a, 0 ≤ d.start (ix2 i c) idx a + (d.window (ix2 i c) a : Int)
        ∧ d.start (ix2 i c) idx a + (d.window (ix2 i c) a : Int) < ((⟨2, ![N, C]⟩ : Shape).size a : Nat) := by
      intro a
      match a with
      | ⟨0, _⟩ =>
        show 0 ≤ d.start (ix2 i c) idx 0 + (d.window (ix2 i c) 0 : Int) ∧ d.start (ix2 i c) idx 0 + (d.window (ix2 i c) 0 : Int) < (N : Nat)
        rw [e0, hr]
        have : (k 0).val < N := hk0
        omega
      | ⟨1, _⟩ =>
        show 0 ≤ d.start (ix2 i c) idx 1 + (d.window (ix2 i c) 1 : Int) ∧ d.start (ix2 i c) idx 1 + (d.window (ix2 i c) 1 : Int) < (C : Nat)
        rw [e1]
        have : c.val < C := c.isLt
        omega
    rw [dif_pos hin]
    congr 1
    funext a
    apply Fin.ext
    match a with
    | ⟨0, _⟩ =>
      show (d.start (ix2 i c) idx 0 + (d.window (ix2 i c) 0 : Int)).toNat = (k 0).val
      rw [e0, hr]; simp
    | ⟨1, _⟩ =>
      show (d.start (ix2 i c) idx 1 + (d.window (ix2 i c) 1 : Int)).toNat = (k 1).val
      rw [e1, hc]; simp

end RowScatter

end Idealize.ShloMosaic.ScatterFold
-- ==== Proof.LibScatterSum.lean ====
/-
  The accumulating host scatter (a scatter whose body adds; exact at the ideal instance: each operand element plus the
  sum of the updates that land on it) read at an index as a sum over the update ROWS, for the two shapes a segment sum
  lowers to: the ROW scatter (operand [N, C], one index word per update row, the window a whole row) and the SCALAR
  scatter (operand [N], one index word per update element). An update whose index word, read signed, names no operand
  row lands nowhere, so it adds nothing: in both forms the sum keeps exactly the rows whose word is the row read.
-/
import Idealize.ShloMosaic.PureOps.Ideal
import Idealize.ShloMosaic.Lib.ValueIdx
import proofs.«410730_j59820304499339_4_alg».proof.Proof.LibScatterFold

open scoped BigOperators

namespace Idealize.ShloMosaic.ScatterSum

open Idealize.ShloMosaic Idealize.ShloMosaic.ValueIdx Idealize.ShloMosaic.ScatterFold

/-- A rank-1 index set is its one coordinate range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-! ## The row scatter -/

/-- The accumulating ROW scatter at element `(k0, k1)`: the operand's element plus the sum, over the update rows whose
    index word read signed is `k0`, of the row's element in column `k1`. -/
theorem rowScatterAdd_apply {N R C w : Nat} (d : ScatterDims ⟨2, ![N, C]⟩ ⟨2, ![R, 1]⟩ ⟨2, ![R, C]⟩)
    (huw : d.updateWindowDims = [1]) (hiw : d.insertedWindowDims = [0]) (hsd : d.scatterDimsToOperandDims = [0])
    (hiv : d.indexVectorDim = 1)
    (x : (⟨2, ![N, C]⟩ : Shape).Idx → EReal) (idx : IVec ⟨2, ![R, 1]⟩ w) (upd : (⟨2, ![R, C]⟩ : Shape).Idx → EReal)
    (k0 : Fin N) (k1 : Fin C) :
    Ideal.hostScatterAdd d x idx upd (ix2 k0 k1)
      = x (ix2 k0 k1) + ∑ n : Fin R, if (idx (ix2 n 0)).toInt = (k0.val : Int) then upd (ix2 n k1) else 0 := by
  unfold Ideal.hostScatterAdd
  congr 1
  rw [Finset.sum_filter, sum_idx2]
  refine Finset.sum_congr rfl fun n _ => ?_
  have hiff : ∀ c : Fin C, (d.resultIdx? (ix2 n c) idx = some (ix2 k0 k1))
      ↔ ((idx (ix2 n 0)).toInt = (k0.val : Int) ∧ k1.val = c.val) :=
    fun c => rowScatter_resultIdx_eq_some_iff d huw hiw hsd hiv idx n c (ix2 k0 k1)
  by_cases hA : (idx (ix2 n 0)).toInt = (k0.val : Int)
  · rw [if_pos hA, Finset.sum_eq_single k1]
    · rw [if_pos ((hiff k1).2 ⟨hA, rfl⟩)]
    · intro c _ hc
      rw [if_neg]
      intro h
      exact hc (Fin.ext ((hiff c).1 h).2.symm)
    · intro h; exact absurd (Finset.mem_univ _) h
  · rw [if_neg hA]
    refine Finset.sum_eq_zero fun c _ => ?_
    rw [if_neg]
    intro h
    exact hA ((hiff c).1 h).1

/-! ## The scalar scatter: one index word per update element, no window -/

section VecScatter

variable {N R w : Nat} (d : ScatterDims ⟨1, ![N]⟩ ⟨2, ![R, 1]⟩ ⟨1, ![R]⟩)
  (huw : d.updateWindowDims = []) (hiw : d.insertedWindowDims = [0]) (hsd : d.scatterDimsToOperandDims = [0])
  (hiv : d.indexVectorDim = 1)

include hsd hiv huw in
theorem vecScatter_start_zero (idx : IVec ⟨2, ![R, 1]⟩ w) (j : (⟨1, ![R]⟩ : Shape).Idx) :
    d.start j idx 0 = (idx (ix2 (j 0) 0)).toInt := by
  have hm : (0 : Fin 1) ∈ d.scatterDimsToOperandDims := by rw [hsd]; exact List.mem_singleton.mpr rfl
  have hus : d.uScatter = [0] := by
    show Shape.kept _ d.updateWindowDims = [0]
    rw [huw]; rfl
  unfold ScatterDims.start
  rw [dif_pos hm]
  congr 2
  funext b
  match b with
  | ⟨0, _⟩ =>
    unfold ScatterDims.siIdx
    rw [dif_neg (by rw [hiv]; exact Nat.zero_ne_one)]
    unfold ScatterDims.siCoord
    apply Fin.ext
    simp only [Fin.val_cast]
    rw [getElem_of_eq_singleton hus]
  | ⟨1, _⟩ =>
    unfold ScatterDims.siIdx
    rw [dif_pos (by rw [hiv])]
    apply Fin.ext
    show List.idxOf (0 : Fin 1) d.scatterDimsToOperandDims = 0
    rw [hsd]; simp

include hiw in
theorem vecScatter_window_zero (j : (⟨1, ![R]⟩ : Shape).Idx) : d.window j 0 = 0 := by
  have hsk : d.sKept = [] := by
    show Shape.kept _ d.insertedWindowDims = []
    rw [hiw]; rfl
  have hm : (0 : Fin 1) ∉ d.sKept := by rw [hsk]; simp
  unfold ScatterDims.window
  rw [dif_neg hm]

include huw hiw hsd hiv in
/-- The result index of update element `i` of a SCALAR scatter: it is `k` exactly when the element's index word, read
    signed, is `k`'s coordinate. -/
theorem vecScatter_resultIdx_eq_some_iff (idx : IVec ⟨2, ![R, 1]⟩ w) (i : Fin R) (k : (⟨1, ![N]⟩ : Shape).Idx) :
    d.resultIdx? (ix1 i) idx = some k ↔ (idx (ix2 i 0)).toInt = ((k 0).val : Int) := by
  have h00 : d.start (ix1 i) idx 0 = (idx (ix2 i 0)).toInt := vecScatter_start_zero d huw hsd hiv idx (ix1 i)
  have h10 := vecScatter_window_zero d hiw (ix1 i)
  have e0 : d.start (ix1 i) idx 0 + (d.window (ix1 i) 0 : Int) = (idx (ix2 i 0)).toInt := by
    rw [h00, h10]; simp
  have hk0 := (k 0).isLt
  unfold ScatterDims.resultIdx?
  constructor
  · intro h
    split at h
    · next hin =>
      have hf := Option.some.inj h
      have f0 := congrArg (fun f => (f 0).val) hf
      simp only at f0
      have i0 := hin 0
      rw [e0] at i0 f0
      omega
    · exact absurd h (by simp)
  · intro hr
    have hin : ∀ a, 0 ≤ d.start (ix1 i) idx a + (d.window (ix1 i) a : Int)
        ∧ d.start (ix1 i) idx a + (d.window (ix1 i) a : Int) < ((⟨1, ![N]⟩ : Shape).size a : Nat) := by
      intro a
      match a with
      | ⟨0, _⟩ =>
        show 0 ≤ d.start (ix1 i) idx 0 + (d.window (ix1 i) 0 : Int)
          ∧ d.start (ix1 i) idx 0 + (d.window (ix1 i) 0 : Int) < (N : Nat)
        rw [e0, hr]
        have : (k 0).val < N := hk0
        omega
    rw [dif_pos hin]
    congr 1
    funext a
    apply Fin.ext
    match a with
    | ⟨0, _⟩ =>
      show (d.start (ix1 i) idx 0 + (d.window (ix1 i) 0 : Int)).toNat = (k 0).val
      rw [e0, hr]; simp

include huw hiw hsd hiv in
/-- The accumulating SCALAR scatter at element `k0`: the operand's element plus the sum of the update elements whose
    index word read signed is `k0`. -/
theorem vecScatterAdd_apply (x : (⟨1, ![N]⟩ : Shape).Idx → EReal) (idx : IVec ⟨2, ![R, 1]⟩ w)
    (upd : (⟨1, ![R]⟩ : Shape).Idx → EReal) (k0 : Fin N) :
    Ideal.hostScatterAdd d x idx upd (ix1 k0)
      = x (ix1 k0) + ∑ n : Fin R, if (idx (ix2 n 0)).toInt = (k0.val : Int) then upd (ix1 n) else 0 := by
  unfold Ideal.hostScatterAdd
  congr 1
  rw [Finset.sum_filter, sum_idx1]
  refine Finset.sum_congr rfl fun n _ => ?_
  have hiff : (d.resultIdx? (ix1 n) idx = some (ix1 k0)) ↔ (idx (ix2 n 0)).toInt = (k0.val : Int) :=
    vecScatter_resultIdx_eq_some_iff d huw hiw hsd hiv idx n (ix1 k0)
  by_cases hA : (idx (ix2 n 0)).toInt = (k0.val : Int)
  · rw [if_pos hA, if_pos (hiff.2 hA)]
  · rw [if_neg hA, if_neg (fun h => hA (hiff.1 h))]

end VecScatter

end Idealize.ShloMosaic.ScatterSum
-- ==== Proof.RefCnt.lean ====
/-
  The reference's per-class pixel counts, read at an index: the segment sum of ones over the kernel labels (for the
  centroids and the valid instances) and over the text labels (for the per-instance means) is `Spec.cnt`.
-/
import proofs.«410730_j59820304499339_4_alg».proof.Proof.RefRead
import proofs.«410730_j59820304499339_4_alg».proof.Proof.RefIdx
import proofs.«410730_j59820304499339_4_alg».proof.Proof.LibScatterSum
import Idealize.ShloMosaic.Lib.IdealHost

noncomputable section

namespace Cert.ReferenceIdeal.RefVal

open Idealize.ShloMosaic Idealize.ShloMosaic.ValueIdx
open Cert.ReferenceIdeal Cert.ReferenceIdeal.Gen Cert.ReferenceIdeal.ReadP
open scoped BigOperators

/-! ## The segment word of a pixel -/

/-- A label in 0 … 15 plus sixteen times an image number below 8, as 32-bit words, does not wrap: read signed, it is the sum. -/
theorem segword_toInt (l : BitVec 32) (hl : 0 ≤ l.toInt ∧ l.toInt < 16) (b : Fin 8) :
    (IntOp.addi l (IntOp.muli (BitVec.ofNat 32 b.val) 16#32)).toInt = l.toInt + 16 * (b.val : Int) := by
  have hb := b.isLt
  have h3 := l.isLt
  have hc := BitVec.toInt_eq_toNat_cond l
  have hn : (IntOp.addi l (IntOp.muli (BitVec.ofNat 32 b.val) 16#32)).toNat
      = (l.toNat + (b.val % 4294967296 * 16) % 4294967296) % 4294967296 := by
    unfold IntOp.addi IntOp.muli
    rw [BitVec.toNat_add, BitVec.toNat_mul, BitVec.toNat_ofNat]
    rfl
  have hc2 := BitVec.toInt_eq_toNat_cond (IntOp.addi l (IntOp.muli (BitVec.ofNat 32 b.val) 16#32))
  rw [hn] at hc2
  rw [hc2]
  split at hc <;> split <;> omega

/-- The pixel whose label the segment-word list holds at the row-major pixel number of `(b, i, j)` is `(b, i, j)`. -/
theorem labIdx_flat (b : Fin 8) (i j : Fin 640) :
    idx_main_v3 (idx_main_v11 (idx_main_v22 (ix2 (Spec.flat b i j) 0))) = ix3 b i j := by
  have hb := b.isLt
  have hi := i.isLt
  have hj := j.isLt
  funext a
  match a with
  | ⟨0, _⟩ =>
    exact Fin.ext (by
      show (((b.val * 640 + i.val) * 640 + j.val) / 409600 * 409600 + ((b.val * 640 + i.val) * 640 + j.val) % 409600) / 409600 = b.val
      omega)
  | ⟨1, _⟩ =>
    exact Fin.ext (by
      show (((b.val * 640 + i.val) * 640 + j.val) / 409600 * 409600 + ((b.val * 640 + i.val) * 640 + j.val) % 409600) / 640 % 640 = i.val
      omega)
  | ⟨2, _⟩ =>
    exact Fin.ext (by
      show (((b.val * 640 + i.val) * 640 + j.val) / 409600 * 409600 + ((b.val * 640 + i.val) * 640 + j.val) % 409600) % 640 = j.val
      omega)

/-- Sixteen times the image number, as the word added to the label of pixel number `flat b i j`. -/
theorem imageWord_flat (b : Fin 8) (i j : Fin 640) :
    val_main_v9 (F := Ideal) (idx_main_v11 (idx_main_v22 (ix2 (Spec.flat b i j) 0)))
      = IntOp.muli (BitVec.ofNat 32 b.val) 16#32 := by
  rw [val_main_v9_apply, val_main_v8_apply, val_main_v6_apply, val_main_v7_apply, val_main_v5_apply, val_main_c_apply]
  have e : ((idx_main_v6 (idx_main_v9 (idx_main_v11 (idx_main_v22 (ix2 (Spec.flat b i j) 0))))) 0).val = b.val := by
    have hb := b.isLt
    have hi := i.isLt
    have hj := j.isLt
    show ((b.val * 640 + i.val) * 640 + j.val) / 409600 = b.val
    omega
  rw [e]

/-- The segment word of pixel `(b, i, j)`, read signed: its label plus sixteen times its image number. -/
theorem v22_word (x2 : IVec Spec.SLab 32) (hk : Spec.InRange x2) (b : Fin 8) (i j : Fin 640) :
    (val_main_v22 (F := Ideal) x2 (ix2 (Spec.flat b i j) 0)).toInt = (x2 (ix3 b i j)).toInt + 16 * (b.val : Int) := by
  rw [val_main_v22_apply, val_main_v11_apply, val_main_v10_apply, val_main_v3_apply, labIdx_flat, imageWord_flat]
  exact segword_toInt _ (hk (ix3 b i j)) b

/-- The text labels' segment words are built as the kernel labels' are. -/
theorem v58_eq_v22 (x1 : IVec Spec.SLab 32) : val_main_v58 (F := Ideal) x1 = val_main_v22 (F := Ideal) x1 := rfl

theorem v54_eq_v22 (x1 : IVec Spec.SLab 32) : val_main_v54 (F := Ideal) x1 = val_main_v22 (F := Ideal) x1 := rfl

/-! ## The scalar segment sum -/

/-- The position of segment `(b, cls)` among the 128 segments. -/
def seg (b : Fin 8) (cls : Fin 16) : Fin 128 := ⟨16 * b.val + cls.val, by have := b.isLt; have := cls.isLt; omega⟩

/-- The accumulating scalar scatter of `upd` into zeros by segment words `idx` of a label map in range, read at segment
    `(b, cls)`: the sum of `upd` over the pixels of image `b` labelled `cls`. -/
theorem segsum_apply (lab : IVec Spec.SLab 32) (hl : Spec.InRange lab) (x : FVec Ideal S128 .f32) (hx : ∀ k, x k = 0)
    (idx : IVec S3276800x1 32) (upd : FVec Ideal S3276800 .f32)
    (hw : ∀ (b : Fin 8) (i j : Fin 640), (idx (ix2 (Spec.flat b i j) 0)).toInt = (lab (ix3 b i j)).toInt + 16 * (b.val : Int))
    (b : Fin 8) (cls : Fin 16) :
    Host.scatterAdd (F := Ideal) scatter_S128_S3276800x1_S3276800_n_0_0_1 x idx upd (ix1 (seg b cls))
      = ∑ i : Fin 640, ∑ j : Fin 640, Spec.ind (lab (ix3 b i j)) cls * upd (ix1 (Spec.flat b i j)) := by
  show Ideal.hostScatterAdd scatter_S128_S3276800x1_S3276800_n_0_0_1 x idx upd (ix1 (seg b cls)) = _
  rw [ScatterSum.vecScatterAdd_apply scatter_S128_S3276800x1_S3276800_n_0_0_1 rfl rfl rfl rfl, hx, zero_add]
  exact Spec.seg_sum lab hl (fun n => idx (ix2 n 0)) hw (fun n => upd (ix1 n)) b cls

/-- The reshape of the 128 segments to image × class reads `(b, cls)` at segment `16 b + cls`. -/
theorem idx_v24_seg (b : Fin 8) (cls : Fin 16) : idx_main_v24 (ix2 b cls) = ix1 (seg b cls) := by
  funext a
  match a with
  | ⟨0, _⟩ => exact Fin.ext (by show b.val * 16 + cls.val = 16 * b.val + cls.val; omega)

/-- The kernel pixel counts of the reference (the scalar segment sum of ones by the kernel labels' segment words, reshaped to image × class). -/
theorem v24_apply (x2 : IVec Spec.SLab 32) (hk : Spec.InRange x2) (b : Fin 8) (cls : Fin 16) :
    val_main_v24 (F := Ideal) x2 (ix2 b cls) = Spec.cnt x2 b cls := by
  rw [val_main_v24_apply, idx_v24_seg]
  unfold val_main_v23
  refine (segsum_apply x2 hk (val_main_v21 (F := Ideal)) (fun k => ?_) (val_main_v22 (F := Ideal) x2) (val_main_v16 (F := Ideal))
    (v22_word x2 hk) b cls).trans ?_
  · rw [val_main_v21_apply, val_main_cst_1_apply]
    exact Ideal.ofBits_zero_f32
  · unfold Spec.cnt
    refine Finset.sum_congr rfl fun i _ => Finset.sum_congr rfl fun j _ => ?_
    rw [val_main_v16_apply, val_main_cst_apply]
    show _ * Ideal.ofBits .f32 0x3F800000#32 = _
    rw [Ideal.ofBits_one_f32, mul_one]

/-- The text pixel counts are computed as the kernel pixel counts are, from the text labels. -/
theorem v60_eq_v24 (x1 : IVec Spec.SLab 32) : val_main_v60 (F := Ideal) x1 = val_main_v24 (F := Ideal) x1 := rfl

/-- The text pixel counts of the reference (the same segment sum by the text labels' segment words). -/
theorem v60_apply (x1 : IVec Spec.SLab 32) (ht : Spec.InRange x1) (b : Fin 8) (cls : Fin 16) :
    val_main_v60 (F := Ideal) x1 (ix2 b cls) = Spec.cnt x1 b cls := by
  rw [v60_eq_v24]
  exact v24_apply x1 ht b cls

end Cert.ReferenceIdeal.RefVal

end
-- ==== Proof.RefG.lean ====
/-
  The reference's centroids, read at an index: the row segment sum of the pixels' four embedding channels by the kernel
  labels' segment words, reshaped to image × class × channel, over the pixel counts floored at one, is `Spec.centroid`.
-/
import proofs.«410730_j59820304499339_4_alg».proof.Proof.RefRead
import proofs.«410730_j59820304499339_4_alg».proof.Proof.RefIdx
import proofs.«410730_j59820304499339_4_alg».proof.Proof.LibScatterSum
import proofs.«410730_j59820304499339_4_alg».proof.Proof.RefCnt
import Idealize.ShloMosaic.Lib.IdealHost

noncomputable section

namespace Cert.ReferenceIdeal.RefVal

open Idealize.ShloMosaic Idealize.ShloMosaic.ValueIdx
open Cert.ReferenceIdeal Cert.ReferenceIdeal.Gen Cert.ReferenceIdeal.ReadP
open scoped BigOperators

/-! ## The pixel-major embedding list read at a pixel number -/

/-- Row `flat b i j`, column `ch` of the `[3276800, 4]` list is element `(b, 640 i + j, ch)` of the pixel-major embeddings. -/
theorem idx_v15_flat (b : Fin 8) (i j : Fin 640) (ch : Fin 4) :
    idx_main_v15 (ix2 (Spec.flat b i j) ch)
      = ix3 b (⟨i.val * 640 + j.val, by have := i.isLt; have := j.isLt; omega⟩ : Fin 409600) ch := by
  have hb := b.isLt
  have hi := i.isLt
  have hj := j.isLt
  have hc := ch.isLt
  funext a
  match a with
  | ⟨0, _⟩ =>
    exact Fin.ext (by
      show (((b.val * 640 + i.val) * 640 + j.val) * 4 + ch.val) / 1638400 = b.val
      omega)
  | ⟨1, _⟩ =>
    exact Fin.ext (by
      show (((b.val * 640 + i.val) * 640 + j.val) * 4 + ch.val) / 4 % 409600 = i.val * 640 + j.val
      omega)
  | ⟨2, _⟩ =>
    exact Fin.ext (by
      show (((b.val * 640 + i.val) * 640 + j.val) * 4 + ch.val) % 4 = ch.val
      omega)

/-- The transpose to pixel-major order swaps the channel and the pixel position. -/
theorem idx_v2_swap (b : Fin 8) (p : Fin 409600) (ch : Fin 4) : idx_main_v2 (ix3 b p ch) = ix3 b ch p := by
  funext a
  match a with
  | ⟨0, _⟩ => rfl
  | ⟨1, _⟩ => rfl
  | ⟨2, _⟩ => rfl

/-- Position `640 i + j` of an image's flattened pixels is pixel `(i, j)`. -/
theorem idx_v1_pixel (b : Fin 8) (ch : Fin 4) (i j : Fin 640) :
    idx_main_v1 (ix3 b ch (⟨i.val * 640 + j.val, by have := i.isLt; have := j.isLt; omega⟩ : Fin 409600)) = ix4 b ch i j := by
  have hb := b.isLt
  have hi := i.isLt
  have hj := j.isLt
  have hc := ch.isLt
  funext a
  match a with
  | ⟨0, _⟩ =>
    exact Fin.ext (by
      show ((b.val * 4 + ch.val) * 409600 + (i.val * 640 + j.val)) / 1638400 = b.val
      omega)
  | ⟨1, _⟩ =>
    exact Fin.ext (by
      show ((b.val * 4 + ch.val) * 409600 + (i.val * 640 + j.val)) / 409600 % 4 = ch.val
      omega)
  | ⟨2, _⟩ =>
    exact Fin.ext (by
      show ((b.val * 4 + ch.val) * 409600 + (i.val * 640 + j.val)) / 640 % 640 = i.val
      omega)
  | ⟨3, _⟩ =>
    exact Fin.ext (by
      show ((b.val * 4 + ch.val) * 409600 + (i.val * 640 + j.val)) % 640 = j.val
      omega)

/-- Embedding channel `ch` is input channel `4 + ch`. -/
theorem idx_v0_channel (b : Fin 8) (ch : Fin 4) (i j : Fin 640) :
    idx_main_v0 (ix4 b ch i j) = ix4 b (⟨4 + ch.val, by have := ch.isLt; omega⟩ : Fin 8) i j := by
  funext a
  match a with
  | ⟨0, _⟩ => rfl
  | ⟨1, _⟩ => rfl
  | ⟨2, _⟩ => rfl
  | ⟨3, _⟩ => rfl

/-- The embedding list at pixel number `flat b i j`, channel `ch`: the pixel's embedding channel. -/
theorem v15_flat (x0 : Spec.SEmb.Idx → EReal) (b : Fin 8) (i j : Fin 640) (ch : Fin 4) :
    val_main_v15 (F := Ideal) x0 (ix2 (Spec.flat b i j) ch) = Spec.px x0 b ch i j := by
  rw [val_main_v15_apply, idx_v15_flat, val_main_v2_apply, idx_v2_swap, val_main_v1_apply, idx_v1_pixel, val_main_v0_apply,
    idx_v0_channel]
  rfl

/-! ## The row segment sum -/

/-- The accumulating row scatter of the rows `upd` into zeros by segment words `idx` of a label map in range, read at segment
    `(b, cls)`, column `ch`: the sum of column `ch` of `upd` over the pixels of image `b` labelled `cls`. -/
theorem rowsegsum_apply (lab : IVec Spec.SLab 32) (hl : Spec.InRange lab) (x : FVec Ideal S128x4 .f32) (hx : ∀ k, x k = 0)
    (idx : IVec S3276800x1 32) (upd : FVec Ideal S3276800x4 .f32)
    (hw : ∀ (b : Fin 8) (i j : Fin 640), (idx (ix2 (Spec.flat b i j) 0)).toInt = (lab (ix3 b i j)).toInt + 16 * (b.val : Int))
    (b : Fin 8) (cls : Fin 16) (ch : Fin 4) :
    Host.scatterAdd (F := Ideal) scatter_S128x4_S3276800x1_S3276800x4_1_0_0_1 x idx upd (ix2 (seg b cls) ch)
      = ∑ i : Fin 640, ∑ j : Fin 640, Spec.ind (lab (ix3 b i j)) cls * upd (ix2 (Spec.flat b i j) ch) := by
  show Ideal.hostScatterAdd scatter_S128x4_S3276800x1_S3276800x4_1_0_0_1 x idx upd (ix2 (seg b cls) ch) = _
  rw [ScatterSum.rowScatterAdd_apply scatter_S128x4_S3276800x1_S3276800x4_1_0_0_1 rfl rfl rfl rfl, hx, zero_add]
  exact Spec.seg_sum lab hl (fun n => idx (ix2 n 0)) hw (fun n => upd (ix2 n ch)) b cls

/-- The row scatter's segment words are the scalar scatter's. -/
theorem v18_eq_v22 (x2 : IVec Spec.SLab 32) : val_main_v18 (F := Ideal) x2 = val_main_v22 (F := Ideal) x2 := rfl

/-- The reshape of the 128 × 4 sums to image × class × channel reads `(b, cls, ch)` at row `16 b + cls`, column `ch`. -/
theorem idx_v20_seg (b : Fin 8) (cls : Fin 16) (ch : Fin 4) : idx_main_v20 (ix3 b cls ch) = ix2 (seg b cls) ch := by
  have hb := b.isLt
  have hm := cls.isLt
  have hc := ch.isLt
  funext a
  match a with
  | ⟨0, _⟩ =>
    exact Fin.ext (by
      show ((b.val * 16 + cls.val) * 4 + ch.val) / 4 = 16 * b.val + cls.val
      omega)
  | ⟨1, _⟩ =>
    exact Fin.ext (by
      show ((b.val * 16 + cls.val) * 4 + ch.val) % 4 = ch.val
      omega)

/-- The reference's per-class channel sums. -/
theorem v20_apply (x0 : Spec.SEmb.Idx → EReal) (x2 : IVec Spec.SLab 32) (hk : Spec.InRange x2) (b : Fin 8) (cls : Fin 16) (ch : Fin 4) :
    val_main_v20 (F := Ideal) x0 x2 (ix3 b cls ch) = Spec.esum x0 x2 b ch cls := by
  rw [val_main_v20_apply, idx_v20_seg]
  unfold val_main_v19
  refine (rowsegsum_apply x2 hk (val_main_v17 (F := Ideal)) (fun k => ?_) (val_main_v18 (F := Ideal) x2) (val_main_v15 (F := Ideal) x0)
    (fun b i j => ?_) b cls ch).trans ?_
  · rw [val_main_v17_apply, val_main_cst_0_apply]
    exact Ideal.ofBits_zero_f32
  · rw [v18_eq_v22]
    exact v22_word x2 hk b i j
  · unfold Spec.esum
    refine Finset.sum_congr rfl fun i _ => Finset.sum_congr rfl fun j _ => ?_
    rw [v15_flat, mul_comm]

/-- The divisor of the centroids: the pixel count floored at one, whatever the channel. -/
theorem v28_apply (x2 : IVec Spec.SLab 32) (hk : Spec.InRange x2) (b : Fin 8) (cls : Fin 16) (ch : Fin 4) :
    val_main_v28 (F := Ideal) x2 (ix3 b cls ch) = max (Spec.cnt x2 b cls) Spec.one := by
  rw [val_main_v28_apply, val_main_v27_apply, val_main_v26_apply]
  have e : idx_main_v27 (idx_main_v28 (ix3 b cls ch)) = ix2 b cls := by
    funext a
    match a with
    | ⟨0, _⟩ => rfl
    | ⟨1, _⟩ => rfl
  rw [e, v24_apply x2 hk b cls, val_main_v25_apply, val_main_cst_2_apply]
  rfl

/-- The centroid of class `cls` of image `b`, channel `ch`, as the reference computes it. -/
theorem v29_apply (x0 : Spec.SEmb.Idx → EReal) (x2 : IVec Spec.SLab 32) (hk : Spec.InRange x2) (b : Fin 8) (cls : Fin 16) (ch : Fin 4) :
    val_main_v29 (F := Ideal) x0 x2 (ix3 b cls ch) = Spec.centroid x0 x2 b ch cls := by
  rw [val_main_v29_apply, v20_apply x0 x2 hk b cls ch, v28_apply x2 hk b cls ch]
  rfl

end Cert.ReferenceIdeal.RefVal

end
-- ==== Proof.RefGather.lean ====
/-
  The reference gathers, for every pixel, the centroid row its text label names: a batched gather over the image axis
  with one start index per pixel along the class axis and a window of the four channels. With the start index a class
  0 … 15 the clamp of the start index changes nothing and the element read is the centroid array at (image, label, channel).
-/
import proofs.«410730_j59820304499339_4_alg».proof.ReferenceIdeal
import proofs.«410730_j59820304499339_4_alg».proof.Proof.Gen.ReferenceIdeal
import Idealize.ShloMosaic.Lib.ValueIdx

noncomputable section

namespace Cert.ReferenceIdeal.RefVal

open Idealize.ShloMosaic Idealize.ShloMosaic.ValueIdx Cert.ReferenceIdeal

/-- The class a label word in range names. -/
def classOf (w : BitVec 32) (h : 0 ≤ w.toInt ∧ w.toInt < 16) : Fin 16 := ⟨w.toInt.toNat, by omega⟩

local notation "gd" => gather_S8x16x4_S8x409600x1_S8x409600x4_2_1_0_0_1_2_114

/-- The start-indices index a result index reads its one start component at: the pixel's own, at component 0. -/
theorem gather_siIdx_eq (b : Fin 8) (p : Fin 409600) (ch : Fin 4) (c : Fin (gd).startIndexMap.length) :
    (gd).siIdx (ix3 b p ch) c = ix3 b p 0 := by
  funext a; refine Fin.ext ?_
  have hc : c.val = 0 := by
    have h1 : c.val < 1 := c.isLt
    omega
  match a with
  | ⟨0, _⟩ => rfl
  | ⟨1, _⟩ => rfl
  | ⟨2, _⟩ => exact hc

/-- On the image axis (a batching axis) the operand index is the result's image coordinate. -/
theorem gather_operandIdx_image {w : Nat} (idx : IVec S8x409600x1 w) (b : Fin 8) (p : Fin 409600) (ch : Fin 4) :
    ((gd).operandIdx (ix3 b p ch) idx 0).val = b.val := by
  show (gd).start (ix3 b p ch) idx 0 + (gd).batchCoord (ix3 b p ch) 0 + (gd).offCoord (ix3 b p ch) 0 = _
  rw [GatherDims.start_batching _ _ _ _ (List.mem_singleton.mpr rfl),
    GatherDims.offCoord_eq_zero _ _ _ (fun h => ((GatherDims.mem_sKept _ _).mp h).2 (List.mem_singleton.mpr rfl)),
    Nat.zero_add, Nat.add_zero]
  unfold GatherDims.batchCoord
  rw [dif_pos (show (0 : Fin 3) ∈ (gd).operandBatchingDims from List.mem_singleton.mpr rfl)]
  rfl

/-- On the class axis (collapsed, the one the start index names) the operand index is the start index read signed,
    which a class 0 … 15 leaves unclamped. -/
theorem gather_operandIdx_class (idx : IVec S8x409600x1 32) (b : Fin 8) (p : Fin 409600) (ch : Fin 4)
    (h : 0 ≤ (idx (ix3 b p 0)).toInt ∧ (idx (ix3 b p 0)).toInt < 16) :
    ((gd).operandIdx (ix3 b p ch) idx 1).val = (idx (ix3 b p 0)).toInt.toNat := by
  show (gd).start (ix3 b p ch) idx 1 + (gd).batchCoord (ix3 b p ch) 1 + (gd).offCoord (ix3 b p ch) 1 = _
  rw [GatherDims.batchCoord_eq_zero _ _ _ (by decide),
    GatherDims.offCoord_eq_zero _ _ _ (fun h => ((GatherDims.mem_sKept _ _).mp h).1 (List.mem_singleton.mpr rfl)),
    Nat.add_zero]
  unfold GatherDims.start
  rw [dif_pos (show (1 : Fin 3) ∈ (gd).startIndexMap from List.mem_singleton.mpr rfl), gather_siIdx_eq]
  show min (idx (ix3 b p 0)).toInt.toNat (16 - 1) = (idx (ix3 b p 0)).toInt.toNat
  omega

/-- On the channel axis (the window's) the operand index is the result's channel coordinate. -/
theorem gather_operandIdx_channel {w : Nat} (idx : IVec S8x409600x1 w) (b : Fin 8) (p : Fin 409600) (ch : Fin 4) :
    ((gd).operandIdx (ix3 b p ch) idx 2).val = ch.val := by
  show (gd).start (ix3 b p ch) idx 2 + (gd).batchCoord (ix3 b p ch) 2 + (gd).offCoord (ix3 b p ch) 2 = _
  rw [GatherDims.batchCoord_eq_zero _ _ _ (by decide), Nat.add_zero]
  unfold GatherDims.start
  rw [dif_neg (show (2 : Fin 3) ∉ (gd).startIndexMap by decide), Nat.zero_add]
  unfold GatherDims.offCoord
  rw [dif_pos (show (2 : Fin 3) ∈ (gd).sKept by decide)]
  rfl

theorem gather_apply {α : Type} (x : S8x16x4.Idx → α) (idx : IVec S8x409600x1 32) (b : Fin 8) (p : Fin 409600) (ch : Fin 4)
    (h : 0 ≤ (idx (ix3 b p 0)).toInt ∧ (idx (ix3 b p 0)).toInt < 16) :
    Host.gather gather_S8x16x4_S8x409600x1_S8x409600x4_2_1_0_0_1_2_114 x idx (ix3 b p ch)
      = x (ix3 b (classOf (idx (ix3 b p 0)) h) ch) := by
  unfold Host.gather
  congr 1
  funext a
  refine Fin.ext ?_
  match a with
  | ⟨0, _⟩ => exact gather_operandIdx_image idx b p ch
  | ⟨1, _⟩ => exact gather_operandIdx_class idx b p ch h
  | ⟨2, _⟩ => exact gather_operandIdx_channel idx b p ch

end Cert.ReferenceIdeal.RefVal

end
-- ==== Proof.RefPullPix.lean ====
/-
  A pixel's pull term as the reference computes it, read at the pixel's number in the row-major list of all pixels: the
  pixel gathers the centroid of its text label (in range, so the start index is the label itself and the gather's
  out-of-range fill is never taken), subtracts it from its four embedding channels, and takes
  log1p (max (sqrt (‖·‖² + ε) − ½) 0)²: `Spec.lpix` over `Spec.centroid`.
-/
import proofs.«410730_j59820304499339_4_alg».proof.Proof.RefRead
import proofs.«410730_j59820304499339_4_alg».proof.Proof.RefIdx
import proofs.«410730_j59820304499339_4_alg».proof.Proof.RefG
import proofs.«410730_j59820304499339_4_alg».proof.Proof.RefGather
import Idealize.ShloMosaic.Lib.Affine
import Idealize.ShloMosaic.Lib.ValueIdx
import Idealize.ShloMosaic.PureOps.Reduce
import Idealize.ShloMosaic.PureOps.Ideal.Laws
import Mathlib.Algebra.BigOperators.Group.Finset.Basic

noncomputable section

namespace Cert.ReferenceIdeal.RefVal

open Idealize.ShloMosaic Idealize.ShloMosaic.ValueIdx
open Cert.ReferenceIdeal Cert.ReferenceIdeal.Gen Cert.ReferenceIdeal.ReadP
open scoped BigOperators

namespace Pull

/-! ## Words -/

/-- A nonnegative word is not below zero … -/
theorem cmpi_slt_zero_of_nonneg (w : BitVec 32) (hw : 0 ≤ w.toInt) : IntOp.cmpi .slt w 0#32 = 0#1 :=
  eq_zero_of_ne_one fun h => by
    have := IntOp.cmpi_slt.1 h
    have h0 : (0#32 : BitVec 32).toInt = 0 := by decide
    omega

/-- … it is at least zero … -/
theorem cmpi_sge_zero_of_nonneg (w : BitVec 32) (hw : 0 ≤ w.toInt) : IntOp.cmpi .sge w 0#32 = 1#1 :=
  IntOp.cmpi_sge.2 (by
    have h0 : (0#32 : BitVec 32).toInt = 0 := by decide
    omega)

/-- … and a word below 16 is at most 15. -/
theorem cmpi_sle_fifteen_of_lt (w : BitVec 32) (hw : w.toInt < 16) : IntOp.cmpi .sle w 15#32 = 1#1 :=
  IntOp.cmpi_sle.2 (by
    have h0 : (15#32 : BitVec 32).toInt = 15 := by decide
    omega)

/-- A left fold by `and` from 1 over bits that are all 1 is 1. -/
theorem foldl_andi_one {ι : Type} (f : ι → BitVec 1) :
    ∀ (l : List ι), (∀ n ∈ l, f n = 1#1) → l.foldl (fun r n => IntOp.andi r (f n)) 1#1 = 1#1
  | [], _ => rfl
  | a :: l, h => by
    rw [List.foldl_cons, h a List.mem_cons_self]
    exact foldl_andi_one f l fun n hn => h n (List.mem_cons_of_mem _ hn)

/-! ## Pixels -/

/-- The row-major number of pixel `(i, j)` within its image. -/
def pix (i j : Fin 640) : Fin 409600 := ⟨i.val * 640 + j.val, by have := i.isLt; have := j.isLt; omega⟩

/-- The pixel-major embeddings at (image, pixel, channel): the float input's channel `4 + ch` at the pixel. -/
theorem v2_at (x0 : Spec.SEmb.Idx → EReal) (b : Fin 8) (i j : Fin 640) (ch : Fin 4) :
    val_main_v2 (F := Ideal) x0 (ix3 b (pix i j) ch) = Spec.px x0 b ch i j := by
  have hb := b.isLt
  have hi := i.isLt
  have hj := j.isLt
  have hc := ch.isLt
  refine (val_main_v2_apply (F := Ideal) x0 _).trans ((val_main_v1_apply (F := Ideal) x0 _).trans ((val_main_v0_apply (F := Ideal) x0 _).trans ?_))
  unfold Spec.px
  refine congrArg x0 (funext fun a => Fin.ext ?_)
  match a with
  | ⟨0, _⟩ =>
    show ((b.val * 4 + ch.val) * 409600 + (i.val * 640 + j.val)) / 1638400 = b.val
    omega
  | ⟨1, _⟩ =>
    show 4 + ((b.val * 4 + ch.val) * 409600 + (i.val * 640 + j.val)) / 409600 % 4 = 4 + ch.val
    omega
  | ⟨2, _⟩ =>
    show ((b.val * 4 + ch.val) * 409600 + (i.val * 640 + j.val)) / 640 % 640 = i.val
    omega
  | ⟨3, _⟩ =>
    show ((b.val * 4 + ch.val) * 409600 + (i.val * 640 + j.val)) % 640 = j.val
    omega

/-- The text labels as a [8, 409600] array, at (image, pixel). -/
theorem v4_at (x1 : IVec Spec.SLab 32) (b : Fin 8) (i j : Fin 640) :
    val_main_v4 (F := Ideal) x1 (ix2 b (pix i j)) = x1 (ix3 b i j) := by
  have hb := b.isLt
  have hi := i.isLt
  have hj := j.isLt
  refine (val_main_v4_apply (F := Ideal) x1 _).trans (congrArg x1 (funext fun a => Fin.ext ?_))
  match a with
  | ⟨0, _⟩ =>
    show (b.val * 409600 + (i.val * 640 + j.val)) / 409600 = b.val
    omega
  | ⟨1, _⟩ =>
    show (b.val * 409600 + (i.val * 640 + j.val)) / 640 % 640 = i.val
    omega
  | ⟨2, _⟩ =>
    show (b.val * 409600 + (i.val * 640 + j.val)) % 640 = j.val
    omega

/-- The text labels as a [8, 409600, 1] array read some label of the label map, so they are in range. -/
theorem v38_inRange (x1 : IVec Spec.SLab 32) (ht : Spec.InRange x1) (q : S8x409600x1.Idx) :
    0 ≤ (val_main_v38 (F := Ideal) x1 q).toInt ∧ (val_main_v38 (F := Ideal) x1 q).toInt < 16 := by
  rw [val_main_v38_apply, val_main_v4_apply]
  exact ht _

/-- The text labels as a [8, 409600, 1] array, at (image, pixel, 0). -/
theorem v38_at (x1 : IVec Spec.SLab 32) (b : Fin 8) (i j : Fin 640) :
    val_main_v38 (F := Ideal) x1 (ix3 b (pix i j) 0) = x1 (ix3 b i j) := by
  refine (val_main_v38_apply (F := Ideal) x1 _).trans ?_
  refine Eq.trans (congrArg (val_main_v4 (F := Ideal) x1) ?_) (v4_at x1 b i j)
  funext a
  match a with
  | ⟨0, _⟩ => rfl
  | ⟨1, _⟩ => rfl

/-! ## The centroid a pixel gathers -/

/-- In range, the start index's wrap "label below zero, add 16" is not taken: the start index is the label. -/
theorem call0_v4_eq (x1 : IVec Spec.SLab 32) (ht : Spec.InRange x1) (q : S8x409600x1.Idx) :
    val_main_call0_v4 (F := Ideal) x1 q = val_main_v38 (F := Ideal) x1 q := by
  have hr := v38_inRange x1 ht q
  rw [val_main_call0_v4_apply, val_main_call0_v1_apply, val_main_call0_v0_apply, val_main_call0_c_apply,
    cmpi_slt_zero_of_nonneg _ hr.1, select_zero]

/-- In range, the start index's in-bounds bit (0 ≤ start ∧ start ≤ 15) is set at every element … -/
theorem call0_v10_eq_one (x1 : IVec Spec.SLab 32) (ht : Spec.InRange x1) (q : S8x409600x1.Idx) :
    val_main_call0_v10 (F := Ideal) x1 q = 1#1 := by
  have hr := v38_inRange x1 ht q
  refine (val_main_call0_v10_apply (F := Ideal) x1 q).trans (IntOp.andi_eq_one.2 ⟨?_, ?_⟩)
  · rw [val_main_call0_v6_apply, call0_v4_eq x1 ht q, val_main_call0_v5_apply, val_main_call0_c_2_apply]
    exact cmpi_sge_zero_of_nonneg _ hr.1
  · rw [val_main_call0_v9_apply, call0_v4_eq x1 ht q, val_main_call0_v8_apply, val_main_call0_v7_apply,
      val_main_call0_c_1_apply]
    exact cmpi_sle_fifteen_of_lt _ hr.2

/-- … so its "and" over the index vector's one component is set too: no pixel takes the out-of-range fill. -/
theorem call0_v11_eq_one (x1 : IVec Spec.SLab 32) (ht : Spec.InRange x1) (q : S8x409600.Idx) :
    val_main_call0_v11 (F := Ideal) x1 q = 1#1 := by
  unfold val_main_call0_v11
  refine (Host.reduce_eq_foldl IntOp.andi _ _ _ _ q).trans ?_
  exact foldl_andi_one _ _ fun n _ => call0_v10_eq_one x1 ht n

/-- The indicator-weighted sum over the classes picks the class the label names. -/
theorem gpix_eq_of_class (tt : IVec Spec.SLab 32) (G : Fin 8 → Fin 4 → Fin 16 → EReal) (b : Fin 8) (c : Fin 4)
    (i j : Fin 640) (k : Fin 16) (hk : (tt (ix3 b i j)).toInt = (k.val : Int)) : Spec.gpix tt G b c i j = G b c k := by
  unfold Spec.gpix
  rw [Finset.sum_eq_single k]
  · unfold Spec.ind
    rw [if_pos hk, one_mul]
  · intro m _ hm
    unfold Spec.ind
    rw [if_neg, zero_mul]
    intro h
    exact hm (Fin.ext (by omega))
  · intro h
    exact absurd (Finset.mem_univ k) h

/-- What a pixel subtracts from its embedding, channel `ch`: the centroid of its text label's class. -/
theorem v39_at (x0 : Spec.SEmb.Idx → EReal) (x1 x2 : IVec Spec.SLab 32) (ht : Spec.InRange x1) (hk : Spec.InRange x2)
    (b : Fin 8) (i j : Fin 640) (ch : Fin 4) :
    val_main_v39 (F := Ideal) x0 x1 x2 (ix3 b (pix i j) ch) = Spec.gpix x1 (Spec.centroid x0 x2) b ch i j := by
  have hmask : val_main_call0_v13 (F := Ideal) x1 (ix3 b (pix i j) ch) = 1#1 :=
    (val_main_call0_v13_apply (F := Ideal) x1 _).trans (call0_v11_eq_one x1 ht _)
  have hw : val_main_call0_v4 (F := Ideal) x1 (ix3 b (pix i j) 0) = x1 (ix3 b i j) :=
    (call0_v4_eq x1 ht _).trans (v38_at x1 b i j)
  have hl := ht (ix3 b i j)
  have hr : 0 ≤ (val_main_call0_v4 (F := Ideal) x1 (ix3 b (pix i j) 0)).toInt
      ∧ (val_main_call0_v4 (F := Ideal) x1 (ix3 b (pix i j) 0)).toInt < 16 := by
    rw [hw]
    exact hl
  rw [val_main_v39_apply, hmask, select_one]
  unfold val_main_call0_v12
  refine (gather_apply (val_main_v29 (F := Ideal) x0 x2) (val_main_call0_v4 (F := Ideal) x1) b (pix i j) ch hr).trans ?_
  rw [v29_apply x0 x2 hk]
  refine (gpix_eq_of_class x1 (Spec.centroid x0 x2) b ch i j _ ?_).symm
  show (x1 (ix3 b i j)).toInt = (((val_main_call0_v4 (F := Ideal) x1 (ix3 b (pix i j) 0)).toInt.toNat : Nat) : Int)
  rw [hw, Int.toNat_of_nonneg hl.1]

/-! ## A pixel's pull term -/

/-- The squared distance of a pixel's embedding from the centroid it gathers. -/
theorem v42_at (x0 : Spec.SEmb.Idx → EReal) (x1 x2 : IVec Spec.SLab 32) (ht : Spec.InRange x1) (hk : Spec.InRange x2)
    (b : Fin 8) (i j : Fin 640) :
    val_main_v42 (F := Ideal) x0 x1 x2 (ix2 b (pix i j)) = Spec.dist2 x0 x1 (Spec.centroid x0 x2) b i j := by
  refine (val_main_v42_apply x0 x1 x2 _).trans ?_
  have h0 : ∀ q, val_main_cst_5 (F := Ideal) q = (0 : EReal) := fun q =>
    (val_main_cst_5_apply (F := Ideal) q).trans ((Ideal.ofBits_def _).trans Ideal.ofBits_zero_f32)
  rw [h0, zero_add]
  unfold Spec.dist2
  refine Finset.sum_congr rfl fun c _ => ?_
  have hi : idx_main_v42 (ix2 b (pix i j)) c = ix3 b (pix i j) c := by
    funext a
    match a with
    | ⟨0, _⟩ => rfl
    | ⟨1, _⟩ => rfl
    | ⟨2, _⟩ => rfl
  refine (congrArg (val_main_v41 (F := Ideal) x0 x1 x2) hi).trans ?_
  rw [val_main_v41_apply, val_main_v40_apply, Ideal.mulf_def, Ideal.subf_def, v2_at x0 b i j c,
    v39_at x0 x1 x2 ht hk b i j c]

/-- A pixel's pull term: log1p of the square of (the distance, with ε under the root, less one half, floored at zero). -/
theorem v51_at (x0 : Spec.SEmb.Idx → EReal) (x1 x2 : IVec Spec.SLab 32) (ht : Spec.InRange x1) (hk : Spec.InRange x2)
    (b : Fin 8) (i j : Fin 640) :
    val_main_v51 (F := Ideal) x0 x1 x2 (ix2 b (pix i j)) = Spec.lpix x0 x1 (Spec.centroid x0 x2) b i j := by
  rw [val_main_v51_apply, val_main_v50_apply, val_main_v49_apply, val_main_v47_apply, val_main_v45_apply,
    val_main_v44_apply, val_main_v43_apply, val_main_v46_apply, val_main_v48_apply,
    val_main_cst_6_apply, val_main_cst_7_apply, val_main_cst_8_apply, v42_at x0 x1 x2 ht hk b i j,
    Ideal.hostUnary_log1p_def, Ideal.mulf_def, Ideal.maximumf_def, Ideal.subf_def, Ideal.hostUnary_sqrt_def,
    Ideal.addf_def, Ideal.ofBits_def, Ideal.ofBits_def, Ideal.ofBits_def]
  rfl

end Pull

open Pull

/-- The pull terms as one list over all pixels, at pixel number `flat b i j`: the pixel's pull term. -/
theorem v52_flat (x0 : Spec.SEmb.Idx → EReal) (x1 x2 : IVec Spec.SLab 32) (ht : Spec.InRange x1) (hk : Spec.InRange x2)
    (b : Fin 8) (i j : Fin 640) :
    val_main_v52 (F := Ideal) x0 x1 x2 (ix1 (Spec.flat b i j)) = Spec.lpix x0 x1 (Spec.centroid x0 x2) b i j := by
  have hb := b.isLt
  have hi := i.isLt
  have hj := j.isLt
  refine (val_main_v52_apply (F := Ideal) x0 x1 x2 _).trans ?_
  refine Eq.trans (congrArg (val_main_v51 (F := Ideal) x0 x1 x2) ?_) (v51_at x0 x1 x2 ht hk b i j)
  funext a
  refine Fin.ext ?_
  match a with
  | ⟨0, _⟩ =>
    show ((b.val * 640 + i.val) * 640 + j.val) / 409600 = b.val
    omega
  | ⟨1, _⟩ =>
    show ((b.val * 640 + i.val) * 640 + j.val) % 409600 = i.val * 640 + j.val
    omega

end Cert.ReferenceIdeal.RefVal

end
-- ==== Proof.RefPull.lean ====
/-
  The reference's per-class sums of the pixels' pull terms, read at an index: each pixel gathers the centroid of its text
  label (in range, so the gather's out-of-range fill is never taken), takes its pull term, and the scalar segment sum by
  the text labels' segment words adds the terms up: `Spec.tsum` over `Spec.centroid`.
-/
import proofs.«410730_j59820304499339_4_alg».proof.Proof.RefRead
import proofs.«410730_j59820304499339_4_alg».proof.Proof.RefIdx
import proofs.«410730_j59820304499339_4_alg».proof.Proof.LibScatterSum
import proofs.«410730_j59820304499339_4_alg».proof.Proof.RefG
import proofs.«410730_j59820304499339_4_alg».proof.Proof.RefPullPix

noncomputable section

namespace Cert.ReferenceIdeal.RefVal

open Idealize.ShloMosaic Idealize.ShloMosaic.ValueIdx
open Cert.ReferenceIdeal Cert.ReferenceIdeal.Gen Cert.ReferenceIdeal.ReadP
open scoped BigOperators

namespace PullSum

/-- The reshape of the 128 segment sums of pull terms to image × class reads `(b, cls)` at segment `16 b + cls`. -/
theorem idx_v56_seg (b : Fin 8) (cls : Fin 16) : idx_main_v56 (ix2 b cls) = ix1 (seg b cls) := by
  funext a
  match a with
  | ⟨0, _⟩ => exact Fin.ext (by show b.val * 16 + cls.val = 16 * b.val + cls.val; omega)

end PullSum

/-- The sum of the pull terms of image `b`'s pixels whose text label is `cls`, as the reference computes it. -/
theorem v56_apply (x0 : Spec.SEmb.Idx → EReal) (x1 x2 : IVec Spec.SLab 32) (ht : Spec.InRange x1) (hk : Spec.InRange x2) (b : Fin 8) (cls : Fin 16) :
    val_main_v56 (F := Ideal) x0 x1 x2 (ix2 b cls) = Spec.tsum x0 x1 (Spec.centroid x0 x2) b cls := by
  rw [val_main_v56_apply, PullSum.idx_v56_seg]
  unfold val_main_v55
  refine (segsum_apply x1 ht (val_main_v53 (F := Ideal)) (fun k => ?_) (val_main_v54 (F := Ideal) x1)
    (val_main_v52 (F := Ideal) x0 x1 x2) (fun b i j => ?_) b cls).trans ?_
  · rw [val_main_v53_apply, val_main_cst_9_apply]
    exact Ideal.ofBits_zero_f32
  · rw [v54_eq_v22]
    exact v22_word x1 ht b i j
  · unfold Spec.tsum
    refine Finset.sum_congr rfl fun i _ => Finset.sum_congr rfl fun j _ => ?_
    rw [v52_flat x0 x1 x2 ht hk b i j]

end Cert.ReferenceIdeal.RefVal

end
-- ==== Proof.RefTail.lean ====
/-
  The reference's two results are the last stretch (`Tail.pull`, `Tail.push`) of its four small arrays: the operations
  after them are exactly the ones `Tail` spells.
-/
import proofs.«410730_j59820304499339_4_alg».proof.Proof.RefRead
import proofs.«410730_j59820304499339_4_alg».proof.Proof.Tail
import Idealize.ShloMosaic.Lib.ValueIdx

noncomputable section

namespace Cert.ReferenceIdeal.RefVal

open Idealize.ShloMosaic Idealize.ShloMosaic.ValueIdx
open Cert.ReferenceIdeal Cert.ReferenceIdeal.Gen Cert.ReferenceIdeal.ReadP
open scoped BigOperators

variable {F : FTy → Type} [FloatOps F]

theorem out0_eq (x0 : (⟨S8x8x640x640, .f32⟩ : BufTy).Contents (Elt F)) (x1 x2 : (⟨S8x640x640, .i32⟩ : BufTy).Contents (Elt F)) :
    val_main_v72 (F := F) x0 x1 x2
      = Tail.pull (val_main_v56 (F := F) x0 x1 x2) (val_main_v60 (F := F) x1) (Tail.validOf (val_main_v24 (F := F) x2))
          (Tail.nvR (Tail.validOf (val_main_v24 (F := F) x2))) := by
  unfold val_main_v72 val_main_v71 val_main_v70 val_main_cst_14 val_main_v69 val_main_cst_13 val_main_v68 val_main_v67
    val_main_v66 val_main_v65 val_main_c_12 val_main_v64 val_main_v63 val_main_v62 val_main_v61 val_main_cst_11
    val_main_v37 val_main_v36 val_main_v35 val_main_v34 val_main_c_4 val_main_v33 val_main_v32 val_main_v31 val_main_v30 val_main_cst_3
    Tail.pull Tail.nvR Tail.validOf
  rfl

theorem out1_eq (x0 : (⟨S8x8x640x640, .f32⟩ : BufTy).Contents (Elt F)) (x2 : (⟨S8x640x640, .i32⟩ : BufTy).Contents (Elt F)) :
    val_main_v110 (F := F) x0 x2
      = Tail.push (val_main_v29 (F := F) x0 x2) (Tail.validOf (val_main_v24 (F := F) x2))
          (Tail.nvR (Tail.validOf (val_main_v24 (F := F) x2))) := by
  unfold val_main_v110 val_main_call2_v1 val_main_call2_v0 val_main_cst_24 val_main_v109 val_main_v108 val_main_v107 val_main_cst_23
    val_main_v106 val_main_v105 val_main_cst_22 val_main_v104 val_main_v103 val_main_v102 val_main_cst_21
    val_main_v101 val_main_cst_20 val_main_v100 val_main_v99 val_main_v98 val_main_v97 val_main_v96 val_main_v95 val_main_v94
    val_main_v93 val_main_v92 val_main_v91 val_main_v90 val_main_v89 val_main_c_19
    val_main_call1_v5 val_main_call1_c_0 val_main_call1_v4 val_main_call1_v3 val_main_call1_v2 val_main_call1_v1 val_main_call1_c
    val_main_call1_v0
    val_main_v88 val_main_v87 val_main_v86 val_main_v85 val_main_cst_18 val_main_v84 val_main_v83 val_main_cst_17 val_main_v82
    val_main_v81 val_main_v80 val_main_cst_16 val_main_v79 val_main_cst_15 val_main_v78 val_main_v77 val_main_v76 val_main_v75
    val_main_v74 val_main_v73
    val_main_v66 val_main_v65 val_main_c_12 val_main_v64
    val_main_v37 val_main_v36 val_main_v35 val_main_v34 val_main_c_4 val_main_v33 val_main_v32 val_main_v31 val_main_v30 val_main_cst_3
    Tail.push Tail.upper Tail.nvR Tail.validOf
  rfl

end Cert.ReferenceIdeal.RefVal

end
-- ==== Proof.TailNv.lean ====
/-
  The two ways of counting an image's valid instances agree over the extended reals: the sum of sixteen bits taken in
  32-bit integers and then converted is the float sum of the sixteen bits converted one by one (the integer sum is at most
  sixteen, so it does not wrap).
-/
import proofs.«410730_j59820304499339_4_alg».proof.Proof.Tail
import proofs.«410730_j59820304499339_4_alg».proof.Proof.Gen.ReferenceIdeal
import Idealize.ShloMosaic.PureOps.Ideal.Laws
import Idealize.ShloMosaic.PureOps.Reduce
import Idealize.ShloMosaic.Lib.ValueIdx
import Idealize.ShloMosaic.Lib.IdealHost
import Mathlib.Algebra.BigOperators.Group.Finset.Basic
import Mathlib.Algebra.Order.BigOperators.Group.Finset
import Mathlib.Data.EReal.Basic

noncomputable section

namespace Cert.ReferenceIdeal.Tail

open Idealize.ShloMosaic Idealize.ShloMosaic.ValueIdx Cert.ReferenceIdeal
open scoped BigOperators

/-- A sum of bits is at most the number of bits. -/
theorem sum_bit_toNat_le_card {ι : Type} (s : Finset ι) (g : ι → BitVec 1) : ∑ k ∈ s, (g k).toNat ≤ s.card := by
  calc ∑ k ∈ s, (g k).toNat ≤ ∑ _k ∈ s, 1 := Finset.sum_le_sum fun k _ => by have := (g k).isLt; omega
    _ = s.card := by rw [Finset.sum_const, smul_eq_mul, mul_one]

/-- Fewer than 2³² bits, each widened to a 32-bit word and added up in 32-bit words, do not wrap: the word's value is the
    number of set bits. -/
theorem toNat_fold_addi_setWidth {ι : Type} (s : Finset ι) (g : ι → BitVec 1) (hs : s.card < 2 ^ 32) :
    (s.fold IntOp.addi 0#32 fun k => (g k).setWidth 32).toNat = ∑ k ∈ s, (g k).toNat := by
  classical
  induction s using Finset.induction_on with
  | empty => rfl
  | insert a s ha ih =>
    rw [Finset.card_insert_of_notMem ha] at hs
    have ih' := ih (by omega)
    have hle := sum_bit_toNat_le_card s g
    have ha1 := (g a).isLt
    rw [Finset.fold_insert ha, Finset.sum_insert ha]
    show ((g a).setWidth 32 + _).toNat = _
    rw [BitVec.toNat_add, ih', BitVec.toNat_setWidth_of_le (by omega)]
    exact Nat.mod_eq_of_lt (by omega)

/-- Fewer than 2³¹ such bits: the sum word, read signed, is the number of set bits too. -/
theorem toInt_fold_addi_setWidth {ι : Type} (s : Finset ι) (g : ι → BitVec 1) (hs : s.card < 2 ^ 31) :
    (s.fold IntOp.addi 0#32 fun k => (g k).setWidth 32).toInt = ((∑ k ∈ s, (g k).toNat : ℕ) : ℤ) := by
  have hn := toNat_fold_addi_setWidth s g (by omega)
  have hle := sum_bit_toNat_le_card s g
  rw [BitVec.toInt_eq_toNat_of_lt (by omega), hn]

/-- The extended real of a finite sum of reals is the sum of the extended reals. -/
theorem coe_sum_ereal {ι : Type} (s : Finset ι) (f : ι → ℝ) : ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-- The number of set bits among fewer than 2³¹, counted in 32-bit words and converted, is the sum of the bits converted
    one by one. -/
theorem coe_toInt_fold_eq_sum_coe_toNat {ι : Type} (s : Finset ι) (g : ι → BitVec 1) (hs : s.card < 2 ^ 31) :
    (((s.fold IntOp.addi 0#32 fun k => (g k).setWidth 32).toInt : ℝ) : EReal) = ∑ k ∈ s, (((g k).toNat : ℝ) : EReal) := by
  rw [toInt_fold_addi_setWidth s g hs, ← coe_sum_ereal]
  norm_cast

theorem nv_eq (valid : IVec S8x16 1) : nvR (F := Ideal) valid = nvK (F := Ideal) valid := by
  have h : S8x16.Reduces [1] S8 := by decide
  funext j
  unfold nvR nvK
  rw [sitofp_apply, hostReduceAdd_apply, Host.reduce_eq_fold_single IntOp.addi _ _ _ h _ j,
    Ideal.hostReduceAdd_single _ h]
  show ((((Finset.univ : Finset (Fin (S8x16.size 1))).fold IntOp.addi 0#32 fun k => (valid (h.lift j k)).setWidth 32).toInt : ℝ) : EReal)
    = Ideal.ofBits .f32 0x00000000#32 + ∑ k : Fin (S8x16.size 1), (((valid (h.lift j k)).toNat : ℝ) : EReal)
  rw [Ideal.ofBits_zero_f32, zero_add]
  exact coe_toInt_fold_eq_sum_coe_toNat _ _ (by rw [Finset.card_univ, Fintype.card_fin]; decide)

end Cert.ReferenceIdeal.Tail

end
-- ==== Proof.Bridge.lean ====
/-
  The bridge: both programs' results are the same last stretch of the same four small arrays.

  Index by index the kernel's small arrays (cut by its host operations out of the two regions' result arrays `A0`, `A1`)
  and the reference's (its segment sums) are the specification's `cnt`, `centroid` and `tsum`; the two ways of counting
  the valid instances agree; so the reference's results, as functions of the argument arrays, are the kernel's.
-/
import proofs.«410730_j59820304499339_4_alg».proof.Proof.KDefs
import proofs.«410730_j59820304499339_4_alg».proof.Proof.KHost
import proofs.«410730_j59820304499339_4_alg».proof.Proof.RefCnt
import proofs.«410730_j59820304499339_4_alg».proof.Proof.RefG
import proofs.«410730_j59820304499339_4_alg».proof.Proof.RefPull
import proofs.«410730_j59820304499339_4_alg».proof.Proof.RefTail
import proofs.«410730_j59820304499339_4_alg».proof.Proof.TailNv

noncomputable section

namespace Cert.Bridge

open Idealize.ShloMosaic Idealize.ShloMosaic.ValueIdx
open Cert.KernelIdeal.Val Cert.ReferenceIdeal Cert.ReferenceIdeal.ReadP Cert.ReferenceIdeal.RefVal

variable (x0 : Spec.SEmb.Idx → EReal) (x1 x2 : IVec Spec.SLab 32)

/-! ## The rows of the regions' result arrays -/

theorem A0_cnt (b : Fin 8) (cls : Fin 16) : A0 x0 x2 (ix3 b 4 cls) = Spec.cnt x2 b cls := by
  unfold A0
  exact dif_neg (show ¬ ((4 : Fin 5).val < 4) by decide)

theorem A0_sum (b : Fin 8) (ch : Fin 4) (cls : Fin 16) :
    A0 x0 x2 (ix3 b ⟨ch.val, by have := ch.isLt; omega⟩ cls) = Spec.esum x0 x2 b ch cls := by
  unfold A0
  exact dif_pos (show ch.val < 4 from ch.isLt)

theorem A1_cnt (G : Vec Ideal Cert.KernelIdeal.S8x4x16 .f32) (b : Fin 8) (cls : Fin 16) : A1 x0 x1 G (ix3 b 0 cls) = Spec.cnt x1 b cls := by
  unfold A1
  exact if_pos rfl

theorem A1_sum (G : Vec Ideal Cert.KernelIdeal.S8x4x16 .f32) (b : Fin 8) (cls : Fin 16) :
    A1 x0 x1 G (ix3 b 1 cls) = Spec.tsum x0 x1 (Gof G) b cls := by
  unfold A1
  exact if_neg (show ¬ ((1 : Fin 2).val = 0) by decide)

/-- The centroids the kernel's host operations cut out of region 0's array are the specification's. -/
theorem Gof_GK : Gof (GK (A0 x0 x2)) = Spec.centroid x0 x2 := by
  funext b ch cls
  unfold Gof Spec.centroid
  rw [GK_apply, A0_sum, A0_cnt]

/-! ## The four small arrays, kernel against reference -/

variable (ht : Spec.InRange x1) (hk : Spec.InRange x2)

include hk in
theorem cnt_k_eq : val_main_v24 (F := Ideal) x2 = cntK (A0 x0 x2) := by
  funext i
  obtain ⟨b, cls, rfl⟩ : ∃ (b : Fin 8) (cls : Fin 16), i = ix2 b cls := ⟨i 0, i 1, eq_ix2 i⟩
  rw [v24_apply x2 hk, cntK_apply, A0_cnt]

include hk in
theorem centroid_eq : val_main_v29 (F := Ideal) x0 x2 = G14 (GK (A0 x0 x2)) := by
  funext i
  obtain ⟨b, cls, ch, rfl⟩ : ∃ (b : Fin 8) (cls : Fin 16) (ch : Fin 4), i = ix3 b cls ch := ⟨i 0, i 1, i 2, eq_ix3 i⟩
  rw [v29_apply x0 x2 hk, G14_apply]
  exact (congrFun (congrFun (congrFun (Gof_GK x0 x2) b) ch) cls).symm

include ht in
theorem cnt_t_eq (G : Vec Ideal Cert.KernelIdeal.S8x4x16 .f32) : val_main_v60 (F := Ideal) x1 = cntT (A1 x0 x1 G) := by
  funext i
  obtain ⟨b, cls, rfl⟩ : ∃ (b : Fin 8) (cls : Fin 16), i = ix2 b cls := ⟨i 0, i 1, eq_ix2 i⟩
  rw [v60_apply x1 ht, cntT_apply, A1_cnt]

include ht hk in
theorem sum_t_eq : val_main_v56 (F := Ideal) x0 x1 x2 = sumT (A1 x0 x1 (GK (A0 x0 x2))) := by
  funext i
  obtain ⟨b, cls, rfl⟩ : ∃ (b : Fin 8) (cls : Fin 16), i = ix2 b cls := ⟨i 0, i 1, eq_ix2 i⟩
  rw [v56_apply x0 x1 x2 ht hk, sumT_apply, A1_sum, Gof_GK]

/-! ## The two results -/

include ht hk in
/-- The reference's first result is the pull loss of the kernel's small arrays. -/
theorem out0 :
    val_main_v72 (F := Ideal) x0 x1 x2
      = Tail.pull (sumT (A1 x0 x1 (GK (A0 x0 x2)))) (cntT (A1 x0 x1 (GK (A0 x0 x2))))
          (Tail.validOf (cntK (A0 x0 x2))) (Tail.nvK (Tail.validOf (cntK (A0 x0 x2)))) := by
  rw [out0_eq, Tail.nv_eq, sum_t_eq x0 x1 x2 ht hk, cnt_t_eq x0 x1 ht (GK (A0 x0 x2)), cnt_k_eq x0 x2 hk]

include hk in
/-- The reference's second result is the push loss of the kernel's small arrays. -/
theorem out1 :
    val_main_v110 (F := Ideal) x0 x2
      = Tail.push (G14 (GK (A0 x0 x2))) (Tail.validOf (cntK (A0 x0 x2))) (Tail.nvK (Tail.validOf (cntK (A0 x0 x2)))) := by
  rw [out1_eq, Tail.nv_eq, centroid_eq x0 x2 hk, cnt_k_eq x0 x2 hk]

end Cert.Bridge

end
-- ==== Proof.lean ====
/-
  The certificate of the pull / push embedding loss.

  The kernel computes, per image, the per-class centroids of the pixels' embeddings (a first region accumulating the
  channel sums and pixel counts of the kernel labels over five row tiles) and the per-class sums of the pixels' pull
  terms (a second region, against those centroids, over the text labels), and finishes with the pairwise push term and
  the means over the valid instances on the host; the reference takes the same sums as segment sums over all pixels and
  finishes the same way. With every label a class 0 … 15 the two are equal over the extended reals: a segment sum keeps,
  of all pixels, those of one image and one class, which is what a product with the class's indicator summed over the
  image's pixels keeps; gathering a centroid by the label is the sum over the classes of the label's indicator times the
  class's centroid; and the number of valid instances is the same whether the sixteen bits are added as integers or as
  floats. No law used needs finiteness: the precondition's float conjunct is never opened.

  The frames are the generated ones (the kernel's two programs) and the run of the reference over its generated stages with its
  results dropped; the kernel's idealization only removes round trips through bf16 of the one-hot arrays.
-/
import proofs.«410730_j59820304499339_4_alg».proof.Defs
import proofs.«410730_j59820304499339_4_alg».proof.Proof.Gen.Kernel
import proofs.«410730_j59820304499339_4_alg».proof.Proof.Gen.Kernel.Skeleton
import proofs.«410730_j59820304499339_4_alg».proof.Proof.Gen.Kernel.Launch
import proofs.«410730_j59820304499339_4_alg».proof.Proof.Gen.Kernel.Points
import proofs.«410730_j59820304499339_4_alg».proof.Proof.Gen.Kernel.Frame
import proofs.«410730_j59820304499339_4_alg».proof.Proof.Gen.KernelIdeal
import proofs.«410730_j59820304499339_4_alg».proof.Proof.Gen.KernelIdeal.Skeleton
import proofs.«410730_j59820304499339_4_alg».proof.Proof.Gen.KernelIdeal.Launch
import proofs.«410730_j59820304499339_4_alg».proof.Proof.Gen.KernelIdeal.Points
import proofs.«410730_j59820304499339_4_alg».proof.Proof.Gen.KernelIdeal.Frame
import proofs.«410730_j59820304499339_4_alg».proof.Proof.Gen.ReferenceIdeal
import proofs.«410730_j59820304499339_4_alg».proof.Proof.Gen.Pre_finite_inputs
import proofs.«410730_j59820304499339_4_alg».proof.Proof.RefRun
import proofs.«410730_j59820304499339_4_alg».proof.Proof.RefRead
import proofs.«410730_j59820304499339_4_alg».proof.Proof.RefRunH
import proofs.«410730_j59820304499339_4_alg».proof.Proof.KRun
import proofs.«410730_j59820304499339_4_alg».proof.Proof.KRegion0
import proofs.«410730_j59820304499339_4_alg».proof.Proof.KRegion1
import proofs.«410730_j59820304499339_4_alg».proof.Proof.KHostRun
import proofs.«410730_j59820304499339_4_alg».proof.Proof.PreRange
import proofs.«410730_j59820304499339_4_alg».proof.Proof.Bridge
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2.2) (Cert.ReferenceIdeal.RunH.run (F := Ideal) m ρ)

/-- The ideal pass removed eleven round trips of a one-hot array through bf16; each is the identity at the ideal instance. -/
theorem preserves : Cert.preserves_Kernel_KernelIdeal :=
  ⟨IdealRules.truncf_extf.statement _ .f32 .bf16, IdealRules.truncf_extf.statement _ .f32 .bf16,
   IdealRules.truncf_extf.statement _ .f32 .bf16, IdealRules.truncf_extf.statement _ .f32 .bf16,
   IdealRules.truncf_extf.statement _ .f32 .bf16, IdealRules.truncf_extf.statement _ .f32 .bf16,
   IdealRules.truncf_extf.statement _ .f32 .bf16, IdealRules.truncf_extf.statement _ .f32 .bf16,
   IdealRules.truncf_extf.statement _ .f32 .bf16, IdealRules.truncf_extf.statement _ .f32 .bf16,
   IdealRules.truncf_extf.statement _ .f32 .bf16⟩

open Cert.KernelIdeal.Val in
/-- The kernel's first result, as a function of the argument arrays. -/
theorem kernel_out0 (m : (ℓ : Loc Cert.KernelIdeal.nD Cert.KernelIdeal.τ Cert.KernelIdeal.sig) → Buf (Elt Ideal) ℓ)
    (ρ : Dev Cert.KernelIdeal.nD → PrngReg) (c : Dev Cert.KernelIdeal.nD)
    (ht : Spec.InRange (m ((c.tc : Thread Cert.KernelIdeal.nD Cert.KernelIdeal.τ).loc Cert.KernelIdeal.main_arg1)))
    (hk : Spec.InRange (m ((c.tc : Thread Cert.KernelIdeal.nD Cert.KernelIdeal.τ).loc Cert.KernelIdeal.main_arg2))) :
    Cert.KernelIdeal.Gen.W7 m ρ c (Proc.devRef .tc Cert.KernelIdeal.main_v32)
      = Cert.ReferenceIdeal.Tail.pull
          (sumT (A1 (m ((c.tc : Thread Cert.KernelIdeal.nD Cert.KernelIdeal.τ).loc Cert.KernelIdeal.main_arg0)) (m ((c.tc : Thread Cert.KernelIdeal.nD Cert.KernelIdeal.τ).loc Cert.KernelIdeal.main_arg1))
            (GK (A0 (m ((c.tc : Thread Cert.KernelIdeal.nD Cert.KernelIdeal.τ).loc Cert.KernelIdeal.main_arg0)) (m ((c.tc : Thread Cert.KernelIdeal.nD Cert.KernelIdeal.τ).loc Cert.KernelIdeal.main_arg2))))))
          (cntT (A1 (m ((c.tc : Thread Cert.KernelIdeal.nD Cert.KernelIdeal.τ).loc Cert.KernelIdeal.main_arg0)) (m ((c.tc : Thread Cert.KernelIdeal.nD Cert.KernelIdeal.τ).loc Cert.KernelIdeal.main_arg1))
            (GK (A0 (m ((c.tc : Thread Cert.KernelIdeal.nD Cert.KernelIdeal.τ).loc Cert.KernelIdeal.main_arg0)) (m ((c.tc : Thread Cert.KernelIdeal.nD Cert.KernelIdeal.τ).loc Cert.KernelIdeal.main_arg2))))))
          (Cert.ReferenceIdeal.Tail.validOf (cntK (A0 (m ((c.tc : Thread Cert.KernelIdeal.nD Cert.KernelIdeal.τ).loc Cert.KernelIdeal.main_arg0)) (m ((c.tc : Thread Cert.KernelIdeal.nD Cert.KernelIdeal.τ).loc Cert.KernelIdeal.main_arg2)))))
          (Cert.ReferenceIdeal.Tail.nvK (Cert.ReferenceIdeal.Tail.validOf (cntK (A0 (m ((c.tc : Thread Cert.KernelIdeal.nD Cert.KernelIdeal.τ).loc Cert.KernelIdeal.main_arg0)) (m ((c.tc : Thread Cert.KernelIdeal.nD Cert.KernelIdeal.τ).loc Cert.KernelIdeal.main_arg2)))))) := by
  rw [res0_eq, arr1 m ρ c ht, V2_v8, arr0 m ρ c hk]

open Cert.KernelIdeal.Val in
/-- The kernel's second result, as a function of the argument arrays. -/
theorem kernel_out1 (m : (ℓ : Loc Cert.KernelIdeal.nD Cert.KernelIdeal.τ Cert.KernelIdeal.sig) → Buf (Elt Ideal) ℓ)
    (ρ : Dev Cert.KernelIdeal.nD → PrngReg) (c : Dev Cert.KernelIdeal.nD)
    (hk : Spec.InRange (m ((c.tc : Thread Cert.KernelIdeal.nD Cert.KernelIdeal.τ).loc Cert.KernelIdeal.main_arg2))) :
    Cert.KernelIdeal.Gen.W7 m ρ c (Proc.devRef .tc Cert.KernelIdeal.main_v70)
      = Cert.ReferenceIdeal.Tail.push
          (G14 (GK (A0 (m ((c.tc : Thread Cert.KernelIdeal.nD Cert.KernelIdeal.τ).loc Cert.KernelIdeal.main_arg0)) (m ((c.tc : Thread Cert.KernelIdeal.nD Cert.KernelIdeal.τ).loc Cert.KernelIdeal.main_arg2)))))
          (Cert.ReferenceIdeal.Tail.validOf (cntK (A0 (m ((c.tc : Thread Cert.KernelIdeal.nD Cert.KernelIdeal.τ).loc Cert.KernelIdeal.main_arg0)) (m ((c.tc : Thread Cert.KernelIdeal.nD Cert.KernelIdeal.τ).loc Cert.KernelIdeal.main_arg2)))))
          (Cert.ReferenceIdeal.Tail.nvK (Cert.ReferenceIdeal.Tail.validOf (cntK (A0 (m ((c.tc : Thread Cert.KernelIdeal.nD Cert.KernelIdeal.τ).loc Cert.KernelIdeal.main_arg0)) (m ((c.tc : Thread Cert.KernelIdeal.nD Cert.KernelIdeal.τ).loc Cert.KernelIdeal.main_arg2)))))) := by
  rw [res1_eq, arr0 m ρ c hk]

/-- Under the precondition both programs run and end with equal results: the reference's results, read back by its
    generated run, are the last stretch of its small arrays, which are the kernel's (`Bridge.out0`, `Bridge.out1`). -/
theorem algebraic : Cert.algebraic_KernelIdeal_ReferenceIdeal := by
  intro m ρ m' ρ' hpre hagree
  refine ⟨fun c => Cert.KernelIdeal.Gen.W7 m ρ c (Proc.devRef .tc Cert.KernelIdeal.main_v32),
    fun c => Cert.KernelIdeal.Gen.W7 m ρ c (Proc.devRef .tc Cert.KernelIdeal.main_v70),
    Cert.KernelIdeal.Val.run (F := Ideal) m ρ, ?_⟩
  refine (θ_run Cert.ReferenceIdeal.defs _ _).mono (fun _ h c => ?_) (Cert.ReferenceIdeal.RunH.run (F := Ideal) m' ρ')
  obtain ⟨h0, h1, hargs⟩ := h c
  obtain ⟨ht, hk⟩ := range_of_pre m hpre c
  refine ⟨h0.trans ?_, h1.trans ?_, hargs⟩
  · rw [(hagree c).1, (hagree c).2.1, (hagree c).2.2.1]
    exact (Cert.Bridge.out0 _ _ _ ht hk).trans (kernel_out0 m ρ c ht hk).symm
  · rw [(hagree c).1, (hagree c).2.2.1]
    exact (Cert.Bridge.out1 _ _ hk).trans (kernel_out1 m ρ c hk).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
